-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4x1024 : Shape := ⟨3, ![8192, 4, 1024]⟩
abbrev S1024 : Shape := ⟨1, ![1024]⟩
abbrev S4096x4096 : Shape := ⟨2, ![4096, 4096]⟩
abbrev S4096 : Shape := ⟨1, ![4096]⟩
abbrev S4096x1024 : Shape := ⟨2, ![4096, 1024]⟩
abbrev S_ : Shape := ⟨0, ![]⟩

class Facts : Prop where
  bcast_S_S8192x4x1024 : S_.BroadcastsInDim S8192x4x1024 (![] : Fin 0 → Fin S8192x4x1024.rank)
  reducesTo_S8192x4x1024_S_d0_1_2 : S8192x4x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096 .f32) (main_arg5 : FVec F S4096x1024 .f32) (main_arg6 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x4x1024 .f32) (main_arg1 : FVec F S1024 .f32) (main_arg2 : FVec F S1024 .f32) (main_arg3 : FVec F S4096x4096 .f32) (main_arg4 : FVec F S4096 .f32) (main_arg5 : FVec F S4096x1024 .f32) (main_arg6 : FVec F S1024 .f32) : IVec S_ 1 :=
  let main_v0 : FVec F S8192x4x1024 .f32 := Host.absf main_arg0
  let main_cst : FVec F S_ .f32 := constant S_ .f32 0x7F800000#32
  let main_v1 : FVec F S8192x4x1024 .f32 := broadcastInDim S8192x4x1024 ![] bcast_S_S8192x4x1024 main_cst
  let main_v2 : IVec S8192x4x1024 1 := cmpf .olt main_v0 main_v1
  let main_c : IVec S_ 1 := constantI S_ 1 1#1
  let main_v3 : IVec S_ 1 := (fun x v => Host.reduce IntOp.andi x v reducesTo_S8192x4x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x4x1024 : Shape := ⟨3, ![8192, 4, 1024]⟩
abbrev S1024 : Shape := ⟨1, ![1024]⟩
abbrev S4096x4096 : Shape := ⟨2, ![4096, 4096]⟩
abbrev S4096 : Shape := ⟨1, ![4096]⟩
abbrev S4096x1024 : Shape := ⟨2, ![4096, 1024]⟩
abbrev S_ : Shape := ⟨0, ![]⟩
abbrev S8192x4 : Shape := ⟨2, ![8192, 4]⟩
abbrev S8192x4x1 : Shape := ⟨3, ![8192, 4, 1]⟩
abbrev S1x1x1024 : Shape := ⟨3, ![1, 1, 1024]⟩
abbrev S8192x0x1024 : Shape := ⟨3, ![8192, 0, 1024]⟩
abbrev S8192x3x1024 : Shape := ⟨3, ![8192, 3, 1024]⟩
abbrev S8192x1x1024 : Shape := ⟨3, ![8192, 1, 1024]⟩
abbrev S8192x2x1024 : Shape := ⟨3, ![8192, 2, 1024]⟩
abbrev S8192x1x4x1024 : Shape := ⟨4, ![8192, 1, 4, 1024]⟩
abbrev S8192x4x4x1024 : Shape := ⟨4, ![8192, 4, 4, 1024]⟩
abbrev S8192x4x4096 : Shape := ⟨3, ![8192, 4, 4096]⟩
abbrev S32768x4096 : Shape := ⟨2, ![32768, 4096]⟩
abbrev S32768x1024 : Shape := ⟨2, ![32768, 1024]⟩
abbrev S1x4096 : Shape := ⟨2, ![1, 4096]⟩
abbrev S1x1024 : Shape := ⟨2, ![1, 1024]⟩
abbrev S512x4096 : Shape := ⟨2, ![512, 4096]⟩
abbrev S4096x512 : Shape := ⟨2, ![4096, 512]⟩
abbrev S1x512 : Shape := ⟨2, ![1, 512]⟩
abbrev S512x1024 : Shape := ⟨2, ![512, 1024]⟩
abbrev S512x512 : Shape := ⟨2, ![512, 512]⟩

abbrev nBuf : Space → Nat
  | .hbm => 78
  | .vmem => 14
  | .smem => 0
  | _ => 0

abbrev bufTy : (tb : Table) → Fin (tcTables nBuf tb) → BufTy
  | .hbm, ⟨0, _⟩ => ⟨S8192x4x1024, .f32⟩
  | .hbm, ⟨1, _⟩ => ⟨S1024, .f32⟩
  | .hbm, ⟨2, _⟩ => ⟨S1024, .f32⟩
  | .hbm, ⟨3, _⟩ => ⟨S4096x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S_, .f32⟩
  | .hbm, ⟨8, _⟩ => ⟨S8192x4, .f32⟩
  | .hbm, ⟨9, _⟩ => ⟨S8192x4x1, .f32⟩
  | .hbm, ⟨10, _⟩ => ⟨S_, .f32⟩
  | .hbm, ⟨11, _⟩ => ⟨S8192x4x1, .f32⟩
  | .hbm, ⟨12, _⟩ => ⟨S8192x4x1, .f32⟩
  | .hbm, ⟨13, _⟩ => ⟨S_, .i32⟩
  | .hbm, ⟨14, _⟩ => ⟨S_, .f32⟩
  | .hbm, ⟨15, _⟩ => ⟨S8192x4, .f32⟩
  | .hbm, ⟨16, _⟩ => ⟨S8192x4x1, .f32⟩
  | .hbm, ⟨17, _⟩ => ⟨S_, .f32⟩
  | .hbm, ⟨18, _⟩ => ⟨S8192x4x1, .f32⟩
  | .hbm, ⟨19, _⟩ => ⟨S8192x4x1, .f32⟩
  | .hbm, ⟨20, _⟩ => ⟨S8192x4x1024, .f32⟩
  | .hbm, ⟨21, _⟩ => ⟨S8192x4x1024, .f32⟩
  | .hbm, ⟨22, _⟩ => ⟨S8192x4x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x4, .f32⟩
  | .hbm, ⟨28, _⟩ => ⟨S8192x4x1, .f32⟩
  | .hbm, ⟨29, _⟩ => ⟨S8192x4x1, .f32⟩
  | .hbm, ⟨30, _⟩ => ⟨S8192x4x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x1024, .f32⟩
  | .hbm, ⟨38, _⟩ => ⟨S8192x4x1024, .f32⟩
  | .hbm, ⟨39, _⟩ => ⟨S_, .f32⟩
  | .hbm, ⟨40, _⟩ => ⟨S8192x4x1, .f32⟩
  | .hbm, ⟨41, _⟩ => ⟨S8192x4x1, .f32⟩
  | .hbm, ⟨42, _⟩ => ⟨S8192x4x1, .f32⟩
  | .hbm, ⟨43, _⟩ => ⟨S8192x4x1024, .f32⟩
  | .hbm, ⟨44, _⟩ => ⟨S8192x4x1024, .f32⟩
  | .hbm, ⟨45, _⟩ => ⟨S1x1x1024, .f32⟩
  | .hbm, ⟨46, _⟩ => ⟨S8192x4x1024, .f32⟩
  | .hbm, ⟨47, _⟩ => ⟨S8192x4x1024, .f32⟩
  | .hbm, ⟨48, _⟩ => ⟨S1x1x1024, .f32⟩
  | .hbm, ⟨49, _⟩ => ⟨S8192x4x1024, .f32⟩
  | .hbm, ⟨50, _⟩ => ⟨S8192x4x1024, .f32⟩
  | .hbm, ⟨51, _⟩ => ⟨S8192x4x1024, .f32⟩
  | .hbm, ⟨52, _⟩ => ⟨S8192x0x1024, .f32⟩
  | .hbm, ⟨53, _⟩ => ⟨S8192x4x1024, .f32⟩
  | .hbm, ⟨54, _⟩ => ⟨S8192x3x1024, .f32⟩
  | .hbm, ⟨55, _⟩ => ⟨S8192x1x1024, .f32⟩
  | .hbm, ⟨56, _⟩ => ⟨S8192x4x1024, .f32⟩
  | .hbm, ⟨57, _⟩ => ⟨S8192x2x1024, .f32⟩
  | .hbm, ⟨58, _⟩ => ⟨S8192x2x1024, .f32⟩
  | .hbm, ⟨59, _⟩ => ⟨S8192x4x1024, .f32⟩
  | .hbm, ⟨60, _⟩ => ⟨S8192x1x1024, .f32⟩
  | .hbm, ⟨61, _⟩ => ⟨S8192x3x1024, .f32⟩
  | .hbm, ⟨62, _⟩ => ⟨S8192x4x1024, .f32⟩
  | .hbm, ⟨63, _⟩ => ⟨S8192x1x4x1024, .f32⟩
  | .hbm, ⟨64, _⟩ => ⟨S8192x1x4x1024, .f32⟩
  | .hbm, ⟨65, _⟩ => ⟨S8192x1x4x1024, .f32⟩
  | .hbm, ⟨66, _⟩ => ⟨S8192x1x4x1024, .f32⟩
  | .hbm, ⟨67, _⟩ => ⟨S8192x4x4x1024, .f32⟩
  | .hbm, ⟨68, _⟩ => ⟨S8192x4x4096, .f32⟩
  | .hbm, ⟨69, _⟩ => ⟨S32768x4096, .f32⟩
  | .hbm, ⟨70, _⟩ => ⟨S32768x4096, .bf16⟩
  | .hbm, ⟨71, _⟩ => ⟨S32768x1024, .f32⟩
  | .hbm, ⟨72, _⟩ => ⟨S4096x4096, .bf16⟩
  | .hbm, ⟨73, _⟩ => ⟨S4096x1024, .bf16⟩
  | .hbm, ⟨74, _⟩ => ⟨S1x4096, .f32⟩
  | .hbm, ⟨75, _⟩ => ⟨S1x1024, .f32⟩
  | .hbm, ⟨76, _⟩ => ⟨S32768x1024, .f32⟩
  | .hbm, ⟨77, _⟩ => ⟨S8192x4x1024, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_call1_v0 : Ref sig .tc := ⟨.hbm, 51, rfl⟩
abbrev main_call1_v1 : Ref sig .tc := ⟨.hbm, 52, rfl⟩
abbrev main_v18 : Ref sig .tc := ⟨.hbm, 53, rfl⟩
abbrev main_call2_v0 : Ref sig .tc := ⟨.hbm, 54, rfl⟩
abbrev main_call2_v1 : Ref sig .tc := ⟨.hbm, 55, rfl⟩
abbrev main_v19 : Ref sig .tc := ⟨.hbm, 56, rfl⟩
abbrev main_call3_v0 : Ref sig .tc := ⟨.hbm, 57, rfl⟩
abbrev main_call3_v1 : Ref sig .tc := ⟨.hbm, 58, rfl⟩
abbrev main_v20 : Ref sig .tc := ⟨.hbm, 59, rfl⟩
abbrev main_call4_v0 : Ref sig .tc := ⟨.hbm, 60, rfl⟩
abbrev main_call4_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x4x1024_S8192x4_d2 : S8192x4x1024.ReducesTo [2] S8192x4
  h_S_ : 0 < S_.numel
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S8192x4x1_S8192x4x1024_0_1_2 : S8192x4x1.BroadcastsInDim S8192x4x1024 (![0, 1, 2] : Fin 3 → Fin S8192x4x1024.rank)
  bcast_S1024_S1x1x1024_2 : S1024.BroadcastsInDim S1x1x1024 (![2] : Fin 1 → Fin S1x1x1024.rank)
  bcast_S1x1x1024_S8192x4x1024_0_1_2 : S1x1x1024.BroadcastsInDim S8192x4x1024 (![0, 1, 2] : Fin 3 → Fin S8192x4x1024.rank)
  slices_S8192x4x1024_S8192x4x1024_0_0_0 : S8192x4x1024.Slices ![0, 0, 0] S8192x4x1024
  slices_S8192x4x1024_S8192x0x1024_0_0_0 : S8192x4x1024.Slices ![0, 0, 0] S8192x0x1024
  concatenates_S8192x4x1024_S8192x0x1024_S8192x4x1024_d1 : Shape.Concatenates [S8192x4x1024, S8192x0x1024] S8192x4x1024 1
  slices_S8192x4x1024_S8192x3x1024_0_1_0 : S8192x4x1024.Slices ![0, 1, 0] S8192x3x1024
  slices_S8192x4x1024_S8192x1x1024_0_0_0 : S8192x4x1024.Slices ![0, 0, 0] S8192x1x1024
  concatenates_S8192x3x1024_S8192x1x1024_S8192x4x1024_d1 : Shape.Concatenates [S8192x3x1024, S8192x1x1024] S8192x4x1024 1
  slices_S8192x4x1024_S8192x2x1024_0_2_0 : S8192x4x1024.Slices ![0, 2, 0] S8192x2x1024
  slices_S8192x4x1024_S8192x2x1024_0_0_0 : S8192x4x1024.Slices ![0, 0, 0] S8192x2x1024
  concatenates_S8192x2x1024_S8192x2x1024_S8192x4x1024_d1 : Shape.Concatenates [S8192x2x1024, S8192x2x1024] S8192x4x1024 1
  slices_S8192x4x1024_S8192x1x1024_0_3_0 : S8192x4x1024.Slices ![0, 3, 0] S8192x1x1024
  slices_S8192x4x1024_S8192x3x1024_0_0_0 : S8192x4x1024.Slices ![0, 0, 0] S8192x3x1024
  concatenates_S8192x1x1024_S8192x3x1024_S8192x4x1024_d1 : Shape.Concatenates [S8192x1x1024, S8192x3x1024] S8192x4x1024 1
  bcast_S8192x4x1024_S8192x1x4x1024_0_2_3 : S8192x4x1024.BroadcastsInDim S8192x1x4x1024 (![0, 2, 3] : Fin 3 → Fin S8192x1x4x1024.rank)
  concatenates_S8192x1x4x1024_S8192x1x4x1024_S8192x1x4x1024_S8192x1x4x1024_S8192x4x4x1024_d1 : Shape.Concatenates [S8192x1x4x1024, S8192x1x4x1024, S8192x1x4x1024, S8192x1x4x1024] S8192x4x4x1024 1
  shapeCasts_S8192x4x4x1024_S8192x4x4096 : S8192x4x4x1024.ShapeCasts S8192x4x4096
  shapeCasts_S8192x4x4096_S32768x4096 : S8192x4x4096.ShapeCasts S32768x4096
  bitsLt_bf16_f32 : FTy.bits .bf16 < FTy.bits .f32
  shapeCasts_S8192x4x1024_S32768x1024 : S8192x4x1024.ShapeCasts S32768x1024
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S8192x4x1024 : S32768x1024.ShapeCasts S8192x4x1024
  dot_S512x4096_S4096x512_S512x512_1_0_0_1_n_n_wf : DotDims.WF S512x4096 S4096x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .bf16 = 32 ∨ (Rect.block (s := S32768x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v29) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v35) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x4x1024 : Shape := ⟨3, ![8192, 4, 1024]⟩
abbrev S1024 : Shape := ⟨1, ![1024]⟩
abbrev S4096x4096 : Shape := ⟨2, ![4096, 4096]⟩
abbrev S4096 : Shape := ⟨1, ![4096]⟩
abbrev S4096x1024 : Shape := ⟨2, ![4096, 1024]⟩
abbrev S_ : Shape := ⟨0, ![]⟩
abbrev S8192x4 : Shape := ⟨2, ![8192, 4]⟩
abbrev S8192x4x1 : Shape := ⟨3, ![8192, 4, 1]⟩
abbrev S1x1x1024 : Shape := ⟨3, ![1, 1, 1024]⟩
abbrev S8192x0x1024 : Shape := ⟨3, ![8192, 0, 1024]⟩
abbrev S8192x3x1024 : Shape := ⟨3, ![8192, 3, 1024]⟩
abbrev S8192x1x1024 : Shape := ⟨3, ![8192, 1, 1024]⟩
abbrev S8192x2x1024 : Shape := ⟨3, ![8192, 2, 1024]⟩
abbrev S8192x1x4x1024 : Shape := ⟨4, ![8192, 1, 4, 1024]⟩
abbrev S8192x4x4x1024 : Shape := ⟨4, ![8192, 4, 4, 1024]⟩
abbrev S8192x4x4096 : Shape := ⟨3, ![8192, 4, 4096]⟩
abbrev S1x1x4096 : Shape := ⟨3, ![1, 1, 4096]⟩

abbrev nBuf : Space → Nat
  | .hbm => 95
  | .vmem => 0
  | .smem => 0
  | _ => 0

abbrev bufTy : (tb : Table) → Fin (tcTables nBuf tb) → BufTy
  | .hbm, ⟨0, _⟩ => ⟨S8192x4x1024, .f32⟩
  | .hbm, ⟨1, _⟩ => ⟨S1024, .f32⟩
  | .hbm, ⟨2, _⟩ => ⟨S1024, .f32⟩
  | .hbm, ⟨3, _⟩ => ⟨S4096x4096, .f32⟩
  | .hbm, ⟨4, _⟩ => ⟨S4096, .f32⟩
  | .hbm, ⟨5, _⟩ => ⟨S4096x1024, .f32⟩
  | .hbm, ⟨6, _⟩ => ⟨S1024, .f32⟩
  | .hbm, ⟨7, _⟩ => ⟨S_, .f32⟩
  | .hbm, ⟨8, _⟩ => ⟨S8192x4, .f32⟩
  | .hbm, ⟨9, _⟩ => ⟨S8192x4x1, .f32⟩
  | .hbm, ⟨10, _⟩ => ⟨S_, .f32⟩
  | .hbm, ⟨11, _⟩ => ⟨S8192x4x1, .f32⟩
  | .hbm, ⟨12, _⟩ => ⟨S8192x4x1, .f32⟩
  | .hbm, ⟨13, _⟩ => ⟨S_, .i32⟩
  | .hbm, ⟨14, _⟩ => ⟨S_, .f32⟩
  | .hbm, ⟨15, _⟩ => ⟨S8192x4, .f32⟩
  | .hbm, ⟨16, _⟩ => ⟨S8192x4x1, .f32⟩
  | .hbm, ⟨17, _⟩ => ⟨S_, .f32⟩
  | .hbm, ⟨18, _⟩ => ⟨S8192x4x1, .f32⟩
  | .hbm, ⟨19, _⟩ => ⟨S8192x4x1, .f32⟩
  | .hbm, ⟨20, _⟩ => ⟨S8192x4x1024, .f32⟩
  | .hbm, ⟨21, _⟩ => ⟨S8192x4x1024, .f32⟩
  | .hbm, ⟨22, _⟩ => ⟨S8192x4x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x4, .f32⟩
  | .hbm, ⟨28, _⟩ => ⟨S8192x4x1, .f32⟩
  | .hbm, ⟨29, _⟩ => ⟨S8192x4x1, .f32⟩
  | .hbm, ⟨30, _⟩ => ⟨S8192x4x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x1024, .f32⟩
  | .hbm, ⟨38, _⟩ => ⟨S8192x4x1024, .f32⟩
  | .hbm, ⟨39, _⟩ => ⟨S_, .f32⟩
  | .hbm, ⟨40, _⟩ => ⟨S8192x4x1, .f32⟩
  | .hbm, ⟨41, _⟩ => ⟨S8192x4x1, .f32⟩
  | .hbm, ⟨42, _⟩ => ⟨S8192x4x1, .f32⟩
  | .hbm, ⟨43, _⟩ => ⟨S8192x4x1024, .f32⟩
  | .hbm, ⟨44, _⟩ => ⟨S8192x4x1024, .f32⟩
  | .hbm, ⟨45, _⟩ => ⟨S1x1x1024, .f32⟩
  | .hbm, ⟨46, _⟩ => ⟨S8192x4x1024, .f32⟩
  | .hbm, ⟨47, _⟩ => ⟨S8192x4x1024, .f32⟩
  | .hbm, ⟨48, _⟩ => ⟨S1x1x1024, .f32⟩
  | .hbm, ⟨49, _⟩ => ⟨S8192x4x1024, .f32⟩
  | .hbm, ⟨50, _⟩ => ⟨S8192x4x1024, .f32⟩
  | .hbm, ⟨51, _⟩ => ⟨S8192x4x1024, .f32⟩
  | .hbm, ⟨52, _⟩ => ⟨S8192x0x1024, .f32⟩
  | .hbm, ⟨53, _⟩ => ⟨S8192x4x1024, .f32⟩
  | .hbm, ⟨54, _⟩ => ⟨S8192x3x1024, .f32⟩
  | .hbm, ⟨55, _⟩ => ⟨S8192x1x1024, .f32⟩
  | .hbm, ⟨56, _⟩ => ⟨S8192x4x1024, .f32⟩
  | .hbm, ⟨57, _⟩ => ⟨S8192x2x1024, .f32⟩
  | .hbm, ⟨58, _⟩ => ⟨S8192x2x1024, .f32⟩
  | .hbm, ⟨59, _⟩ => ⟨S8192x4x1024, .f32⟩
  | .hbm, ⟨60, _⟩ => ⟨S8192x1x1024, .f32⟩
  | .hbm, ⟨61, _⟩ => ⟨S8192x3x1024, .f32⟩
  | .hbm, ⟨62, _⟩ => ⟨S8192x4x1024, .f32⟩
  | .hbm, ⟨63, _⟩ => ⟨S8192x1x4x1024, .f32⟩
  | .hbm, ⟨64, _⟩ => ⟨S8192x1x4x1024, .f32⟩
  | .hbm, ⟨65, _⟩ => ⟨S8192x1x4x1024, .f32⟩
  | .hbm, ⟨66, _⟩ => ⟨S8192x1x4x1024, .f32⟩
  | .hbm, ⟨67, _⟩ => ⟨S8192x4x4x1024, .f32⟩
  | .hbm, ⟨68, _⟩ => ⟨S8192x4x4096, .f32⟩
  | .hbm, ⟨69, _⟩ => ⟨S8192x4x4096, .f32⟩
  | .hbm, ⟨70, _⟩ => ⟨S1x1x4096, .f32⟩
  | .hbm, ⟨71, _⟩ => ⟨S8192x4x4096, .f32⟩
  | .hbm, ⟨72, _⟩ => ⟨S8192x4x4096, .f32⟩
  | .hbm, ⟨73, _⟩ => ⟨S8192x4x4096, .f32⟩
  | .hbm, ⟨74, _⟩ => ⟨S8192x4x4096, .f32⟩
  | .hbm, ⟨75, _⟩ => ⟨S_, .f32⟩
  | .hbm, ⟨76, _⟩ => ⟨S8192x4x4096, .f32⟩
  | .hbm, ⟨77, _⟩ => ⟨S8192x4x4096, .f32⟩
  | .hbm, ⟨78, _⟩ => ⟨S8192x4x4096, .f32⟩
  | .hbm, ⟨79, _⟩ => ⟨S_, .f32⟩
  | .hbm, ⟨80, _⟩ => ⟨S8192x4x4096, .f32⟩
  | .hbm, ⟨81, _⟩ => ⟨S8192x4x4096, .f32⟩
  | .hbm, ⟨82, _⟩ => ⟨S8192x4x4096, .f32⟩
  | .hbm, ⟨83, _⟩ => ⟨S_, .f32⟩
  | .hbm, ⟨84, _⟩ => ⟨S8192x4x4096, .f32⟩
  | .hbm, ⟨85, _⟩ => ⟨S8192x4x4096, .f32⟩
  | .hbm, ⟨86, _⟩ => ⟨S_, .f32⟩
  | .hbm, ⟨87, _⟩ => ⟨S8192x4x4096, .f32⟩
  | .hbm, ⟨88, _⟩ => ⟨S8192x4x4096, .f32⟩
  | .hbm, ⟨89, _⟩ => ⟨S8192x4x4096, .f32⟩
  | .hbm, ⟨90, _⟩ => ⟨S8192x4x1024, .f32⟩
  | .hbm, ⟨91, _⟩ => ⟨S1x1x1024, .f32⟩
  | .hbm, ⟨92, _⟩ => ⟨S8192x4x1024, .f32⟩
  | .hbm, ⟨93, _⟩ => ⟨S8192x4x1024, .f32⟩
  | .hbm, ⟨94, _⟩ => ⟨S8192x4x1024, .f32⟩
  | _, _ => ⟨S8192x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_call1_v0 : Ref sig .tc := ⟨.hbm, 51, rfl⟩
abbrev main_call1_v1 : Ref sig .tc := ⟨.hbm, 52, rfl⟩
abbrev main_v18 : Ref sig .tc := ⟨.hbm, 53, rfl⟩
abbrev main_call2_v0 : Ref sig .tc := ⟨.hbm, 54, rfl⟩
abbrev main_call2_v1 : Ref sig .tc := ⟨.hbm, 55, rfl⟩
abbrev main_v19 : Ref sig .tc := ⟨.hbm, 56, rfl⟩
abbrev main_call3_v0 : Ref sig .tc := ⟨.hbm, 57, rfl⟩
abbrev main_call3_v1 : Ref sig .tc := ⟨.hbm, 58, rfl⟩
abbrev main_v20 : Ref sig .tc := ⟨.hbm, 59, rfl⟩
abbrev main_call4_v0 : Ref sig .tc := ⟨.hbm, 60, rfl⟩
abbrev main_call4_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_2 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_3 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_4 : Ref sig .tc := ⟨.hbm, 83, rfl⟩
abbrev main_v40 : Ref sig .tc := ⟨.hbm, 84, rfl⟩
abbrev main_v41 : Ref sig .tc := ⟨.hbm, 85, rfl⟩
abbrev main_cst_5 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩

abbrev nD : Nat := 1
abbrev τ : Topo := Topo.v7x

variable {F : FTy → Type} [FloatOps F]

class Facts₀ : Prop where
  reducesTo_S8192x4x1024_S8192x4_d2 : S8192x4x1024.ReducesTo [2] S8192x4
  h_S_ : 0 < S_.numel
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S8192x4x1_S8192x4x1024_0_1_2 : S8192x4x1.BroadcastsInDim S8192x4x1024 (![0, 1, 2] : Fin 3 → Fin S8192x4x1024.rank)
  bcast_S1024_S1x1x1024_2 : S1024.BroadcastsInDim S1x1x1024 (![2] : Fin 1 → Fin S1x1x1024.rank)
  bcast_S1x1x1024_S8192x4x1024_0_1_2 : S1x1x1024.BroadcastsInDim S8192x4x1024 (![0, 1, 2] : Fin 3 → Fin S8192x4x1024.rank)
  slices_S8192x4x1024_S8192x4x1024_0_0_0 : S8192x4x1024.Slices ![0, 0, 0] S8192x4x1024
  slices_S8192x4x1024_S8192x0x1024_0_0_0 : S8192x4x1024.Slices ![0, 0, 0] S8192x0x1024
  concatenates_S8192x4x1024_S8192x0x1024_S8192x4x1024_d1 : Shape.Concatenates [S8192x4x1024, S8192x0x1024] S8192x4x1024 1
  slices_S8192x4x1024_S8192x3x1024_0_1_0 : S8192x4x1024.Slices ![0, 1, 0] S8192x3x1024
  slices_S8192x4x1024_S8192x1x1024_0_0_0 : S8192x4x1024.Slices ![0, 0, 0] S8192x1x1024
  concatenates_S8192x3x1024_S8192x1x1024_S8192x4x1024_d1 : Shape.Concatenates [S8192x3x1024, S8192x1x1024] S8192x4x1024 1
  slices_S8192x4x1024_S8192x2x1024_0_2_0 : S8192x4x1024.Slices ![0, 2, 0] S8192x2x1024
  slices_S8192x4x1024_S8192x2x1024_0_0_0 : S8192x4x1024.Slices ![0, 0, 0] S8192x2x1024
  concatenates_S8192x2x1024_S8192x2x1024_S8192x4x1024_d1 : Shape.Concatenates [S8192x2x1024, S8192x2x1024] S8192x4x1024 1
  slices_S8192x4x1024_S8192x1x1024_0_3_0 : S8192x4x1024.Slices ![0, 3, 0] S8192x1x1024
  slices_S8192x4x1024_S8192x3x1024_0_0_0 : S8192x4x1024.Slices ![0, 0, 0] S8192x3x1024
  concatenates_S8192x1x1024_S8192x3x1024_S8192x4x1024_d1 : Shape.Concatenates [S8192x1x1024, S8192x3x1024] S8192x4x1024 1
  bcast_S8192x4x1024_S8192x1x4x1024_0_2_3 : S8192x4x1024.BroadcastsInDim S8192x1x4x1024 (![0, 2, 3] : Fin 3 → Fin S8192x1x4x1024.rank)
  concatenates_S8192x1x4x1024_S8192x1x4x1024_S8192x1x4x1024_S8192x1x4x1024_S8192x4x4x1024_d1 : Shape.Concatenates [S8192x1x4x1024, S8192x1x4x1024, S8192x1x4x1024, S8192x1x4x1024] S8192x4x4x1024 1
  shapeCasts_S8192x4x4x1024_S8192x4x4096 : S8192x4x4x1024.ShapeCasts S8192x4x4096
  bcast_S4096_S1x1x4096_2 : S4096.BroadcastsInDim S1x1x4096 (![2] : Fin 1 → Fin S1x1x4096.rank)
  bcast_S1x1x4096_S8192x4x4096_0_1_2 : S1x1x4096.BroadcastsInDim S8192x4x4096 (![0, 1, 2] : Fin 3 → Fin S8192x4x4096.rank)
  bcast_S_S8192x4x4096 : S_.BroadcastsInDim S8192x4x4096 (![] : Fin 0 → Fin S8192x4x4096.rank)
  dot_S8192x4x4096_S4096x4096_S8192x4x4096_2_0_01_1_n_n_wf : DotDims.WF S8192x4x4096 S4096x4096 S8192x4x4096 [2] [0] [0, 1] [1] [] []
  dot_S8192x4x4096_S4096x1024_S8192x4x1024_2_0_01_1_n_n_wf : DotDims.WF S8192x4x4096 S4096x1024 S8192x4x1024 [2] [0] [0, 1] [1] [] []

variable [Facts₀]

def dot_S8192x4x4096_S4096x4096_S8192x4x4096_2_0_01_1_n_n : DotDims S8192x4x4096 S4096x4096 S8192x4x4096 where
  lhsContracting := [2]
  rhsContracting := [0]
  lhsNonContracting := [0, 1]
  rhsNonContracting := [1]
  lhsBatch := []
  rhsBatch := []
  wf := dot_S8192x4x4096_S4096x4096_S8192x4x4096_2_0_01_1_n_n_wf
def dot_S8192x4x4096_S4096x1024_S8192x4x1024_2_0_01_1_n_n : DotDims S8192x4x4096 S4096x1024 S8192x4x1024 where
  lhsContracting := [2]
  rhsContracting := [0]
  lhsNonContracting := [0, 1]
  rhsNonContracting := [1]
  lhsBatch := []
  rhsBatch := []
  wf := dot_S8192x4x4096_S4096x1024_S8192x4x1024_2_0_01_1_n_n_wf

class Facts : Prop extends Facts₀ where

variable [Facts]
-- ==== Proof.K.Kit.lean ====
/-
  The launch side of the one pallas_call, stated for any float instance: what the TensorCore's buffers hold when the
  region is entered (the LayerNorm, the four rolls, their concatenation and the casts and reshapes are host lines
  before it; one reshape comes after it), that none of those lines writes an argument array, each window's block at a
  grid point, the two branch conditions of the body in closed form over the 64 × 8 grid (the accumulator is reset where
  the second coordinate is 0, the output is stored where it is 7), and where the output window is idle.
-/
import proofs.«114533_j75574244540703_1_alg».proof.Proof.Gen.Kernel.Launch
import proofs.«114533_j75574244540703_1_alg».proof.Proof.Gen.Kernel.Skeleton
import proofs.«114533_j75574244540703_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the eight stretches of host lines before it. -/
abbrev V0 (c : Dev nD) : Valuation τ sig (Elt F) := StableHlo.after (List.flatten [hostOps0, hostOps0_1, hostOps0_2, hostOps0_3, hostOps0_4, hostOps0_5, hostOps0_6, hostOps0_7]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7] [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The line after the region touches unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only the reshaped result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data whose arrays are the region-entry contents: every
    argument array ends as launched (no window stages an argument; the lines around the region write none). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

/-! ## The body's branch conditions -/

/-- "The second grid coordinate is 0": where the accumulator is reset. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "The second grid coordinate is 7": where the output block is stored. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the accumulator is reset the output window is idle and not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- At the middle points likewise. -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- Where the output block is stored the window is live. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window, through which its contents are stated. -/
abbrev VO0_6 : View sig .tc .vmem S512x1024 .f32 := (Memref.whole cc0_stg6_0 : Memref sig .tc .vmem S512x1024 .f32).view
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S512x1024 .f32 := Memref.whole cc0_scratch0
abbrev VS0_0 : View sig .tc .vmem S512x1024 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The kernel body run at a point where the accumulator is reset (second grid coordinate 0), on any whole staging memrefs: the six input
  blocks are handed back as they were, and what the body's stores leave in the accumulator (and in the output block, where
  it is stored) is recorded as the list of pieces written.
-/
import proofs.«114533_j75574244540703_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) :
    Σ' (L6 : List (View.Piece (Elt F) S512x1024 .f32)), { LS0 : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨[], ?_, fun xi6 E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.RunB.lean ====
/-
  The kernel body run at a point where the accumulator is neither reset nor read out (second grid coordinate 1 … 6), on any whole staging memrefs: the six input
  blocks are handed back as they were, and what the body's stores leave in the accumulator (and in the output block, where
  it is stored) is recorded as the list of pieces written.
-/
import proofs.«114533_j75574244540703_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) :
    Σ' (L6 : List (View.Piece (Elt F) S512x1024 .f32)), { LS0 : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨[], ?_, fun xi6 E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.RunC.lean ====
/-
  The kernel body run at a point where the output block is stored (second grid coordinate 7), on any whole staging memrefs: the six input
  blocks are handed back as they were, and what the body's stores leave in the accumulator (and in the output block, where
  it is stored) is recorded as the list of pieces written.
-/
import proofs.«114533_j75574244540703_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) :
    Σ' (L6 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨?_, ?_, fun E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.Frame.lean ====
/-
  The frame of the one pallas_call, for any float instance. What the accumulator and the output window's staging buffer
  hold after each grid point is defined by recursion on the point: a point whose second coordinate is 0 starts the
  accumulator afresh, every other point continues from what the point before left, and the point whose second coordinate
  is 7 also stores the output block. With that as the pipeline's proof data, the body's three runs discharge the body
  obligation point by point, and the launch theorem for a region between host lines gives the run of @main.
-/
import proofs.«114533_j75574244540703_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What this case leaves in the output window's staging buffer: its pieces read back (none: the window is idle here and nothing consults this). -/
def out0_A_6 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) : Vec F S512x1024 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- The stores into the accumulator cover it. -/
theorem scover0_A_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (y : S512x1024.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S512x1024.size (by sl_kernel_rfl) y

/-- What this case leaves in the accumulator: its pieces read back. -/
def sout0_A_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- What this case leaves in the output window's staging buffer: its pieces read back (none: the window is idle here and nothing consults this). -/
def out0_B_6 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) : Vec F S512x1024 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- The stores into the accumulator cover it. -/
theorem scover0_B_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) (y : S512x1024.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S512x1024.size (by sl_kernel_rfl) y

/-- What this case leaves in the accumulator: its pieces read back. -/
def sout0_B_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- Where the output block is stored, its one store covers the block. -/
theorem cover0_C_6 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) (y : S512x1024.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S512x1024.size (by sl_kernel_rfl) y

/-- What this case leaves in the output window's staging buffer: its pieces read back. -/
def out0_C_6 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) : Vec F S512x1024 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- The stores into the accumulator cover it. -/
theorem scover0_C_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) (y : S512x1024.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S512x1024.size (by sl_kernel_rfl) y

/-- What this case leaves in the accumulator: its pieces read back. -/
def sout0_C_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) : Vec F S512x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the buffers hold after each point -/

/-- After the body at position `n`: (the output window's staging buffer, the accumulator). -/
def outsAt0 (c : Dev nD) : (n : ℕ) → n < cfg0.N → Vec F S512x1024 .f32 × Vec F S512x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point. The closed forms say which case the point is in; the inputs' buffers hold their blocks; the
    invariant hands the body the accumulator at what the point before left (at anything at the first point) and takes it
    back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [outsAt0_C m c t h0 h1]
      unfold out0_C_6 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
/-- From any memory with zero counters every weakly fair execution of @main terminates, each array of the pipeline
    ending at what the proof data computes and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KI.Kit.lean ====
/-
  The launch side of the one pallas_call, stated for any float instance: what the TensorCore's buffers hold when the
  region is entered (the LayerNorm, the four rolls, their concatenation and the casts and reshapes are host lines
  before it; one reshape comes after it), that none of those lines writes an argument array, each window's block at a
  grid point, the two branch conditions of the body in closed form over the 64 × 8 grid (the accumulator is reset where
  the second coordinate is 0, the output is stored where it is 7), and where the output window is idle.
-/
import proofs.«114533_j75574244540703_1_alg».proof.Proof.Gen.KernelIdeal.Launch
import proofs.«114533_j75574244540703_1_alg».proof.Proof.Gen.KernelIdeal.Skeleton
import proofs.«114533_j75574244540703_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the eight stretches of host lines before it. -/
abbrev V0 (c : Dev nD) : Valuation τ sig (Elt F) := StableHlo.after (List.flatten [hostOps0, hostOps0_1, hostOps0_2, hostOps0_3, hostOps0_4, hostOps0_5, hostOps0_6, hostOps0_7]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the one reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7] [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The line after the region touches unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline (only the reshaped result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data whose arrays are the region-entry contents: every
    argument array ends as launched (no window stages an argument; the lines around the region write none). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

/-! ## The body's branch conditions -/

/-- "The second grid coordinate is 0": where the accumulator is reset. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "The second grid coordinate is 7": where the output block is stored. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the accumulator is reset the output window is idle and not written back. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
/-- At the middle points likewise. -/
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
/-- Where the output block is stored the window is live. -/
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window, through which its contents are stated. -/
abbrev VO0_6 : View sig .tc .vmem S512x1024 .f32 := (Memref.whole cc0_stg6_0 : Memref sig .tc .vmem S512x1024 .f32).view
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S512x1024 .f32 := Memref.whole cc0_scratch0
abbrev VS0_0 : View sig .tc .vmem S512x1024 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body run at a point where the accumulator is reset (second grid coordinate 0), on any whole staging memrefs: the six input
  blocks are handed back as they were, and what the body's stores leave in the accumulator (and in the output block, where
  it is stored) is recorded as the list of pieces written.
-/
import proofs.«114533_j75574244540703_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) :
    Σ' (L6 : List (View.Piece (Elt F) S512x1024 .f32)), { LS0 : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨[], ?_, fun xi6 E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.RunB.lean ====
/-
  The kernel body run at a point where the accumulator is neither reset nor read out (second grid coordinate 1 … 6), on any whole staging memrefs: the six input
  blocks are handed back as they were, and what the body's stores leave in the accumulator (and in the output block, where
  it is stored) is recorded as the list of pieces written.
-/
import proofs.«114533_j75574244540703_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) :
    Σ' (L6 : List (View.Piece (Elt F) S512x1024 .f32)), { LS0 : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨[], ?_, fun xi6 E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.RunC.lean ====
/-
  The kernel body run at a point where the output block is stored (second grid coordinate 7), on any whole staging memrefs: the six input
  blocks are handed back as they were, and what the body's stores leave in the accumulator (and in the output block, where
  it is stored) is recorded as the list of pieces written.
-/
import proofs.«114533_j75574244540703_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) :
    Σ' (L6 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9) K } := by
  refine ⟨?_, ?_, fun E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Frame.lean ====
/-
  The frame of the one pallas_call, for any float instance. What the accumulator and the output window's staging buffer
  hold after each grid point is defined by recursion on the point: a point whose second coordinate is 0 starts the
  accumulator afresh, every other point continues from what the point before left, and the point whose second coordinate
  is 7 also stores the output block. With that as the pipeline's proof data, the body's three runs discharge the body
  obligation point by point, and the launch theorem for a region between host lines gives the run of @main.
-/
import proofs.«114533_j75574244540703_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What this case leaves in the output window's staging buffer: its pieces read back (none: the window is idle here and nothing consults this). -/
def out0_A_6 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) : Vec F S512x1024 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- The stores into the accumulator cover it. -/
theorem scover0_A_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (y : S512x1024.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S512x1024.size (by sl_kernel_rfl) y

/-- What this case leaves in the accumulator: its pieces read back. -/
def sout0_A_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- What this case leaves in the output window's staging buffer: its pieces read back (none: the window is idle here and nothing consults this). -/
def out0_B_6 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) : Vec F S512x1024 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- The stores into the accumulator cover it. -/
theorem scover0_B_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) (y : S512x1024.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S512x1024.size (by sl_kernel_rfl) y

/-- What this case leaves in the accumulator: its pieces read back. -/
def sout0_B_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- Where the output block is stored, its one store covers the block. -/
theorem cover0_C_6 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) (y : S512x1024.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S512x1024.size (by sl_kernel_rfl) y

/-- What this case leaves in the output window's staging buffer: its pieces read back. -/
def out0_C_6 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) : Vec F S512x1024 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- The stores into the accumulator cover it. -/
theorem scover0_C_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) (y : S512x1024.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S512x1024.size (by sl_kernel_rfl) y

/-- What this case leaves in the accumulator: its pieces read back. -/
def sout0_C_0 (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) : Vec F S512x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the buffers hold after each point -/

/-- After the body at position `n`: (the output window's staging buffer, the accumulator). -/
def outsAt0 (c : Dev nD) : (n : ℕ) → n < cfg0.N → Vec F S512x1024 .f32 × Vec F S512x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what
    the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point. The closed forms say which case the point is in; the inputs' buffers hold their blocks; the
    invariant hands the body the accumulator at what the point before left (at anything at the first point) and takes it
    back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 512 := lt_of_lt_of_eq t.isLt (show cfg0.N = 512 from N_0)
  by_cases h0 : t.val % 8 = 0
  · by_cases h1 : t.val % 8 = 7
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [outsAt0_C m c t h0 h1]
      unfold out0_C_6 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
/-- From any memory with zero counters every weakly fair execution of @main terminates, each array of the pipeline
    ending at what the proof data computes and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.KI.Pieces.lean ====
/-
  What each case of the body leaves behind, as a value. The accumulator ends at the body's one accumulating store:
  (what it held) + gelu(rolls-block · W1-block + b1-block) · W2-block, where at a reset point "what it held" is the zero
  block just stored; at the last mid block the output block is (accumulator + b2) + x.
-/
import proofs.«114533_j75574244540703_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- At a reset point the accumulator ends at the accumulating store's value over the zero block. -/
theorem sout_A (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) :
    sout0_A_0 c i arg2 harg2 arg3 harg3 arg4 harg4 arg5 harg5 arg6 harg6 arg7 harg7 arg8 harg8 arg9 harg9 hc0 hc1 x0 x1 x2 x3 x4 x5 = k0_pay3 x0 x1 x2 (k0_pay2 (F := F)) x3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x1024) hz2]
  simp only [View.readAt_eq_ld, harg2.read_unread, harg3.read_unread, harg4.read_unread, harg5.read_unread, harg6.read_unread, harg7.read_unread, harg8.read_unread, harg9.read_unread, View.ld_unit_zero (S := S512x4096) hz2, View.ld_unit_zero (S := S4096x512) hz2, View.ld_unit_zero (S := S1x512) hz2, View.ld_unit_zero (S := S512x1024) hz2, View.ld_unit_zero (S := S1x1024) hz2, View.readCov_unit_zero (S := S512x1024) _ hz2]

/-- At a middle point it ends at the accumulating store's value over what the point before left. -/
theorem sout_B (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) :
    sout0_B_0 c i arg2 harg2 arg3 harg3 arg4 harg4 arg5 harg5 arg6 harg6 arg7 harg7 arg8 harg8 arg9 harg9 hc0 hc1 x0 x1 x2 x3 x4 x5 xs0 = k0_pay3 x0 x1 x2 xs0 x3 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x4096) hz2, View.ld_unit_zero (S := S4096x512) hz2, View.ld_unit_zero (S := S1x512) hz2, View.ld_unit_zero (S := S512x1024) hz2, View.ld_unit_zero (S := S1x1024) hz2]

/-- At the last mid block likewise, -/
theorem sout_C (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) :
    sout0_C_0 c i arg2 harg2 arg3 harg3 arg4 harg4 arg5 harg5 arg6 harg6 arg7 harg7 arg8 harg8 arg9 harg9 hc0 hc1 x0 x1 x2 x3 x4 x5 xs0 = k0_pay3 x0 x1 x2 xs0 x3 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x4096) hz2, View.ld_unit_zero (S := S4096x512) hz2, View.ld_unit_zero (S := S1x512) hz2, View.ld_unit_zero (S := S512x1024) hz2, View.ld_unit_zero (S := S1x1024) hz2]

/-- and the output block is the final accumulator plus the bias row plus the residual block. -/
theorem out_C (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x4096 .bf16) (x1 : Vec F S4096x512 .bf16) (x2 : Vec F S1x512 .f32) (x3 : Vec F S512x1024 .bf16) (x4 : Vec F S1x1024 .f32) (x5 : Vec F S512x1024 .f32) (xs0 : Vec F S512x1024 .f32) :
    out0_C_6 c i arg2 harg2 arg3 harg3 arg4 harg4 arg5 harg5 arg6 harg6 arg7 harg7 arg8 harg8 arg9 harg9 hc0 hc1 x0 x1 x2 x3 x4 x5 xs0 = k0_pay1 (k0_pay3 x0 x1 x2 xs0 x3) x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S512x4096) hz2, View.ld_unit_zero (S := S4096x512) hz2, View.ld_unit_zero (S := S1x512) hz2, View.ld_unit_zero (S := S512x1024) hz2, View.ld_unit_zero (S := S1x1024) hz2, View.readCov_unit_zero (S := S512x1024) _ hz2]

end Cert.KernelIdeal.Hand

end
-- ==== Proof.Spec.lean ====
/-
  The mathematics of the block, stated once over plain functions on literal index sets, with no program in sight.

  Per row r of the flattened (batch·4) axis and output column w:
      hid r n  = Σ_f  R[r,f] · W1[f,n] + b1[n]                         (n over the 4096 mid columns)
      out r w  = Σ_n  gelu(hid r n) · W2[n,w] + b2[w] + x[r,w]
  with gelu h = h · (½ · (1 + tanh(c₂ · (h + c₁ · h³)))) multiplied out in a fixed order.
  The kernel walks the mid axis in 8 blocks of 512 columns and keeps a running sum that starts at 0; the
  reference takes the whole sum at once, cubes as (h·h)·h where the kernel has h·(h·h), and adds the residual
  first. On the extended reals + and · are commutative and associative, which is all that joins the two forms.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The four literals of the tanh form of GELU, as the extended reals their f32 words denote. -/
def cCube : EReal := Ideal.ofBits .f32 0x3D372713#32
def cScale : EReal := Ideal.ofBits .f32 0x3F4C422A#32
def cOne : EReal := Ideal.ofBits .f32 0x3F800000#32
def cHalf : EReal := Ideal.ofBits .f32 0x3F000000#32

/-- GELU with the cube taken as h·(h·h). -/
def gelu (h : EReal) : EReal := h * (cHalf * (cOne + Ideal.tanh (cScale * (h + cCube * (h * (h * h))))))
/-- GELU with the cube taken as (h·h)·h. -/
def geluR (h : EReal) : EReal := h * (cHalf * (cOne + Ideal.tanh (cScale * (h + cCube * ((h * h) * h)))))

/-- The two orders of the cube agree: multiplication of extended reals commutes. -/
theorem geluR_eq (h : EReal) : geluR h = gelu h := by
  unfold geluR gelu
  rw [mul_comm (h * h) h]

/-! ## The flat form: rows r < 32768 -/

/-- The hidden pre-activation of row r at mid column n. -/
def hidF (Rf : (⟨2, ![32768, 4096]⟩ : Shape).Idx → EReal) (W1 : (⟨2, ![4096, 4096]⟩ : Shape).Idx → EReal)
    (b1r : (⟨2, ![1, 4096]⟩ : Shape).Idx → EReal) (r : Fin 32768) (n : Fin 4096) : EReal :=
  (∑ f : Fin 4096, Rf (ix2 r f) * W1 (ix2 f n)) + b1r (ix2 (0 : Fin 1) n)

/-- Mid column 512·j + k: column k of block j. -/
def midIx (j : Fin 8) (k : Fin 512) : Fin 4096 := ⟨512 * j.val + k.val, by omega⟩

/-- Block j's share of out[r,w]: the sum over that block's 512 mid columns. -/
def dBlk (Rf : (⟨2, ![32768, 4096]⟩ : Shape).Idx → EReal) (W1 : (⟨2, ![4096, 4096]⟩ : Shape).Idx → EReal)
    (b1r : (⟨2, ![1, 4096]⟩ : Shape).Idx → EReal) (W2 : (⟨2, ![4096, 1024]⟩ : Shape).Idx → EReal)
    (r : Fin 32768) (w : Fin 1024) (j : Fin 8) : EReal :=
  ∑ k : Fin 512, gelu (hidF Rf W1 b1r r (midIx j k)) * W2 (ix2 (midIx j k) w)

/-- The running sum after the blocks 0 … n, started from 0. -/
def accUpTo (d : Fin 8 → EReal) : (n : ℕ) → n < 8 → EReal
  | 0, _ => 0 + d 0
  | n + 1, h => accUpTo d n (by omega) + d ⟨n + 1, h⟩

/-- After the last block the running sum is the sum of all eight shares. -/
theorem accUpTo_seven (d : Fin 8 → EReal) : accUpTo d 7 (by decide) = ∑ j : Fin 8, d j := by
  rw [Fin.sum_univ_eight]
  simp only [accUpTo, zero_add]
  rfl

/-- Writing a mid column as 512·j + k is a bijection between the pairs (block, column in block) and the 4096 columns;
    its inverse is division with remainder by 512. -/
def blockEquiv : Fin 8 × Fin 512 ≃ Fin 4096 where
  toFun p := midIx p.1 p.2
  invFun n := (⟨n.val / 512, by omega⟩, ⟨n.val % 512, by omega⟩)
  left_inv p := by
    rcases p with ⟨⟨j, hj⟩, ⟨k, hk⟩⟩
    refine Prod.ext (Fin.ext ?_) (Fin.ext ?_)
    · show (512 * j + k) / 512 = j
      omega
    · show (512 * j + k) % 512 = k
      omega
  right_inv n := by
    apply Fin.ext
    show 512 * (n.val / 512) + n.val % 512 = n.val
    omega

/-- Eight blocks of 512 columns are the 4096 columns. -/
theorem sum_blocks (f : Fin 4096 → EReal) : ∑ j : Fin 8, ∑ k : Fin 512, f (midIx j k) = ∑ n : Fin 4096, f n := by
  calc ∑ j : Fin 8, ∑ k : Fin 512, f (midIx j k)
      = ∑ p : Fin 8 × Fin 512, f (blockEquiv p) := (Fintype.sum_prod_type (fun p : Fin 8 × Fin 512 => f (blockEquiv p))).symm
    _ = ∑ n : Fin 4096, f n := Equiv.sum_comp blockEquiv f

/-- The result in the order the kernel computes it: the running sum over the blocks, then the bias, then the residual. -/
def GflatAcc (Rf : (⟨2, ![32768, 4096]⟩ : Shape).Idx → EReal) (W1 : (⟨2, ![4096, 4096]⟩ : Shape).Idx → EReal)
    (b1r : (⟨2, ![1, 4096]⟩ : Shape).Idx → EReal) (W2 : (⟨2, ![4096, 1024]⟩ : Shape).Idx → EReal)
    (b2r : (⟨2, ![1, 1024]⟩ : Shape).Idx → EReal) (xf : (⟨2, ![32768, 1024]⟩ : Shape).Idx → EReal) :
    (⟨2, ![32768, 1024]⟩ : Shape).Idx → EReal :=
  fun i => (accUpTo (dBlk Rf W1 b1r W2 (i 0) (i 1)) 7 (by decide) + b2r (ix2 (0 : Fin 1) (i 1))) + xf i

/-- The same with the mid axis summed at once. -/
def Gflat (Rf : (⟨2, ![32768, 4096]⟩ : Shape).Idx → EReal) (W1 : (⟨2, ![4096, 4096]⟩ : Shape).Idx → EReal)
    (b1r : (⟨2, ![1, 4096]⟩ : Shape).Idx → EReal) (W2 : (⟨2, ![4096, 1024]⟩ : Shape).Idx → EReal)
    (b2r : (⟨2, ![1, 1024]⟩ : Shape).Idx → EReal) (xf : (⟨2, ![32768, 1024]⟩ : Shape).Idx → EReal) :
    (⟨2, ![32768, 1024]⟩ : Shape).Idx → EReal :=
  fun i => ((∑ n : Fin 4096, gelu (hidF Rf W1 b1r (i 0) n) * W2 (ix2 n (i 1))) + b2r (ix2 (0 : Fin 1) (i 1))) + xf i

/-- The running sum over the eight blocks, at an explicit row and column, is the sum over all 4096 mid columns. -/
theorem accUpTo_dBlk (Rf : (⟨2, ![32768, 4096]⟩ : Shape).Idx → EReal) (W1 : (⟨2, ![4096, 4096]⟩ : Shape).Idx → EReal)
    (b1r : (⟨2, ![1, 4096]⟩ : Shape).Idx → EReal) (W2 : (⟨2, ![4096, 1024]⟩ : Shape).Idx → EReal)
    (r : Fin 32768) (w : Fin 1024) :
    accUpTo (dBlk Rf W1 b1r W2 r w) 7 (by decide) = ∑ n : Fin 4096, gelu (hidF Rf W1 b1r r n) * W2 (ix2 n w) := by
  rw [accUpTo_seven]
  exact sum_blocks (fun n => gelu (hidF Rf W1 b1r r n) * W2 (ix2 n w))

theorem GflatAcc_eq (Rf : (⟨2, ![32768, 4096]⟩ : Shape).Idx → EReal) (W1 : (⟨2, ![4096, 4096]⟩ : Shape).Idx → EReal)
    (b1r : (⟨2, ![1, 4096]⟩ : Shape).Idx → EReal) (W2 : (⟨2, ![4096, 1024]⟩ : Shape).Idx → EReal)
    (b2r : (⟨2, ![1, 1024]⟩ : Shape).Idx → EReal) (xf : (⟨2, ![32768, 1024]⟩ : Shape).Idx → EReal) :
    GflatAcc Rf W1 b1r W2 b2r xf = Gflat Rf W1 b1r W2 b2r xf := by
  funext i
  exact congrArg (fun s => (s + b2r (ix2 (0 : Fin 1) (i 1))) + xf i) (accUpTo_dBlk Rf W1 b1r W2 (i 0) (i 1))

/-! ## The 3-D form: (b, k) with b < 8192, k < 4; row 4·b + k of the flat form -/

/-- Row 4·b + k of the flattened axis. -/
def rowIx (b : Fin 8192) (k : Fin 4) : Fin 32768 := ⟨4 * b.val + k.val, by omega⟩

/-- The hidden pre-activation at (b, k, n). -/
def hid3 (R : (⟨3, ![8192, 4, 4096]⟩ : Shape).Idx → EReal) (W1 : (⟨2, ![4096, 4096]⟩ : Shape).Idx → EReal)
    (b1 : (⟨1, ![4096]⟩ : Shape).Idx → EReal) (b : Fin 8192) (k : Fin 4) (n : Fin 4096) : EReal :=
  (∑ f : Fin 4096, R (ix3 b k f) * W1 (ix2 f n)) + b1 (ix1 n)

/-- The result in the order the reference computes it: x + (Σ_n geluR(hid)·W2 + b2). -/
def G3 (R : (⟨3, ![8192, 4, 4096]⟩ : Shape).Idx → EReal) (x : (⟨3, ![8192, 4, 1024]⟩ : Shape).Idx → EReal)
    (W1 : (⟨2, ![4096, 4096]⟩ : Shape).Idx → EReal) (b1 : (⟨1, ![4096]⟩ : Shape).Idx → EReal)
    (W2 : (⟨2, ![4096, 1024]⟩ : Shape).Idx → EReal) (b2 : (⟨1, ![1024]⟩ : Shape).Idx → EReal) :
    (⟨3, ![8192, 4, 1024]⟩ : Shape).Idx → EReal :=
  fun i => x i + ((∑ n : Fin 4096, geluR (hid3 R W1 b1 (i 0) (i 1) n) * W2 (ix2 n (i 2))) + b2 (ix1 (i 2)))

/-- The 3-D form at (b, k, w) is the flat form at (4·b + k, w), when the flat arrays are the 3-D ones re-indexed. -/
theorem G3_eq_Gflat (R : (⟨3, ![8192, 4, 4096]⟩ : Shape).Idx → EReal) (x : (⟨3, ![8192, 4, 1024]⟩ : Shape).Idx → EReal)
    (W1 : (⟨2, ![4096, 4096]⟩ : Shape).Idx → EReal) (b1 : (⟨1, ![4096]⟩ : Shape).Idx → EReal)
    (W2 : (⟨2, ![4096, 1024]⟩ : Shape).Idx → EReal) (b2 : (⟨1, ![1024]⟩ : Shape).Idx → EReal)
    (Rf : (⟨2, ![32768, 4096]⟩ : Shape).Idx → EReal) (b1r : (⟨2, ![1, 4096]⟩ : Shape).Idx → EReal)
    (b2r : (⟨2, ![1, 1024]⟩ : Shape).Idx → EReal) (xf : (⟨2, ![32768, 1024]⟩ : Shape).Idx → EReal)
    (hR : ∀ (b : Fin 8192) (k : Fin 4) (f : Fin 4096), Rf (ix2 (rowIx b k) f) = R (ix3 b k f))
    (hx : ∀ (b : Fin 8192) (k : Fin 4) (w : Fin 1024), xf (ix2 (rowIx b k) w) = x (ix3 b k w))
    (hb1 : ∀ n : Fin 4096, b1r (ix2 (0 : Fin 1) n) = b1 (ix1 n))
    (hb2 : ∀ w : Fin 1024, b2r (ix2 (0 : Fin 1) w) = b2 (ix1 w))
    (b : Fin 8192) (k : Fin 4) (w : Fin 1024) :
    G3 R x W1 b1 W2 b2 (ix3 b k w) = Gflat Rf W1 b1r W2 b2r xf (ix2 (rowIx b k) w) := by
  -- the hidden pre-activations agree entry by entry: the flat arrays are the 3-D ones re-indexed
  have hh : ∀ n : Fin 4096, hid3 R W1 b1 b k n = hidF Rf W1 b1r (rowIx b k) n := by
    intro n
    unfold hid3 hidF
    rw [hb1]
    exact congrArg (fun s => s + b1 (ix1 n)) (Finset.sum_congr rfl fun f _ => by rw [hR])
  -- hence so do the sums over the mid axis, the two orders of the cube being equal
  have hs : (∑ n : Fin 4096, geluR (hid3 R W1 b1 b k n) * W2 (ix2 n w))
      = ∑ n : Fin 4096, gelu (hidF Rf W1 b1r (rowIx b k) n) * W2 (ix2 n w) :=
    Finset.sum_congr rfl fun n _ => by rw [geluR_eq, hh]
  show x (ix3 b k w) + ((∑ n : Fin 4096, geluR (hid3 R W1 b1 b k n) * W2 (ix2 n w)) + b2 (ix1 w))
      = ((∑ n : Fin 4096, gelu (hidF Rf W1 b1r (rowIx b k) n) * W2 (ix2 n w)) + b2r (ix2 (0 : Fin 1) w))
          + xf (ix2 (rowIx b k) w)
  -- what remains is the residual added first against the residual added last
  rw [hs, hx, hb2]
  exact add_comm _ _

end Cert.Spec

end
-- ==== Proof.KI.Blocks.lean ====
/-
  Each window's block at a grid point, read at an element of the array it is cut from. Point t of the 64 × 8 grid is
  (row tile t / 8, mid block t % 8): the rolls, residual and output blocks are rows 512·(t/8) + p of their arrays; the
  W1 and b1 blocks are columns 512·(t%8) + k; the W2 block is rows 512·(t%8) + k; the b2 block is the whole row.
-/
import proofs.«114533_j75574244540703_1_alg».proof.Proof.KI.Kit
import proofs.«114533_j75574244540703_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]
variable (m : (ℓ : Loc nD τ sig) → Buf (Elt F) ℓ)

/-- Row 512·(t/8) + p of the flattened batch axis: row p of point t's row tile. -/
def tileRow (t : Fin cfg0.N) (p : Fin 512) : Fin 32768 :=
  ⟨512 * (t.val / 8) + p.val, by have := t.isLt; have : cfg0.N = 512 := N_0; omega⟩
/-- Point t's mid block. -/
def tileBlk (t : Fin cfg0.N) : Fin 8 := ⟨t.val % 8, Nat.mod_lt _ (by decide)⟩

/-- The six staged arrays as the region finds them, and the blocks, at their literal types. -/
abbrev arrR (c : Dev nD) : Vec F S32768x4096 .bf16 := V m c main_v29
abbrev arrW1 (c : Dev nD) : Vec F S4096x4096 .bf16 := V m c main_v31
abbrev arrB1 (c : Dev nD) : Vec F S1x4096 .f32 := V m c main_v33
abbrev arrW2 (c : Dev nD) : Vec F S4096x1024 .bf16 := V m c main_v32
abbrev arrB2 (c : Dev nD) : Vec F S1x1024 .f32 := V m c main_v34
abbrev arrX (c : Dev nD) : Vec F S32768x1024 .f32 := V m c main_v30
abbrev blkR (c : Dev nD) (t : Fin cfg0.N) : Vec F S512x4096 .bf16 := iblk m c 0 t
abbrev blkW1 (c : Dev nD) (t : Fin cfg0.N) : Vec F S4096x512 .bf16 := iblk m c 1 t
abbrev blkB1 (c : Dev nD) (t : Fin cfg0.N) : Vec F S1x512 .f32 := iblk m c 2 t
abbrev blkW2 (c : Dev nD) (t : Fin cfg0.N) : Vec F S512x1024 .bf16 := iblk m c 3 t
abbrev blkB2 (c : Dev nD) (t : Fin cfg0.N) : Vec F S1x1024 .f32 := iblk m c 4 t
abbrev blkX (c : Dev nD) (t : Fin cfg0.N) : Vec F S512x1024 .f32 := iblk m c 5 t

/-- The index maps over the 64 × 8 grid, decided once: window 0, 5 take the row tile t / 8; windows 1, 2 take the mid block
    t % 8 in the column coordinate, window 3 in the row coordinate; window 4 always takes block (0, 0). -/
private theorem idx0 : ∀ t : Fin cfg0.N, win0_0.index t 0 = t.val / 8 ∧ win0_0.index t 1 = 0 :=
  (by decide +kernel : ∀ t : Fin grid0.N, _)
private theorem idx1 : ∀ t : Fin cfg0.N, win0_1.index t 0 = 0 ∧ win0_1.index t 1 = t.val % 8 :=
  (by decide +kernel : ∀ t : Fin grid0.N, _)
private theorem idx2 : ∀ t : Fin cfg0.N, win0_2.index t 0 = 0 ∧ win0_2.index t 1 = t.val % 8 :=
  (by decide +kernel : ∀ t : Fin grid0.N, _)
private theorem idx3 : ∀ t : Fin cfg0.N, win0_3.index t 0 = t.val % 8 ∧ win0_3.index t 1 = 0 :=
  (by decide +kernel : ∀ t : Fin grid0.N, _)
private theorem idx4 : ∀ t : Fin cfg0.N, win0_4.index t 0 = 0 ∧ win0_4.index t 1 = 0 :=
  (by decide +kernel : ∀ t : Fin grid0.N, _)
private theorem idx5 : ∀ t : Fin cfg0.N, win0_5.index t 0 = t.val / 8 ∧ win0_5.index t 1 = 0 :=
  (by decide +kernel : ∀ t : Fin grid0.N, _)

theorem blkR_apply (c : Dev nD) (t : Fin cfg0.N) (p : Fin 512) (f : Fin 4096) :
    blkR m c t (ix2 p f) = arrR m c (ix2 (tileRow t p) f) := by
  -- a block's coordinate is index × block size + the coordinate inside the block; here index = (t / 8, 0)
  show iblk m c 0 t (ix2 p f) = V m c main_v29 (ix2 (tileRow t p) f)
  unfold iblk
  rw [View.read_apply]
  show V m c main_v29 _ = V m c main_v29 _
  congr 1
  funext a
  apply Fin.ext
  match a with
  | ⟨0, _⟩ =>
    show win0_0.index t 0 * 512 + 1 * p.val = 512 * (t.val / 8) + p.val
    rw [(idx0 t).1]; omega
  | ⟨1, _⟩ =>
    show win0_0.index t 1 * 4096 + 1 * f.val = f.val
    rw [(idx0 t).2]; omega
theorem blkW1_apply (c : Dev nD) (t : Fin cfg0.N) (f : Fin 4096) (k : Fin 512) :
    blkW1 m c t (ix2 f k) = arrW1 m c (ix2 f (Cert.Spec.midIx (tileBlk t) k)) := by
  -- index = (0, t % 8): all 4096 rows, columns 512·(t % 8) + k
  show iblk m c 1 t (ix2 f k) = V m c main_v31 (ix2 f (Cert.Spec.midIx (tileBlk t) k))
  unfold iblk
  rw [View.read_apply]
  show V m c main_v31 _ = V m c main_v31 _
  congr 1
  funext a
  apply Fin.ext
  match a with
  | ⟨0, _⟩ =>
    show win0_1.index t 0 * 4096 + 1 * f.val = f.val
    rw [(idx1 t).1]; omega
  | ⟨1, _⟩ =>
    show win0_1.index t 1 * 512 + 1 * k.val = 512 * (t.val % 8) + k.val
    rw [(idx1 t).2]; omega
theorem blkB1_apply (c : Dev nD) (t : Fin cfg0.N) (k : Fin 512) :
    blkB1 m c t (ix2 (0 : Fin 1) k) = arrB1 m c (ix2 (0 : Fin 1) (Cert.Spec.midIx (tileBlk t) k)) := by
  -- index = (0, t % 8): the one row, columns 512·(t % 8) + k
  show iblk m c 2 t (ix2 (0 : Fin 1) k) = V m c main_v33 (ix2 (0 : Fin 1) (Cert.Spec.midIx (tileBlk t) k))
  unfold iblk
  rw [View.read_apply]
  show V m c main_v33 _ = V m c main_v33 _
  congr 1
  funext a
  apply Fin.ext
  match a with
  | ⟨0, _⟩ =>
    show win0_2.index t 0 * 1 + 1 * (0 : Fin 1).val = (0 : Fin 1).val
    rw [(idx2 t).1]; rfl
  | ⟨1, _⟩ =>
    show win0_2.index t 1 * 512 + 1 * k.val = 512 * (t.val % 8) + k.val
    rw [(idx2 t).2]; omega
theorem blkW2_apply (c : Dev nD) (t : Fin cfg0.N) (k : Fin 512) (q : Fin 1024) :
    blkW2 m c t (ix2 k q) = arrW2 m c (ix2 (Cert.Spec.midIx (tileBlk t) k) q) := by
  -- index = (t % 8, 0): rows 512·(t % 8) + k, all 1024 columns
  show iblk m c 3 t (ix2 k q) = V m c main_v32 (ix2 (Cert.Spec.midIx (tileBlk t) k) q)
  unfold iblk
  rw [View.read_apply]
  show V m c main_v32 _ = V m c main_v32 _
  congr 1
  funext a
  apply Fin.ext
  match a with
  | ⟨0, _⟩ =>
    show win0_3.index t 0 * 512 + 1 * k.val = 512 * (t.val % 8) + k.val
    rw [(idx3 t).1]; omega
  | ⟨1, _⟩ =>
    show win0_3.index t 1 * 1024 + 1 * q.val = q.val
    rw [(idx3 t).2]; omega
theorem blkB2_apply (c : Dev nD) (t : Fin cfg0.N) (q : Fin 1024) :
    blkB2 m c t (ix2 (0 : Fin 1) q) = arrB2 m c (ix2 (0 : Fin 1) q) := by
  -- index = (0, 0): the block is the whole row
  show iblk m c 4 t (ix2 (0 : Fin 1) q) = V m c main_v34 (ix2 (0 : Fin 1) q)
  unfold iblk
  rw [View.read_apply]
  show V m c main_v34 _ = V m c main_v34 _
  congr 1
  funext a
  apply Fin.ext
  match a with
  | ⟨0, _⟩ =>
    show win0_4.index t 0 * 1 + 1 * (0 : Fin 1).val = (0 : Fin 1).val
    rw [(idx4 t).1]; rfl
  | ⟨1, _⟩ =>
    show win0_4.index t 1 * 1024 + 1 * q.val = q.val
    rw [(idx4 t).2]; omega
theorem blkX_apply (c : Dev nD) (t : Fin cfg0.N) (p : Fin 512) (q : Fin 1024) :
    blkX m c t (ix2 p q) = arrX m c (ix2 (tileRow t p) q) := by
  -- index = (t / 8, 0): rows 512·(t / 8) + p, all 1024 columns
  show iblk m c 5 t (ix2 p q) = V m c main_v30 (ix2 (tileRow t p) q)
  unfold iblk
  rw [View.read_apply]
  show V m c main_v30 _ = V m c main_v30 _
  congr 1
  funext a
  apply Fin.ext
  match a with
  | ⟨0, _⟩ =>
    show win0_5.index t 0 * 512 + 1 * p.val = 512 * (t.val / 8) + p.val
    rw [(idx5 t).1]; omega
  | ⟨1, _⟩ =>
    show win0_5.index t 1 * 1024 + 1 * q.val = q.val
    rw [(idx5 t).2]; omega

end Cert.KernelIdeal.Hand

end
-- ==== Proof.KI.Payload.lean ====
/-
  The kernel body's arithmetic, read one entry at a time on the extended reals.

  Three blocks are stored by the body. The block the running sum is reset to is the constant 0. One step of the running
  sum adds, to the old value at (p, q), the sum over the block's 512 mid columns k of gelu(hid p k) · W2blk[k, q], where
  hid p k = Σ_f R[p, f] · W1blk[f, k] + b1blk[k] is the first product plus the bias row, and gelu is the tanh form
  multiplied out in the order h · (½ · (1 + tanh(c₂ · (h + c₁ · (h · (h · h)))))). The output block is the running sum,
  then the bias row b2 read at column q, then the residual. Sums and products of vectors are entrywise, a cast to the
  same shape changes nothing, a [1, n] row broadcast over the rows reads its one row, the narrowing to bf16 is the
  identity on extended reals, and a product into a zero block is the plain sum over the contracted axis.
-/
import proofs.«114533_j75574244540703_1_alg».proof.Proof.Gen.KernelIdeal.Skeleton
import proofs.«114533_j75574244540703_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx

/-- The block the running sum is reset to is zero at every entry. -/
theorem pay2_apply (p : Fin 512) (q : Fin 1024) : k0_pay2 (F := Ideal) (ix2 p q) = 0 := by
  unfold k0_pay2
  -- a cast to the same shape changes nothing; a broadcast scalar reads its value; the word 0 denotes 0
  refine (congrFun (shapeCast_self _ _) (ix2 p q)).trans ?_
  exact Ideal.ofBits_zero_f32

/-- The output block at an entry: the running sum, then the bias row, then the residual. -/
theorem pay1_apply (acc : Vec Ideal S512x1024 .f32) (x4 : Vec Ideal S1x1024 .f32) (x5 : Vec Ideal S512x1024 .f32)
    (p : Fin 512) (q : Fin 1024) :
    k0_pay1 (F := Ideal) acc x4 x5 (ix2 p q) = (acc (ix2 p q) + x4 (ix2 (0 : Fin 1) q)) + x5 (ix2 p q) := by
  unfold k0_pay1
  -- both sums are entrywise; the casts are to the same shape; the bias is one row read at column q
  show (acc (ix2 p q) + broadcastTo S512x1024 (shapeCast S1x1024 x4 _) _ (ix2 p q))
      + shapeCast S512x1024 x5 _ (ix2 p q) = _
  rw [shapeCast_self, shapeCast_self]
  exact congrArg (fun b => (acc (ix2 p q) + b) + x5 (ix2 p q)) (broadcastTo_1b_ab_apply x4 _ p q)

/-! ## The two contractions read at an entry

Both products contract the left operand's axis 1 with the right operand's axis 0; the result's axes are the left
operand's axis 0, then the right operand's axis 1. So at result entry (p, k) and contraction position f the left operand
is read at (p, f) and the right one at (f, k). -/

theorem lhsA_0 (j : S512x512.Idx) (c : dot_S512x4096_S4096x512_S512x512_1_0_0_1_n_n.contr.Idx) :
    ((dot_S512x4096_S4096x512_S512x512_1_0_0_1_n_n.lhsIdx j c) 0).val = (j 0).val := rfl
theorem lhsA_1 (j : S512x512.Idx) (c : dot_S512x4096_S4096x512_S512x512_1_0_0_1_n_n.contr.Idx) :
    ((dot_S512x4096_S4096x512_S512x512_1_0_0_1_n_n.lhsIdx j c) 1).val = (c ⟨0, by decide⟩).val := rfl
theorem rhsA_0 (j : S512x512.Idx) (c : dot_S512x4096_S4096x512_S512x512_1_0_0_1_n_n.contr.Idx) :
    ((dot_S512x4096_S4096x512_S512x512_1_0_0_1_n_n.rhsIdx j c) 0).val = (c ⟨0, by decide⟩).val := rfl
theorem rhsA_1 (j : S512x512.Idx) (c : dot_S512x4096_S4096x512_S512x512_1_0_0_1_n_n.contr.Idx) :
    ((dot_S512x4096_S4096x512_S512x512_1_0_0_1_n_n.rhsIdx j c) 1).val = (j 1).val := rfl

/-- The first product, into a zero block, at (p, k): the sum over the 4096 feature columns. -/
theorem matmulA_apply (a : FVec Ideal S512x4096 .bf16) (b : FVec Ideal S4096x512 .bf16) (p k : Fin 512) :
    matmul dot_S512x4096_S4096x512_S512x512_1_0_0_1_n_n none a b (constant (F := Ideal) S512x512 .f32 0x00000000#32) (ix2 p k)
      = ∑ f : Fin 4096, a (ix2 p f) * b (ix2 f k) := by
  refine (Ideal.matmul_constant_zero_apply dot_S512x4096_S4096x512_S512x512_1_0_0_1_n_n none a b (ix2 p k)).trans ?_
  refine (Equiv.sum_comp (contrEquiv1 dot_S512x4096_S4096x512_S512x512_1_0_0_1_n_n 4096 rfl rfl).symm _).symm.trans ?_
  refine Finset.sum_congr rfl fun f _ => ?_
  have hf := contrEquiv1_symm_val dot_S512x4096_S4096x512_S512x512_1_0_0_1_n_n 4096 rfl rfl f
  have hl : dot_S512x4096_S4096x512_S512x512_1_0_0_1_n_n.lhsIdx (ix2 p k)
      ((contrEquiv1 dot_S512x4096_S4096x512_S512x512_1_0_0_1_n_n 4096 rfl rfl).symm f) = ix2 p f := by
    funext ax
    match ax with
    | ⟨0, _⟩ => exact Fin.ext (lhsA_0 _ _)
    | ⟨1, _⟩ => exact Fin.ext ((lhsA_1 _ _).trans hf)
  have hr : dot_S512x4096_S4096x512_S512x512_1_0_0_1_n_n.rhsIdx (ix2 p k)
      ((contrEquiv1 dot_S512x4096_S4096x512_S512x512_1_0_0_1_n_n 4096 rfl rfl).symm f) = ix2 f k := by
    funext ax
    match ax with
    | ⟨0, _⟩ => exact Fin.ext ((rhsA_0 _ _).trans hf)
    | ⟨1, _⟩ => exact Fin.ext (rhsA_1 _ _)
  rw [hl, hr]

theorem lhsB_0 (j : S512x1024.Idx) (c : dot_S512x512_S512x1024_S512x1024_1_0_0_1_n_n.contr.Idx) :
    ((dot_S512x512_S512x1024_S512x1024_1_0_0_1_n_n.lhsIdx j c) 0).val = (j 0).val := rfl
theorem lhsB_1 (j : S512x1024.Idx) (c : dot_S512x512_S512x1024_S512x1024_1_0_0_1_n_n.contr.Idx) :
    ((dot_S512x512_S512x1024_S512x1024_1_0_0_1_n_n.lhsIdx j c) 1).val = (c ⟨0, by decide⟩).val := rfl
theorem rhsB_0 (j : S512x1024.Idx) (c : dot_S512x512_S512x1024_S512x1024_1_0_0_1_n_n.contr.Idx) :
    ((dot_S512x512_S512x1024_S512x1024_1_0_0_1_n_n.rhsIdx j c) 0).val = (c ⟨0, by decide⟩).val := rfl
theorem rhsB_1 (j : S512x1024.Idx) (c : dot_S512x512_S512x1024_S512x1024_1_0_0_1_n_n.contr.Idx) :
    ((dot_S512x512_S512x1024_S512x1024_1_0_0_1_n_n.rhsIdx j c) 1).val = (j 1).val := rfl

/-- The second product, into a zero block, at (p, q): the sum over the block's 512 mid columns. -/
theorem matmulB_apply (a : FVec Ideal S512x512 .bf16) (b : FVec Ideal S512x1024 .bf16) (p : Fin 512) (q : Fin 1024) :
    matmul dot_S512x512_S512x1024_S512x1024_1_0_0_1_n_n none a b (constant (F := Ideal) S512x1024 .f32 0x00000000#32) (ix2 p q)
      = ∑ k : Fin 512, a (ix2 p k) * b (ix2 k q) := by
  refine (Ideal.matmul_constant_zero_apply dot_S512x512_S512x1024_S512x1024_1_0_0_1_n_n none a b (ix2 p q)).trans ?_
  refine (Equiv.sum_comp (contrEquiv1 dot_S512x512_S512x1024_S512x1024_1_0_0_1_n_n 512 rfl rfl).symm _).symm.trans ?_
  refine Finset.sum_congr rfl fun k _ => ?_
  have hk := contrEquiv1_symm_val dot_S512x512_S512x1024_S512x1024_1_0_0_1_n_n 512 rfl rfl k
  have hl : dot_S512x512_S512x1024_S512x1024_1_0_0_1_n_n.lhsIdx (ix2 p q)
      ((contrEquiv1 dot_S512x512_S512x1024_S512x1024_1_0_0_1_n_n 512 rfl rfl).symm k) = ix2 p k := by
    funext ax
    match ax with
    | ⟨0, _⟩ => exact Fin.ext (lhsB_0 _ _)
    | ⟨1, _⟩ => exact Fin.ext ((lhsB_1 _ _).trans hk)
  have hr : dot_S512x512_S512x1024_S512x1024_1_0_0_1_n_n.rhsIdx (ix2 p q)
      ((contrEquiv1 dot_S512x512_S512x1024_S512x1024_1_0_0_1_n_n 512 rfl rfl).symm k) = ix2 k q := by
    funext ax
    match ax with
    | ⟨0, _⟩ => exact Fin.ext ((rhsB_0 _ _).trans hk)
    | ⟨1, _⟩ => exact Fin.ext (rhsB_1 _ _)
  rw [hl, hr]

/-! ## The hidden block and GELU at an entry -/

/-- The hidden pre-activation at (p, k): the first product plus the bias row read at column k. The casts are to the
    operands' own shapes and change nothing. -/
theorem hid_apply (a : FVec Ideal S512x4096 .bf16) (b : FVec Ideal S4096x512 .bf16) (c : FVec Ideal S1x512 .f32)
    (ha : S512x4096.ShapeCasts S512x4096) (hb : S4096x512.ShapeCasts S4096x512) (hc : S1x512.ShapeCasts S1x512)
    (hbc : S1x512.Broadcasts S512x512) (p k : Fin 512) :
    addf (matmul dot_S512x4096_S4096x512_S512x512_1_0_0_1_n_n none (shapeCast S512x4096 a ha) (shapeCast S4096x512 b hb)
        (constant (F := Ideal) S512x512 .f32 0x00000000#32)) (broadcastTo S512x512 (shapeCast S1x512 c hc) hbc) (ix2 p k)
      = (∑ f : Fin 4096, a (ix2 p f) * b (ix2 f k)) + c (ix2 (0 : Fin 1) k) := by
  rw [shapeCast_self, shapeCast_self, shapeCast_self]
  exact congrArg₂ (· + ·) (matmulA_apply a b p k) (broadcastTo_1b_ab_apply c hbc p k)

/-- The multiplied-out tanh form, entry by entry, is GELU of the entry: every operation in it is entrywise and the
    narrowing to bf16 is the identity on extended reals. -/
theorem gelu_apply (h : FVec Ideal S512x512 .f32) (hlt : FTy.bf16.bits < FTy.f32.bits) (i : S512x512.Idx) :
    (truncf .bf16
        (mulf h (mulf (broadcast S512x512 (Scalar.ofBits (F := Ideal) .f32 0x3F000000#32))
          (addf (broadcast S512x512 (Scalar.ofBits (F := Ideal) .f32 0x3F800000#32))
            (tanh (mulf (broadcast S512x512 (Scalar.ofBits (F := Ideal) .f32 0x3F4C422A#32))
              (addf h (mulf (broadcast S512x512 (Scalar.ofBits (F := Ideal) .f32 0x3D372713#32)) (mulf h (mulf h h)))))))))
        hlt : FVec Ideal S512x512 .bf16) i = Cert.Spec.gelu (h i) := rfl

/-- One step of the running sum at an entry: the old value plus this block's 512 mid columns. -/
theorem pay3_apply (x0 : Vec Ideal S512x4096 .bf16) (x1 : Vec Ideal S4096x512 .bf16) (x2 : Vec Ideal S1x512 .f32)
    (acc : Vec Ideal S512x1024 .f32) (x3 : Vec Ideal S512x1024 .bf16) (p : Fin 512) (q : Fin 1024) :
    k0_pay3 (F := Ideal) x0 x1 x2 acc x3 (ix2 p q)
      = acc (ix2 p q) + ∑ k : Fin 512, Cert.Spec.gelu ((∑ f : Fin 4096, x0 (ix2 p f) * x1 (ix2 f k)) + x2 (ix2 (0 : Fin 1) k)) * x3 (ix2 k q) := by
  unfold k0_pay3
  -- the outer cast is to the block's own shape; the sum with the old value is entrywise
  refine (congrFun (shapeCast_self _ _) (ix2 p q)).trans ?_
  refine (addf_apply _ _ _).trans ?_
  refine congrArg (fun t => acc (ix2 p q) + t) ?_
  -- the second product, column by column of the block
  refine (matmulB_apply _ _ p q).trans ?_
  refine Finset.sum_congr rfl fun k _ => ?_
  refine congrArg₂ (· * ·) ?_ (congrFun (shapeCast_self _ _) (ix2 k q))
  -- GELU of the hidden pre-activation
  refine (gelu_apply _ _ (ix2 p k)).trans ?_
  exact congrArg Cert.Spec.gelu (hid_apply x0 x1 x2 _ _ _ _ p k)

end Cert.KernelIdeal.Hand

end
-- ==== Proof.KI.Value.lean ====
/-
  The accumulator and the output block as values. By induction on the grid point the accumulator after point t holds,
  at row p and column q, the running sum of the mid blocks 0 … t % 8 of row 512·(t/8) + p; at a point with t % 8 = 7 the
  output block is that sum plus the bias plus the residual: the flat form of the specification at that row.
-/
import proofs.«114533_j75574244540703_1_alg».proof.Proof.KI.Pieces
import proofs.«114533_j75574244540703_1_alg».proof.Proof.KI.Blocks
import proofs.«114533_j75574244540703_1_alg».proof.Proof.KI.Payload
import proofs.«114533_j75574244540703_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The flat result over the six staged arrays as the region finds them. -/
abbrev flatOut (c : Dev nD) : S32768x1024.Idx → EReal :=
  Cert.Spec.GflatAcc (arrR m c) (arrW1 m c) (arrB1 m c) (arrW2 m c) (arrB2 m c) (arrX m c)

/-! ## The running sum: moving between equal indices -/

/-- The running sum at index 0 is 0 plus the first share. -/
theorem accUpTo_at_zero (d : Fin 8 → EReal) (b : ℕ) (hb : b < 8) (h : b = 0) :
    0 + d ⟨b, hb⟩ = Cert.Spec.accUpTo d b hb := by
  subst h; rfl

/-- The running sum at a successor index is the one before plus that index's share. -/
theorem accUpTo_at_succ (d : Fin 8 → EReal) (a b : ℕ) (ha : a < 8) (hb : b < 8) (h : b = a + 1) :
    Cert.Spec.accUpTo d a ha + d ⟨b, hb⟩ = Cert.Spec.accUpTo d b hb := by
  subst h; rfl

/-- The running sum depends on its index only through its value. -/
theorem accUpTo_congr (d : Fin 8 → EReal) (a b : ℕ) (ha : a < 8) (hb : b < 8) (h : a = b) :
    Cert.Spec.accUpTo d a ha = Cert.Spec.accUpTo d b hb := by
  subst h; rfl

/-! ## One accumulating store at an entry -/

/-- The accumulating store over point t's blocks adds, at (p, q), the share of t's mid block for row 512·(t/8) + p:
    each block entry is the array entry it was cut from. -/
theorem step_apply (c : Dev nD) (t : Fin cfg0.N) (acc : Vec Ideal S512x1024 .f32) (p : Fin 512) (q : Fin 1024) :
    k0_pay3 (F := Ideal) (blkR m c t) (blkW1 m c t) (blkB1 m c t) acc (blkW2 m c t) (ix2 p q)
      = acc (ix2 p q) + Cert.Spec.dBlk (arrR m c) (arrW1 m c) (arrB1 m c) (arrW2 m c) (tileRow t p) q (tileBlk t) := by
  refine (pay3_apply (blkR m c t) (blkW1 m c t) (blkB1 m c t) acc (blkW2 m c t) p q).trans ?_
  refine congrArg (fun s => acc (ix2 p q) + s) ?_
  unfold Cert.Spec.dBlk Cert.Spec.hidF
  refine Finset.sum_congr rfl fun k _ => ?_
  have hs : (∑ f : Fin 4096, blkR m c t (ix2 p f) * blkW1 m c t (ix2 f k))
      = ∑ f : Fin 4096, arrR m c (ix2 (tileRow t p) f) * arrW1 m c (ix2 f (Cert.Spec.midIx (tileBlk t) k)) :=
    Finset.sum_congr rfl fun f _ => by rw [blkR_apply, blkW1_apply]
  rw [hs, blkB1_apply, blkW2_apply]

/-! ## The three cases as values -/

/-- At a reset point the accumulator at (p, q) is 0 plus the point's share. -/
theorem acc_A (c : Dev nD) (t : Fin cfg0.N) (h0 : t.val % 8 = 0) (p : Fin 512) (q : Fin 1024) :
    (outsAt0 (F := Ideal) m c t.val t.isLt).2 (ix2 p q) = 0 + Cert.Spec.dBlk (arrR m c) (arrW1 m c) (arrB1 m c) (arrW2 m c) (tileRow t p) q (tileBlk t) := by
  have h1 : ¬t.val % 8 = 7 := by omega
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 p q)).trans ?_
  refine (step_apply m c t (k0_pay2 (F := Ideal)) p q).trans ?_
  rw [pay2_apply]

/-- At any other point it is what the point before left at (p, q) plus the point's share. -/
theorem acc_BC (c : Dev nD) (t : Fin cfg0.N) (h0 : ¬t.val % 8 = 0) (p : Fin 512) (q : Fin 1024) (a : EReal)
    (ha : (outsAt0 (F := Ideal) m c (t.val - 1) (Nat.lt_of_le_of_lt (Nat.sub_le _ _) t.isLt)).2 (ix2 p q) = a) :
    (outsAt0 (F := Ideal) m c t.val t.isLt).2 (ix2 p q) = a + Cert.Spec.dBlk (arrR m c) (arrW1 m c) (arrB1 m c) (arrW2 m c) (tileRow t p) q (tileBlk t) := by
  by_cases h1 : t.val % 8 = 7
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2) (ix2 p q)).trans ?_
    refine (step_apply m c t (outsAt0 (F := Ideal) m c (t.val - 1) (Nat.lt_of_le_of_lt (Nat.sub_le _ _) t.isLt)).2 p q).trans ?_
    rw [ha]
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2) (ix2 p q)).trans ?_
    refine (step_apply m c t (outsAt0 (F := Ideal) m c (t.val - 1) (Nat.lt_of_le_of_lt (Nat.sub_le _ _) t.isLt)).2 p q).trans ?_
    rw [ha]

/-- Within a row tile the row does not change from one point to the next. -/
theorem tileRow_succ (n : ℕ) (hn : n + 1 < cfg0.N) (h0 : ¬(n + 1) % 8 = 0) (p : Fin 512) :
    tileRow ⟨n, Nat.lt_of_succ_lt hn⟩ p = tileRow ⟨n + 1, hn⟩ p := by
  apply Fin.ext
  show 512 * (n / 8) + p.val = 512 * ((n + 1) / 8) + p.val
  omega

/-- The accumulator after point n, at (p, q): the running sum of the mid blocks 0 … n % 8 of row 512·(n/8) + p. -/
theorem acc_eq (c : Dev nD) : ∀ (n : ℕ) (hn : n < cfg0.N) (p : Fin 512) (q : Fin 1024),
    (outsAt0 (F := Ideal) m c n hn).2 (ix2 p q)
      = Cert.Spec.accUpTo (Cert.Spec.dBlk (arrR m c) (arrW1 m c) (arrB1 m c) (arrW2 m c) (tileRow ⟨n, hn⟩ p) q) (n % 8) (Nat.mod_lt _ (by decide)) := by
  intro n
  induction n with
  | zero =>
    intro hn p q
    refine (acc_A m c ⟨0, hn⟩ rfl p q).trans ?_
    exact accUpTo_at_zero _ (0 % 8) _ rfl
  | succ n ih =>
    intro hn p q
    by_cases h0 : (n + 1) % 8 = 0
    · refine (acc_A m c ⟨n + 1, hn⟩ h0 p q).trans ?_
      exact accUpTo_at_zero _ ((n + 1) % 8) _ h0
    · refine (acc_BC m c ⟨n + 1, hn⟩ h0 p q _ (ih (Nat.lt_of_succ_lt hn) p q)).trans ?_
      rw [tileRow_succ n hn h0 p]
      exact accUpTo_at_succ _ (n % 8) ((n + 1) % 8) _ _ (by omega)

/-- The output block stored at a point of the last mid block is the flat result on that point's row tile. -/
theorem out_eq (c : Dev nD) (t : Fin cfg0.N) (h7 : t.val % 8 = 7) (p : Fin 512) (q : Fin 1024) :
    (outsAt0 (F := Ideal) m c t.val t.isLt).1 (ix2 p q) = flatOut m c (ix2 (tileRow t p) q) := by
  have h0 : ¬t.val % 8 = 0 := by omega
  -- the accumulator the output is computed from is the one this point leaves
  have hacc : k0_pay3 (F := Ideal) (blkR m c t) (blkW1 m c t) (blkB1 m c t) (outsAt0 (F := Ideal) m c (t.val - 1) (Nat.lt_of_le_of_lt (Nat.sub_le _ _) t.isLt)).2 (blkW2 m c t) (ix2 p q)
      = Cert.Spec.accUpTo (Cert.Spec.dBlk (arrR m c) (arrW1 m c) (arrB1 m c) (arrW2 m c) (tileRow t p) q) (t.val % 8) (Nat.mod_lt _ (by decide)) := by
    refine Eq.trans ?_ (acc_eq m c t.val t.isLt p q)
    rw [outsAt0_C m c t h0 h7]
    dsimp only
    exact (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2) (ix2 p q)).symm
  rw [outsAt0_C m c t h0 h7]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2) (ix2 p q)).trans ?_
  refine (pay1_apply (k0_pay3 (F := Ideal) (blkR m c t) (blkW1 m c t) (blkB1 m c t) (outsAt0 (F := Ideal) m c (t.val - 1) (Nat.lt_of_le_of_lt (Nat.sub_le _ _) t.isLt)).2 (blkW2 m c t)) (blkB2 m c t) (blkX m c t) p q).trans ?_
  rw [hacc, blkB2_apply, blkX_apply]
  show _ = (Cert.Spec.accUpTo (Cert.Spec.dBlk (arrR m c) (arrW1 m c) (arrB1 m c) (arrW2 m c) (tileRow t p) q) 7 (by decide) + arrB2 m c (ix2 (0 : Fin 1) q)) + arrX m c (ix2 (tileRow t p) q)
  rw [accUpTo_congr _ (t.val % 8) 7 _ (by decide) h7]

end Cert.KernelIdeal.Hand

end
-- ==== Proof.KI.Final.lean ====
/-
  From the output blocks to the program's result. The 64 points with t % 8 = 7 write back the blocks of rows
  512·(t/8) … 512·(t/8) + 511, which tile the [32768, 1024] array, so after the run it holds the flat result; the reshape
  after the region re-indexes it row-major to [8192, 4, 1024]: entry (b, k, w) is entry (4·b + k, w).
-/
import proofs.«114533_j75574244540703_1_alg».proof.Proof.KI.Value
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The output window's index map over the 64 × 8 grid, decided once: the row tile t / 8, column block 0. -/
private theorem idx6 : ∀ t : Fin cfg0.N, win0_6.index t 0 = t.val / 8 ∧ win0_6.index t 1 = 0 :=
  (by decide +kernel : ∀ t : Fin grid0.N, _)

/-- What a flushing point writes back is the flat result read through that point's block. -/
theorem flushed_eq (c : Dev nD) (t : Fin cfg0.N) (hf : (cfg0.win 6).flush t = true) :
    (dats (F := Ideal) m 0 c).flushed 6 t = ((cfg0.win 6).blk t).view.read (Elt Ideal) (flatOut m c) := by
  have h7 : t.val % 8 = 7 := (flush0_6 t).mp hf
  show (cfg0.win 6).cut (grid0.coords t) ((dats (F := Ideal) m 0 c).after 6 t) = _
  rw [after0_6]
  funext y
  rw [View.read_apply]
  have hy0 : (y 0).val < 512 := (y 0).isLt
  have hy1 : (y 1).val < 1024 := (y 1).isLt
  have e : (cfg0.win 6).xinj (grid0.coords t) y = ix2 (⟨(y 0).val, hy0⟩ : Fin 512) (⟨(y 1).val, hy1⟩ : Fin 1024) := by
    funext a; match a with | ⟨0, _⟩ => rfl | ⟨1, _⟩ => rfl
  show (outsAt0 (F := Ideal) m c t.val t.isLt).1 ((cfg0.win 6).xinj (grid0.coords t) y) = _
  rw [e, out_eq m c t h7 ⟨(y 0).val, hy0⟩ ⟨(y 1).val, hy1⟩]
  -- a block's coordinate is index × block size + the coordinate inside the block; here index = (t / 8, 0)
  refine congrArg (flatOut m c) ?_
  funext a
  apply Fin.ext
  match a with
  | ⟨0, _⟩ =>
    show 512 * (t.val / 8) + (y 0).val = win0_6.index t 0 * 512 + 1 * (y 0).val
    rw [(idx6 t).1]; omega
  | ⟨1, _⟩ =>
    show (y 1).val = win0_6.index t 1 * 1024 + 1 * (y 1).val
    rw [(idx6 t).2]; omega

/-- The 64 flushed blocks tile the result array: after the run it holds the flat result. -/
theorem final6 (c : Dev nD) : (dats (F := Ideal) m 0 c).arrAt 6 cfg0.N = flatOut m c := by
  exact (dats (F := Ideal) m 0 c).arrAt_eq_of_cover 6 (flatOut m c) (fun t hf => flushed_eq m c t hf) fun i => by
    -- row r lies in the block of the point 8·(r / 512) + 7: row tile r / 512, last mid block
    have hN : cfg0.N = 512 := N_0
    have h0 : (i 0).val < 32768 := (i 0).isLt
    have h1 : (i 1).val < 1024 := (i 1).isLt
    have ht : 8 * ((i 0).val / 512) + 7 < cfg0.N := by omega
    refine ⟨⟨8 * ((i 0).val / 512) + 7, ht⟩, (flush0_6 _).mpr (by show (8 * ((i 0).val / 512) + 7) % 8 = 7; omega), ?_⟩
    show i ∈ ((View.whole main_v35).slice (win0_6.rect ⟨8 * ((i 0).val / 512) + 7, ht⟩)).set
    rw [View.set_slice_whole, Rect.mem_set_unit]
    intro a
    match a with
    | ⟨0, _⟩ =>
      show win0_6.index ⟨8 * ((i 0).val / 512) + 7, ht⟩ 0 * 512 ≤ (i 0).val ∧ (i 0).val < win0_6.index ⟨8 * ((i 0).val / 512) + 7, ht⟩ 0 * 512 + 512
      rw [(idx6 ⟨8 * ((i 0).val / 512) + 7, ht⟩).1]
      show (8 * ((i 0).val / 512) + 7) / 8 * 512 ≤ (i 0).val ∧ (i 0).val < (8 * ((i 0).val / 512) + 7) / 8 * 512 + 512
      omega
    | ⟨1, _⟩ =>
      show win0_6.index ⟨8 * ((i 0).val / 512) + 7, ht⟩ 1 * 1024 ≤ (i 1).val ∧ (i 1).val < win0_6.index ⟨8 * ((i 0).val / 512) + 7, ht⟩ 1 * 1024 + 1024
      rw [(idx6 ⟨8 * ((i 0).val / 512) + 7, ht⟩).2]
      omega

/-- The program's result: the flat result re-indexed to [8192, 4, 1024]. -/
def Kout (c : Dev nD) : FVec Ideal S8192x4x1024 .f32 :=
  shapeCast S8192x4x1024 (flatOut m c : FVec Ideal S32768x1024 .f32) shapeCasts_S32768x1024_S8192x4x1024

/-- Entry (b, k, w) of the result is entry (4·b + k, w) of the flat result. -/
theorem Kout_apply (c : Dev nD) (b : Fin 8192) (k : Fin 4) (w : Fin 1024) :
    Kout m c (ix3 b k w) = flatOut m c (ix2 (Cert.Spec.rowIx b k) w) := by
  unfold Kout
  -- both indices sit at the row-major position 4096·b + 1024·k + w
  exact shapeCast_apply (flatOut m c) shapeCasts_S32768x1024_S8192x4x1024 (ix3 b k w) (ix2 (Cert.Spec.rowIx b k) w) (by
    rw [Shape.rowMajor_val_two, Shape.rowMajor_val_three]
    show (4 * b.val + k.val) * 1024 + w.val = (b.val * 4 + k.val) * 1024 + w.val
    omega)

/-- The run, read: the result buffer at `Kout`, the seven arguments unchanged. -/
theorem run : θ_run (defs (F := Ideal)) (onTc (τ := τ) (main (F := Ideal))) ⟨m, fun _ => 0, ρ⟩ (fun r => ∀ c : Dev nD,
      r.2.mem ((c.tc : Thread nD τ).loc main_v36) = Kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  -- the reshape after the region reads the result array, which the region left at the flat result
  have tail : ∀ c : Dev nD, Pipeline.afterTail₀ cfgs (dats (F := Ideal) m) 0 (V0 m) [hostOps1] c main_v36 = Kout m c := fun c => by
    unfold Pipeline.afterTail₀
    show StableHlo.after hostOps1 _ (Proc.devRef .tc main_v36) = _
    after_results
    unfold Kout
    rw [(Pipeline.withArrays_arr spec0 launch0.win.arr_inj c _ _ 6).trans (final6 m c)]
    rfl
  exact (θ_run (defs (F := Ideal)) _ _).mono (fun _ h c => ⟨((h c).2 main_v36 (Pipeline.mem_restRefs_of main_v36 (by decide) (by decide))).trans (tail c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c)⟩) (run_main m ρ)

end Cert.KernelIdeal.Hand

end
-- ==== Proof.RI.Run.lean ====
/-
  The reference program's run, read as one formula of its seven argument arrays.

  The program is a straight line of 88 array operations once each called function is replaced by its body over
  that call's own buffers: the mean and the variance of x over its last axis (30 operations), the normalisation
  y = (x − μ)·rsqrt(v + ε)·s + o (14), the four cyclic shifts of y along its middle axis stacked and flattened into
  R (18), and hidden = R·W1 + b1, the tanh form of GELU, out = act·W2 + b2, x + out (26). Each stretch's value is a
  term of the buffers it reads; the whole line's value at the result buffer is their composition, `res`, and no
  operation writes an argument's buffer.
-/
import proofs.«114533_j75574244540703_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The values the operations compute, as terms of the argument arrays -/

/-- The mean over the last axis, that axis kept at length one: the sum along it divided by its length 1024. -/
def rowMean (x : FVec F S8192x4x1024 .f32) : FVec F S8192x4x1 .f32 :=
  Host.divf
    (broadcastInDim S8192x4x1 ![0, 1] bcast_S8192x4_S8192x4x1_0_1
      (Host.reduceAdd x (constant S_ .f32 0x00000000#32) reducesTo_S8192x4x1024_S8192x4_d2 h_S_))
    (broadcastInDim S8192x4x1 ![] bcast_S_S8192x4x1 (constant S_ .f32 0x44800000#32))

/-- The variance's divisor as the program forms it: the length 1024 less the correction 0 converted to a float. -/
def varDen : FVec F S_ .f32 :=
  subf (constant S_ .f32 0x44800000#32) (sitofp .f32 (constantI S_ 32 0#32))

/-- The variance over the last axis, that axis kept at length one: the sum of the squared deviations from the
    mean divided by the divisor where the divisor is positive, the NaN word elsewhere. -/
def rowVar (x : FVec F S8192x4x1024 .f32) : FVec F S8192x4x1 .f32 :=
  select (broadcastInDim S8192x4x1 ![] bcast_S_S8192x4x1 (cmpf .ogt (varDen (F := F)) (constant S_ .f32 0x00000000#32)))
    (Host.divf
      (broadcastInDim S8192x4x1 ![0, 1] bcast_S8192x4_S8192x4x1_0_1
        (Host.reduceAdd
          (mulf (subf x (broadcastInDim S8192x4x1024 ![0, 1, 2] bcast_S8192x4x1_S8192x4x1024_0_1_2 (rowMean x)))
            (subf x (broadcastInDim S8192x4x1024 ![0, 1, 2] bcast_S8192x4x1_S8192x4x1024_0_1_2 (rowMean x))))
          (constant S_ .f32 0x00000000#32) reducesTo_S8192x4x1024_S8192x4_d2 h_S_))
      (broadcastInDim S8192x4x1 ![] bcast_S_S8192x4x1 (varDen (F := F))))
    (broadcastInDim S8192x4x1 ![] bcast_S_S8192x4x1 (id (constant S_ .f32 0x7FC00000#32)))

/-- The normalisation from a given mean and variance: (x − μ) · rsqrt(v + ε) · s + o, the per-row and per-column
    factors broadcast to the array's shape. -/
def lnOf (μ v : FVec F S8192x4x1 .f32) (x : FVec F S8192x4x1024 .f32) (s o : FVec F S1024 .f32) : FVec F S8192x4x1024 .f32 :=
  addf
    (mulf
      (mulf (subf x (broadcastInDim S8192x4x1024 ![0, 1, 2] bcast_S8192x4x1_S8192x4x1024_0_1_2 μ))
        (broadcastInDim S8192x4x1024 ![0, 1, 2] bcast_S8192x4x1_S8192x4x1024_0_1_2
          (Host.rsqrt (addf v (broadcastInDim S8192x4x1 ![] bcast_S_S8192x4x1 (constant S_ .f32 0x3727C5AC#32))))))
      (broadcastInDim S8192x4x1024 ![0, 1, 2] bcast_S1x1x1024_S8192x4x1024_0_1_2 (broadcastInDim S1x1x1024 ![2] bcast_S1024_S1x1x1024_2 s)))
    (broadcastInDim S8192x4x1024 ![0, 1, 2] bcast_S1x1x1024_S8192x4x1024_0_1_2 (broadcastInDim S1x1x1024 ![2] bcast_S1024_S1x1x1024_2 o))

/-- LayerNorm of x over its last axis with scale s and offset o. -/
def ln (x : FVec F S8192x4x1024 .f32) (s o : FVec F S1024 .f32) : FVec F S8192x4x1024 .f32 :=
  lnOf (rowMean x) (rowVar x) x s o

/-- The four cyclic shifts of y along its middle axis (by 0, 1, 2, 3: rows k … 3 followed by rows 0 … k−1), each
    given a unit axis, stacked along that axis and the last two axes merged: entry (b, k, 1024·j + w) is
    y (b, (j + k) mod 4, w). -/
def rollsOf (y : FVec F S8192x4x1024 .f32) : FVec F S8192x4x4096 .f32 :=
  shapeCast S8192x4x4096
    (concatenate S8192x4x4x1024 1
      [⟨S8192x1x4x1024, broadcastInDim S8192x1x4x1024 ![0, 2, 3] bcast_S8192x4x1024_S8192x1x4x1024_0_2_3
          (concatenate S8192x4x1024 1
            [⟨S8192x4x1024, extractStridedSlice S8192x4x1024 ![0, 0, 0] y slices_S8192x4x1024_S8192x4x1024_0_0_0⟩,
             ⟨S8192x0x1024, extractStridedSlice S8192x0x1024 ![0, 0, 0] y slices_S8192x4x1024_S8192x0x1024_0_0_0⟩]
            concatenates_S8192x4x1024_S8192x0x1024_S8192x4x1024_d1)⟩,
       ⟨S8192x1x4x1024, broadcastInDim S8192x1x4x1024 ![0, 2, 3] bcast_S8192x4x1024_S8192x1x4x1024_0_2_3
          (concatenate S8192x4x1024 1
            [⟨S8192x3x1024, extractStridedSlice S8192x3x1024 ![0, 1, 0] y slices_S8192x4x1024_S8192x3x1024_0_1_0⟩,
             ⟨S8192x1x1024, extractStridedSlice S8192x1x1024 ![0, 0, 0] y slices_S8192x4x1024_S8192x1x1024_0_0_0⟩]
            concatenates_S8192x3x1024_S8192x1x1024_S8192x4x1024_d1)⟩,
       ⟨S8192x1x4x1024, broadcastInDim S8192x1x4x1024 ![0, 2, 3] bcast_S8192x4x1024_S8192x1x4x1024_0_2_3
          (concatenate S8192x4x1024 1
            [⟨S8192x2x1024, extractStridedSlice S8192x2x1024 ![0, 2, 0] y slices_S8192x4x1024_S8192x2x1024_0_2_0⟩,
             ⟨S8192x2x1024, extractStridedSlice S8192x2x1024 ![0, 0, 0] y slices_S8192x4x1024_S8192x2x1024_0_0_0⟩]
            concatenates_S8192x2x1024_S8192x2x1024_S8192x4x1024_d1)⟩,
       ⟨S8192x1x4x1024, broadcastInDim S8192x1x4x1024 ![0, 2, 3] bcast_S8192x4x1024_S8192x1x4x1024_0_2_3
          (concatenate S8192x4x1024 1
            [⟨S8192x1x1024, extractStridedSlice S8192x1x1024 ![0, 3, 0] y slices_S8192x4x1024_S8192x1x1024_0_3_0⟩,
             ⟨S8192x3x1024, extractStridedSlice S8192x3x1024 ![0, 0, 0] y slices_S8192x4x1024_S8192x3x1024_0_0_0⟩]
            concatenates_S8192x1x1024_S8192x3x1024_S8192x4x1024_d1)⟩]
      concatenates_S8192x1x4x1024_S8192x1x4x1024_S8192x1x4x1024_S8192x1x4x1024_S8192x4x4x1024_d1)
    shapeCasts_S8192x4x4x1024_S8192x4x4096

/-- The first 62 operations' result: the stacked shifts of the normalised input. -/
def rolls (x : FVec F S8192x4x1024 .f32) (s o : FVec F S1024 .f32) : FVec F S8192x4x4096 .f32 :=
  rollsOf (ln x s o)

/-- The hidden pre-activation: R contracted with W1 over R's last axis, plus the bias along the last axis. -/
def hidden (R : FVec F S8192x4x4096 .f32) (W1 : FVec F S4096x4096 .f32) (b1 : FVec F S4096 .f32) : FVec F S8192x4x4096 .f32 :=
  addf (Host.dotGeneral dot_S8192x4x4096_S4096x4096_S8192x4x4096_2_0_01_1_n_n none R W1)
    (broadcastInDim S8192x4x4096 ![0, 1, 2] bcast_S1x1x4096_S8192x4x4096_0_1_2 (broadcastInDim S1x1x4096 ![2] bcast_S4096_S1x1x4096_2 b1))

/-- The tanh form of GELU, element by element, the cube taken as (h·h)·h:
    h · (½ · (1 + tanh(c₂ · (h + c₁ · h³)))). -/
def act (h : FVec F S8192x4x4096 .f32) : FVec F S8192x4x4096 .f32 :=
  mulf h
    (mulf (broadcastInDim S8192x4x4096 ![] bcast_S_S8192x4x4096 (constant S_ .f32 0x3F000000#32))
      (addf (broadcastInDim S8192x4x4096 ![] bcast_S_S8192x4x4096 (constant S_ .f32 0x3F800000#32))
        (Host.tanh
          (mulf (broadcastInDim S8192x4x4096 ![] bcast_S_S8192x4x4096 (constant S_ .f32 0x3F4C422A#32))
            (addf h
              (mulf (broadcastInDim S8192x4x4096 ![] bcast_S_S8192x4x4096 (constant S_ .f32 0x3D372713#32))
                (mulf (mulf h h) h)))))))

/-- The last 26 operations' result from the stacked array R: x + (act(hidden R) contracted with W2 + b2). -/
def resOf (R : FVec F S8192x4x4096 .f32) (x : FVec F S8192x4x1024 .f32) (W1 : FVec F S4096x4096 .f32) (b1 : FVec F S4096 .f32)
    (W2 : FVec F S4096x1024 .f32) (b2 : FVec F S1024 .f32) : FVec F S8192x4x1024 .f32 :=
  addf x
    (addf (Host.dotGeneral dot_S8192x4x4096_S4096x1024_S8192x4x1024_2_0_01_1_n_n none (act (hidden R W1 b1)) W2)
      (broadcastInDim S8192x4x1024 ![0, 1, 2] bcast_S1x1x1024_S8192x4x1024_0_1_2 (broadcastInDim S1x1x1024 ![2] bcast_S1024_S1x1x1024_2 b2)))

/-- The program's result as a term of its seven argument arrays. -/
def res (x : FVec F S8192x4x1024 .f32) (s o : FVec F S1024 .f32) (W1 : FVec F S4096x4096 .f32) (b1 : FVec F S4096 .f32)
    (W2 : FVec F S4096x1024 .f32) (b2 : FVec F S1024 .f32) : FVec F S8192x4x1024 .f32 :=
  resOf (rolls x s o) x W1 b1 W2 b2

/-! ## The operations -/

/-- Operations 1–30: the mean (in the program's own buffers) and the variance (the called function's body and the
    select it calls, over that call's buffers). -/
abbrev opsA : List (HloOp τ sig (Elt F)) :=
  [ nullary main_cst (constant S_ .f32 0x00000000#32),
    binary main_arg0 main_cst main_v0 ((fun x v => Host.reduceAdd x v reducesTo_S8192x4x1024_S8192x4_d2 h_S_) : (⟨S8192x4x1024, .f32⟩ : BufTy).Contents (Elt F) → (⟨S_, .f32⟩ : BufTy).Contents (Elt F) → (⟨S8192x4, .f32⟩ : BufTy).Contents (Elt F)),
    unary main_v0 main_v1 (broadcastInDim S8192x4x1 ![0, 1] bcast_S8192x4_S8192x4x1_0_1 : (⟨S8192x4, .f32⟩ : BufTy).Contents (Elt F) → (⟨S8192x4x1, .f32⟩ : BufTy).Contents (Elt F)),
    nullary main_cst_0 (constant S_ .f32 0x44800000#32),
    unary main_cst_0 main_v2 (broadcastInDim S8192x4x1 ![] bcast_S_S8192x4x1 : (⟨S_, .f32⟩ : BufTy).Contents (Elt F) → (⟨S8192x4x1, .f32⟩ : BufTy).Contents (Elt F)),
    binary main_v1 main_v2 main_v3 (Host.divf : (⟨S8192x4x1, .f32⟩ : BufTy).Contents (Elt F) → (⟨S8192x4x1, .f32⟩ : BufTy).Contents (Elt F) → (⟨S8192x4x1, .f32⟩ : BufTy).Contents (Elt F)),
    nullary main_c (constantI S_ 32 0#32),
    TRef.nullary main_call0.cst (constant S_ .f32 0x00000000#32),
    TRef.binary (.of main_arg0 : TRef sig ⟨S8192x4x1024, .f32⟩) main_call0.cst main_call0.v0 (fun x v => Host.reduceAdd x v reducesTo_S8192x4x1024_S8192x4_d2 h_S_),
    TRef.unary main_call0.v0 main_call0.v1 (broadcastInDim S8192x4x1 ![0, 1] bcast_S8192x4_S8192x4x1_0_1),
    TRef.nullary main_call0.cst_0 (constant S_ .f32 0x44800000#32),
    TRef.unary main_call0.cst_0 main_call0.v2 (broadcastInDim S8192x4x1 ![] bcast_S_S8192x4x1),
    TRef.binary main_call0.v1 main_call0.v2 main_call0.v3 Host.divf,
    TRef.unary main_call0.v3 main_call0.v4 (broadcastInDim S8192x4x1024 ![0, 1, 2] bcast_S8192x4x1_S8192x4x1024_0_1_2),
    TRef.binary (.of main_arg0 : TRef sig ⟨S8192x4x1024, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x4x1024_S8192x4_d2 h_S_),
    TRef.unary main_call0.v9 main_call0.v10 (broadcastInDim S8192x4x1 ![0, 1] bcast_S8192x4_S8192x4x1_0_1),
    TRef.unary main_call0.v8 main_call0.v11 (broadcastInDim S8192x4x1 ![] bcast_S_S8192x4x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8192x4x1 ![] bcast_S_S8192x4x1),
    TRef.ternary main_call0.v13 main_call0.v12 main_call0.call0.v1 main_call0.call0.v2 (fun p a b => select (broadcastInDim S8192x4x1 ![] bcast_S_S8192x4x1 p) a b) ]

/-- Operations 31–44: the normalisation. -/
abbrev opsB : List (HloOp τ sig (Elt F)) :=
  [ unary main_v3 main_v5 (broadcastInDim S8192x4x1024 ![0, 1, 2] bcast_S8192x4x1_S8192x4x1024_0_1_2 : (⟨S8192x4x1, .f32⟩ : BufTy).Contents (Elt F) → (⟨S8192x4x1024, .f32⟩ : BufTy).Contents (Elt F)),
    binary main_arg0 main_v5 main_v6 (subf : (⟨S8192x4x1024, .f32⟩ : BufTy).Contents (Elt F) → (⟨S8192x4x1024, .f32⟩ : BufTy).Contents (Elt F) → (⟨S8192x4x1024, .f32⟩ : BufTy).Contents (Elt F)),
    nullary main_cst_1 (constant S_ .f32 0x3727C5AC#32),
    unary main_cst_1 main_v7 (broadcastInDim S8192x4x1 ![] bcast_S_S8192x4x1 : (⟨S_, .f32⟩ : BufTy).Contents (Elt F) → (⟨S8192x4x1, .f32⟩ : BufTy).Contents (Elt F)),
    binary main_v4 main_v7 main_v8 (addf : (⟨S8192x4x1, .f32⟩ : BufTy).Contents (Elt F) → (⟨S8192x4x1, .f32⟩ : BufTy).Contents (Elt F) → (⟨S8192x4x1, .f32⟩ : BufTy).Contents (Elt F)),
    unary main_v8 main_v9 (Host.rsqrt : (⟨S8192x4x1, .f32⟩ : BufTy).Contents (Elt F) → (⟨S8192x4x1, .f32⟩ : BufTy).Contents (Elt F)),
    unary main_v9 main_v10 (broadcastInDim S8192x4x1024 ![0, 1, 2] bcast_S8192x4x1_S8192x4x1024_0_1_2 : (⟨S8192x4x1, .f32⟩ : BufTy).Contents (Elt F) → (⟨S8192x4x1024, .f32⟩ : BufTy).Contents (Elt F)),
    binary main_v6 main_v10 main_v11 (mulf : (⟨S8192x4x1024, .f32⟩ : BufTy).Contents (Elt F) → (⟨S8192x4x1024, .f32⟩ : BufTy).Contents (Elt F) → (⟨S8192x4x1024, .f32⟩ : BufTy).Contents (Elt F)),
    unary main_arg1 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S8192x4x1024 ![0, 1, 2] bcast_S1x1x1024_S8192x4x1024_0_1_2 : (⟨S1x1x1024, .f32⟩ : BufTy).Contents (Elt F) → (⟨S8192x4x1024, .f32⟩ : BufTy).Contents (Elt F)),
    binary main_v11 main_v13 main_v14 (mulf : (⟨S8192x4x1024, .f32⟩ : BufTy).Contents (Elt F) → (⟨S8192x4x1024, .f32⟩ : BufTy).Contents (Elt F) → (⟨S8192x4x1024, .f32⟩ : BufTy).Contents (Elt F)),
    unary main_arg2 main_v15 (broadcastInDim S1x1x1024 ![2] bcast_S1024_S1x1x1024_2 : (⟨S1024, .f32⟩ : BufTy).Contents (Elt F) → (⟨S1x1x1024, .f32⟩ : BufTy).Contents (Elt F)),
    unary main_v15 main_v16 (broadcastInDim S8192x4x1024 ![0, 1, 2] bcast_S1x1x1024_S8192x4x1024_0_1_2 : (⟨S1x1x1024, .f32⟩ : BufTy).Contents (Elt F) → (⟨S8192x4x1024, .f32⟩ : BufTy).Contents (Elt F)),
    binary main_v14 main_v16 main_v17 (addf : (⟨S8192x4x1024, .f32⟩ : BufTy).Contents (Elt F) → (⟨S8192x4x1024, .f32⟩ : BufTy).Contents (Elt F) → (⟨S8192x4x1024, .f32⟩ : BufTy).Contents (Elt F)) ]

/-- Operations 45–62: the four shifts (each a called function: two slices and their concatenation), the unit axes,
    the stack and the merge of the last two axes. -/
abbrev opsC : List (HloOp τ sig (Elt F)) :=
  [ TRef.unary (.of main_v17 : TRef sig ⟨S8192x4x1024, .f32⟩) main_call1.v0 (extractStridedSlice S8192x4x1024 ![0, 0, 0] · slices_S8192x4x1024_S8192x4x1024_0_0_0),
    TRef.unary (.of main_v17 : TRef sig ⟨S8192x4x1024, .f32⟩) main_call1.v1 (extractStridedSlice S8192x0x1024 ![0, 0, 0] · slices_S8192x4x1024_S8192x0x1024_0_0_0),
    TRef.binary main_call1.v0 main_call1.v1 main_call1.v2 (fun a b => concatenate S8192x4x1024 1 [⟨S8192x4x1024, a⟩, ⟨S8192x0x1024, b⟩] concatenates_S8192x4x1024_S8192x0x1024_S8192x4x1024_d1),
    TRef.unary (.of main_v17 : TRef sig ⟨S8192x4x1024, .f32⟩) main_call2.v0 (extractStridedSlice S8192x3x1024 ![0, 1, 0] · slices_S8192x4x1024_S8192x3x1024_0_1_0),
    TRef.unary (.of main_v17 : TRef sig ⟨S8192x4x1024, .f32⟩) main_call2.v1 (extractStridedSlice S8192x1x1024 ![0, 0, 0] · slices_S8192x4x1024_S8192x1x1024_0_0_0),
    TRef.binary main_call2.v0 main_call2.v1 main_call2.v2 (fun a b => concatenate S8192x4x1024 1 [⟨S8192x3x1024, a⟩, ⟨S8192x1x1024, b⟩] concatenates_S8192x3x1024_S8192x1x1024_S8192x4x1024_d1),
    TRef.unary (.of main_v17 : TRef sig ⟨S8192x4x1024, .f32⟩) main_call3.v0 (extractStridedSlice S8192x2x1024 ![0, 2, 0] · slices_S8192x4x1024_S8192x2x1024_0_2_0),
    TRef.unary (.of main_v17 : TRef sig ⟨S8192x4x1024, .f32⟩) main_call3.v1 (extractStridedSlice S8192x2x1024 ![0, 0, 0] · slices_S8192x4x1024_S8192x2x1024_0_0_0),
    TRef.binary main_call3.v0 main_call3.v1 main_call3.v2 (fun a b => concatenate S8192x4x1024 1 [⟨S8192x2x1024, a⟩, ⟨S8192x2x1024, b⟩] concatenates_S8192x2x1024_S8192x2x1024_S8192x4x1024_d1),
    TRef.unary (.of main_v17 : TRef sig ⟨S8192x4x1024, .f32⟩) main_call4.v0 (extractStridedSlice S8192x1x1024 ![0, 3, 0] · slices_S8192x4x1024_S8192x1x1024_0_3_0),
    TRef.unary (.of main_v17 : TRef sig ⟨S8192x4x1024, .f32⟩) main_call4.v1 (extractStridedSlice S8192x3x1024 ![0, 0, 0] · slices_S8192x4x1024_S8192x3x1024_0_0_0),
    TRef.binary main_call4.v0 main_call4.v1 main_call4.v2 (fun a b => concatenate S8192x4x1024 1 [⟨S8192x1x1024, a⟩, ⟨S8192x3x1024, b⟩] concatenates_S8192x1x1024_S8192x3x1024_S8192x4x1024_d1),
    unary main_v18 main_v22 (broadcastInDim S8192x1x4x1024 ![0, 2, 3] bcast_S8192x4x1024_S8192x1x4x1024_0_2_3 : (⟨S8192x4x1024, .f32⟩ : BufTy).Contents (Elt F) → (⟨S8192x1x4x1024, .f32⟩ : BufTy).Contents (Elt F)),
    unary main_v19 main_v23 (broadcastInDim S8192x1x4x1024 ![0, 2, 3] bcast_S8192x4x1024_S8192x1x4x1024_0_2_3 : (⟨S8192x4x1024, .f32⟩ : BufTy).Contents (Elt F) → (⟨S8192x1x4x1024, .f32⟩ : BufTy).Contents (Elt F)),
    unary main_v20 main_v24 (broadcastInDim S8192x1x4x1024 ![0, 2, 3] bcast_S8192x4x1024_S8192x1x4x1024_0_2_3 : (⟨S8192x4x1024, .f32⟩ : BufTy).Contents (Elt F) → (⟨S8192x1x4x1024, .f32⟩ : BufTy).Contents (Elt F)),
    unary main_v21 main_v25 (broadcastInDim S8192x1x4x1024 ![0, 2, 3] bcast_S8192x4x1024_S8192x1x4x1024_0_2_3 : (⟨S8192x4x1024, .f32⟩ : BufTy).Contents (Elt F) → (⟨S8192x1x4x1024, .f32⟩ : BufTy).Contents (Elt F)),
    nary ![main_v22, main_v23, main_v24, main_v25] main_v26 (fun u => concatenate S8192x4x4x1024 1 [⟨S8192x1x4x1024, u 0⟩, ⟨S8192x1x4x1024, u 1⟩, ⟨S8192x1x4x1024, u 2⟩, ⟨S8192x1x4x1024, u 3⟩] concatenates_S8192x1x4x1024_S8192x1x4x1024_S8192x1x4x1024_S8192x1x4x1024_S8192x4x4x1024_d1),
    reshape main_v26 main_v27 rfl shapeCasts_S8192x4x4x1024_S8192x4x4096 ]

/-- Operations 63–88: the two contractions, the activation between them, the biases and the residual. -/
abbrev opsD : List (HloOp τ sig (Elt F)) :=
  [ binary main_v27 main_arg3 main_v28 ((fun l r => Host.dotGeneral dot_S8192x4x4096_S4096x4096_S8192x4x4096_2_0_01_1_n_n none l r) : (⟨S8192x4x4096, .f32⟩ : BufTy).Contents (Elt F) → (⟨S4096x4096, .f32⟩ : BufTy).Contents (Elt F) → (⟨S8192x4x4096, .f32⟩ : BufTy).Contents (Elt F)),
    unary main_arg4 main_v29 (broadcastInDim S1x1x4096 ![2] bcast_S4096_S1x1x4096_2 : (⟨S4096, .f32⟩ : BufTy).Contents (Elt F) → (⟨S1x1x4096, .f32⟩ : BufTy).Contents (Elt F)),
    unary main_v29 main_v30 (broadcastInDim S8192x4x4096 ![0, 1, 2] bcast_S1x1x4096_S8192x4x4096_0_1_2 : (⟨S1x1x4096, .f32⟩ : BufTy).Contents (Elt F) → (⟨S8192x4x4096, .f32⟩ : BufTy).Contents (Elt F)),
    binary main_v28 main_v30 main_v31 (addf : (⟨S8192x4x4096, .f32⟩ : BufTy).Contents (Elt F) → (⟨S8192x4x4096, .f32⟩ : BufTy).Contents (Elt F) → (⟨S8192x4x4096, .f32⟩ : BufTy).Contents (Elt F)),
    binary main_v31 main_v31 main_v32 (mulf : (⟨S8192x4x4096, .f32⟩ : BufTy).Contents (Elt F) → (⟨S8192x4x4096, .f32⟩ : BufTy).Contents (Elt F) → (⟨S8192x4x4096, .f32⟩ : BufTy).Contents (Elt F)),
    binary main_v32 main_v31 main_v33 (mulf : (⟨S8192x4x4096, .f32⟩ : BufTy).Contents (Elt F) → (⟨S8192x4x4096, .f32⟩ : BufTy).Contents (Elt F) → (⟨S8192x4x4096, .f32⟩ : BufTy).Contents (Elt F)),
    nullary main_cst_2 (constant S_ .f32 0x3D372713#32),
    unary main_cst_2 main_v34 (broadcastInDim S8192x4x4096 ![] bcast_S_S8192x4x4096 : (⟨S_, .f32⟩ : BufTy).Contents (Elt F) → (⟨S8192x4x4096, .f32⟩ : BufTy).Contents (Elt F)),
    binary main_v34 main_v33 main_v35 (mulf : (⟨S8192x4x4096, .f32⟩ : BufTy).Contents (Elt F) → (⟨S8192x4x4096, .f32⟩ : BufTy).Contents (Elt F) → (⟨S8192x4x4096, .f32⟩ : BufTy).Contents (Elt F)),
    binary main_v31 main_v35 main_v36 (addf : (⟨S8192x4x4096, .f32⟩ : BufTy).Contents (Elt F) → (⟨S8192x4x4096, .f32⟩ : BufTy).Contents (Elt F) → (⟨S8192x4x4096, .f32⟩ : BufTy).Contents (Elt F)),
    nullary main_cst_3 (constant S_ .f32 0x3F4C422A#32),
    unary main_cst_3 main_v37 (broadcastInDim S8192x4x4096 ![] bcast_S_S8192x4x4096 : (⟨S_, .f32⟩ : BufTy).Contents (Elt F) → (⟨S8192x4x4096, .f32⟩ : BufTy).Contents (Elt F)),
    binary main_v37 main_v36 main_v38 (mulf : (⟨S8192x4x4096, .f32⟩ : BufTy).Contents (Elt F) → (⟨S8192x4x4096, .f32⟩ : BufTy).Contents (Elt F) → (⟨S8192x4x4096, .f32⟩ : BufTy).Contents (Elt F)),
    unary main_v38 main_v39 (Host.tanh : (⟨S8192x4x4096, .f32⟩ : BufTy).Contents (Elt F) → (⟨S8192x4x4096, .f32⟩ : BufTy).Contents (Elt F)),
    nullary main_cst_4 (constant S_ .f32 0x3F800000#32),
    unary main_cst_4 main_v40 (broadcastInDim S8192x4x4096 ![] bcast_S_S8192x4x4096 : (⟨S_, .f32⟩ : BufTy).Contents (Elt F) → (⟨S8192x4x4096, .f32⟩ : BufTy).Contents (Elt F)),
    binary main_v40 main_v39 main_v41 (addf : (⟨S8192x4x4096, .f32⟩ : BufTy).Contents (Elt F) → (⟨S8192x4x4096, .f32⟩ : BufTy).Contents (Elt F) → (⟨S8192x4x4096, .f32⟩ : BufTy).Contents (Elt F)),
    nullary main_cst_5 (constant S_ .f32 0x3F000000#32),
    unary main_cst_5 main_v42 (broadcastInDim S8192x4x4096 ![] bcast_S_S8192x4x4096 : (⟨S_, .f32⟩ : BufTy).Contents (Elt F) → (⟨S8192x4x4096, .f32⟩ : BufTy).Contents (Elt F)),
    binary main_v42 main_v41 main_v43 (mulf : (⟨S8192x4x4096, .f32⟩ : BufTy).Contents (Elt F) → (⟨S8192x4x4096, .f32⟩ : BufTy).Contents (Elt F) → (⟨S8192x4x4096, .f32⟩ : BufTy).Contents (Elt F)),
    binary main_v31 main_v43 main_v44 (mulf : (⟨S8192x4x4096, .f32⟩ : BufTy).Contents (Elt F) → (⟨S8192x4x4096, .f32⟩ : BufTy).Contents (Elt F) → (⟨S8192x4x4096, .f32⟩ : BufTy).Contents (Elt F)),
    binary main_v44 main_arg5 main_v45 ((fun l r => Host.dotGeneral dot_S8192x4x4096_S4096x1024_S8192x4x1024_2_0_01_1_n_n none l r) : (⟨S8192x4x4096, .f32⟩ : BufTy).Contents (Elt F) → (⟨S4096x1024, .f32⟩ : BufTy).Contents (Elt F) → (⟨S8192x4x1024, .f32⟩ : BufTy).Contents (Elt F)),
    unary main_arg6 main_v46 (broadcastInDim S1x1x1024 ![2] bcast_S1024_S1x1x1024_2 : (⟨S1024, .f32⟩ : BufTy).Contents (Elt F) → (⟨S1x1x1024, .f32⟩ : BufTy).Contents (Elt F)),
    unary main_v46 main_v47 (broadcastInDim S8192x4x1024 ![0, 1, 2] bcast_S1x1x1024_S8192x4x1024_0_1_2 : (⟨S1x1x1024, .f32⟩ : BufTy).Contents (Elt F) → (⟨S8192x4x1024, .f32⟩ : BufTy).Contents (Elt F)),
    binary main_v45 main_v47 main_v48 (addf : (⟨S8192x4x1024, .f32⟩ : BufTy).Contents (Elt F) → (⟨S8192x4x1024, .f32⟩ : BufTy).Contents (Elt F) → (⟨S8192x4x1024, .f32⟩ : BufTy).Contents (Elt F)),
    binary main_arg0 main_v48 main_v49 (addf : (⟨S8192x4x1024, .f32⟩ : BufTy).Contents (Elt F) → (⟨S8192x4x1024, .f32⟩ : BufTy).Contents (Elt F) → (⟨S8192x4x1024, .f32⟩ : BufTy).Contents (Elt F)) ]

/-- The 88 operations of the program in order, every call replaced by the callee's operations over that call's buffers. -/
abbrev ops : List (HloOp τ sig (Elt F)) :=
  [ nullary main_cst (constant S_ .f32 0x00000000#32),
    binary main_arg0 main_cst main_v0 ((fun x v => Host.reduceAdd x v reducesTo_S8192x4x1024_S8192x4_d2 h_S_) : (⟨S8192x4x1024, .f32⟩ : BufTy).Contents (Elt F) → (⟨S_, .f32⟩ : BufTy).Contents (Elt F) → (⟨S8192x4, .f32⟩ : BufTy).Contents (Elt F)),
    unary main_v0 main_v1 (broadcastInDim S8192x4x1 ![0, 1] bcast_S8192x4_S8192x4x1_0_1 : (⟨S8192x4, .f32⟩ : BufTy).Contents (Elt F) → (⟨S8192x4x1, .f32⟩ : BufTy).Contents (Elt F)),
    nullary main_cst_0 (constant S_ .f32 0x44800000#32),
    unary main_cst_0 main_v2 (broadcastInDim S8192x4x1 ![] bcast_S_S8192x4x1 : (⟨S_, .f32⟩ : BufTy).Contents (Elt F) → (⟨S8192x4x1, .f32⟩ : BufTy).Contents (Elt F)),
    binary main_v1 main_v2 main_v3 (Host.divf : (⟨S8192x4x1, .f32⟩ : BufTy).Contents (Elt F) → (⟨S8192x4x1, .f32⟩ : BufTy).Contents (Elt F) → (⟨S8192x4x1, .f32⟩ : BufTy).Contents (Elt F)),
    nullary main_c (constantI S_ 32 0#32),
    TRef.nullary main_call0.cst (constant S_ .f32 0x00000000#32),
    TRef.binary (.of main_arg0 : TRef sig ⟨S8192x4x1024, .f32⟩) main_call0.cst main_call0.v0 (fun x v => Host.reduceAdd x v reducesTo_S8192x4x1024_S8192x4_d2 h_S_),
    TRef.unary main_call0.v0 main_call0.v1 (broadcastInDim S8192x4x1 ![0, 1] bcast_S8192x4_S8192x4x1_0_1),
    TRef.nullary main_call0.cst_0 (constant S_ .f32 0x44800000#32),
    TRef.unary main_call0.cst_0 main_call0.v2 (broadcastInDim S8192x4x1 ![] bcast_S_S8192x4x1),
    TRef.binary main_call0.v1 main_call0.v2 main_call0.v3 Host.divf,
    TRef.unary main_call0.v3 main_call0.v4 (broadcastInDim S8192x4x1024 ![0, 1, 2] bcast_S8192x4x1_S8192x4x1024_0_1_2),
    TRef.binary (.of main_arg0 : TRef sig ⟨S8192x4x1024, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x4x1024_S8192x4_d2 h_S_),
    TRef.unary main_call0.v9 main_call0.v10 (broadcastInDim S8192x4x1 ![0, 1] bcast_S8192x4_S8192x4x1_0_1),
    TRef.unary main_call0.v8 main_call0.v11 (broadcastInDim S8192x4x1 ![] bcast_S_S8192x4x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8192x4x1 ![] bcast_S_S8192x4x1),
    TRef.ternary main_call0.v13 main_call0.v12 main_call0.call0.v1 main_call0.call0.v2 (fun p a b => select (broadcastInDim S8192x4x1 ![] bcast_S_S8192x4x1 p) a b),
    unary main_v3 main_v5 (broadcastInDim S8192x4x1024 ![0, 1, 2] bcast_S8192x4x1_S8192x4x1024_0_1_2 : (⟨S8192x4x1, .f32⟩ : BufTy).Contents (Elt F) → (⟨S8192x4x1024, .f32⟩ : BufTy).Contents (Elt F)),
    binary main_arg0 main_v5 main_v6 (subf : (⟨S8192x4x1024, .f32⟩ : BufTy).Contents (Elt F) → (⟨S8192x4x1024, .f32⟩ : BufTy).Contents (Elt F) → (⟨S8192x4x1024, .f32⟩ : BufTy).Contents (Elt F)),
    nullary main_cst_1 (constant S_ .f32 0x3727C5AC#32),
    unary main_cst_1 main_v7 (broadcastInDim S8192x4x1 ![] bcast_S_S8192x4x1 : (⟨S_, .f32⟩ : BufTy).Contents (Elt F) → (⟨S8192x4x1, .f32⟩ : BufTy).Contents (Elt F)),
    binary main_v4 main_v7 main_v8 (addf : (⟨S8192x4x1, .f32⟩ : BufTy).Contents (Elt F) → (⟨S8192x4x1, .f32⟩ : BufTy).Contents (Elt F) → (⟨S8192x4x1, .f32⟩ : BufTy).Contents (Elt F)),
    unary main_v8 main_v9 (Host.rsqrt : (⟨S8192x4x1, .f32⟩ : BufTy).Contents (Elt F) → (⟨S8192x4x1, .f32⟩ : BufTy).Contents (Elt F)),
    unary main_v9 main_v10 (broadcastInDim S8192x4x1024 ![0, 1, 2] bcast_S8192x4x1_S8192x4x1024_0_1_2 : (⟨S8192x4x1, .f32⟩ : BufTy).Contents (Elt F) → (⟨S8192x4x1024, .f32⟩ : BufTy).Contents (Elt F)),
    binary main_v6 main_v10 main_v11 (mulf : (⟨S8192x4x1024, .f32⟩ : BufTy).Contents (Elt F) → (⟨S8192x4x1024, .f32⟩ : BufTy).Contents (Elt F) → (⟨S8192x4x1024, .f32⟩ : BufTy).Contents (Elt F)),
    unary main_arg1 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S8192x4x1024 ![0, 1, 2] bcast_S1x1x1024_S8192x4x1024_0_1_2 : (⟨S1x1x1024, .f32⟩ : BufTy).Contents (Elt F) → (⟨S8192x4x1024, .f32⟩ : BufTy).Contents (Elt F)),
    binary main_v11 main_v13 main_v14 (mulf : (⟨S8192x4x1024, .f32⟩ : BufTy).Contents (Elt F) → (⟨S8192x4x1024, .f32⟩ : BufTy).Contents (Elt F) → (⟨S8192x4x1024, .f32⟩ : BufTy).Contents (Elt F)),
    unary main_arg2 main_v15 (broadcastInDim S1x1x1024 ![2] bcast_S1024_S1x1x1024_2 : (⟨S1024, .f32⟩ : BufTy).Contents (Elt F) → (⟨S1x1x1024, .f32⟩ : BufTy).Contents (Elt F)),
    unary main_v15 main_v16 (broadcastInDim S8192x4x1024 ![0, 1, 2] bcast_S1x1x1024_S8192x4x1024_0_1_2 : (⟨S1x1x1024, .f32⟩ : BufTy).Contents (Elt F) → (⟨S8192x4x1024, .f32⟩ : BufTy).Contents (Elt F)),
    binary main_v14 main_v16 main_v17 (addf : (⟨S8192x4x1024, .f32⟩ : BufTy).Contents (Elt F) → (⟨S8192x4x1024, .f32⟩ : BufTy).Contents (Elt F) → (⟨S8192x4x1024, .f32⟩ : BufTy).Contents (Elt F)),
    TRef.unary (.of main_v17 : TRef sig ⟨S8192x4x1024, .f32⟩) main_call1.v0 (extractStridedSlice S8192x4x1024 ![0, 0, 0] · slices_S8192x4x1024_S8192x4x1024_0_0_0),
    TRef.unary (.of main_v17 : TRef sig ⟨S8192x4x1024, .f32⟩) main_call1.v1 (extractStridedSlice S8192x0x1024 ![0, 0, 0] · slices_S8192x4x1024_S8192x0x1024_0_0_0),
    TRef.binary main_call1.v0 main_call1.v1 main_call1.v2 (fun a b => concatenate S8192x4x1024 1 [⟨S8192x4x1024, a⟩, ⟨S8192x0x1024, b⟩] concatenates_S8192x4x1024_S8192x0x1024_S8192x4x1024_d1),
    TRef.unary (.of main_v17 : TRef sig ⟨S8192x4x1024, .f32⟩) main_call2.v0 (extractStridedSlice S8192x3x1024 ![0, 1, 0] · slices_S8192x4x1024_S8192x3x1024_0_1_0),
    TRef.unary (.of main_v17 : TRef sig ⟨S8192x4x1024, .f32⟩) main_call2.v1 (extractStridedSlice S8192x1x1024 ![0, 0, 0] · slices_S8192x4x1024_S8192x1x1024_0_0_0),
    TRef.binary main_call2.v0 main_call2.v1 main_call2.v2 (fun a b => concatenate S8192x4x1024 1 [⟨S8192x3x1024, a⟩, ⟨S8192x1x1024, b⟩] concatenates_S8192x3x1024_S8192x1x1024_S8192x4x1024_d1),
    TRef.unary (.of main_v17 : TRef sig ⟨S8192x4x1024, .f32⟩) main_call3.v0 (extractStridedSlice S8192x2x1024 ![0, 2, 0] · slices_S8192x4x1024_S8192x2x1024_0_2_0),
    TRef.unary (.of main_v17 : TRef sig ⟨S8192x4x1024, .f32⟩) main_call3.v1 (extractStridedSlice S8192x2x1024 ![0, 0, 0] · slices_S8192x4x1024_S8192x2x1024_0_0_0),
    TRef.binary main_call3.v0 main_call3.v1 main_call3.v2 (fun a b => concatenate S8192x4x1024 1 [⟨S8192x2x1024, a⟩, ⟨S8192x2x1024, b⟩] concatenates_S8192x2x1024_S8192x2x1024_S8192x4x1024_d1),
    TRef.unary (.of main_v17 : TRef sig ⟨S8192x4x1024, .f32⟩) main_call4.v0 (extractStridedSlice S8192x1x1024 ![0, 3, 0] · slices_S8192x4x1024_S8192x1x1024_0_3_0),
    TRef.unary (.of main_v17 : TRef sig ⟨S8192x4x1024, .f32⟩) main_call4.v1 (extractStridedSlice S8192x3x1024 ![0, 0, 0] · slices_S8192x4x1024_S8192x3x1024_0_0_0),
    TRef.binary main_call4.v0 main_call4.v1 main_call4.v2 (fun a b => concatenate S8192x4x1024 1 [⟨S8192x1x1024, a⟩, ⟨S8192x3x1024, b⟩] concatenates_S8192x1x1024_S8192x3x1024_S8192x4x1024_d1),
    unary main_v18 main_v22 (broadcastInDim S8192x1x4x1024 ![0, 2, 3] bcast_S8192x4x1024_S8192x1x4x1024_0_2_3 : (⟨S8192x4x1024, .f32⟩ : BufTy).Contents (Elt F) → (⟨S8192x1x4x1024, .f32⟩ : BufTy).Contents (Elt F)),
    unary main_v19 main_v23 (broadcastInDim S8192x1x4x1024 ![0, 2, 3] bcast_S8192x4x1024_S8192x1x4x1024_0_2_3 : (⟨S8192x4x1024, .f32⟩ : BufTy).Contents (Elt F) → (⟨S8192x1x4x1024, .f32⟩ : BufTy).Contents (Elt F)),
    unary main_v20 main_v24 (broadcastInDim S8192x1x4x1024 ![0, 2, 3] bcast_S8192x4x1024_S8192x1x4x1024_0_2_3 : (⟨S8192x4x1024, .f32⟩ : BufTy).Contents (Elt F) → (⟨S8192x1x4x1024, .f32⟩ : BufTy).Contents (Elt F)),
    unary main_v21 main_v25 (broadcastInDim S8192x1x4x1024 ![0, 2, 3] bcast_S8192x4x1024_S8192x1x4x1024_0_2_3 : (⟨S8192x4x1024, .f32⟩ : BufTy).Contents (Elt F) → (⟨S8192x1x4x1024, .f32⟩ : BufTy).Contents (Elt F)),
    nary ![main_v22, main_v23, main_v24, main_v25] main_v26 (fun u => concatenate S8192x4x4x1024 1 [⟨S8192x1x4x1024, u 0⟩, ⟨S8192x1x4x1024, u 1⟩, ⟨S8192x1x4x1024, u 2⟩, ⟨S8192x1x4x1024, u 3⟩] concatenates_S8192x1x4x1024_S8192x1x4x1024_S8192x1x4x1024_S8192x1x4x1024_S8192x4x4x1024_d1),
    reshape main_v26 main_v27 rfl shapeCasts_S8192x4x4x1024_S8192x4x4096,
    binary main_v27 main_arg3 main_v28 ((fun l r => Host.dotGeneral dot_S8192x4x4096_S4096x4096_S8192x4x4096_2_0_01_1_n_n none l r) : (⟨S8192x4x4096, .f32⟩ : BufTy).Contents (Elt F) → (⟨S4096x4096, .f32⟩ : BufTy).Contents (Elt F) → (⟨S8192x4x4096, .f32⟩ : BufTy).Contents (Elt F)),
    unary main_arg4 main_v29 (broadcastInDim S1x1x4096 ![2] bcast_S4096_S1x1x4096_2 : (⟨S4096, .f32⟩ : BufTy).Contents (Elt F) → (⟨S1x1x4096, .f32⟩ : BufTy).Contents (Elt F)),
    unary main_v29 main_v30 (broadcastInDim S8192x4x4096 ![0, 1, 2] bcast_S1x1x4096_S8192x4x4096_0_1_2 : (⟨S1x1x4096, .f32⟩ : BufTy).Contents (Elt F) → (⟨S8192x4x4096, .f32⟩ : BufTy).Contents (Elt F)),
    binary main_v28 main_v30 main_v31 (addf : (⟨S8192x4x4096, .f32⟩ : BufTy).Contents (Elt F) → (⟨S8192x4x4096, .f32⟩ : BufTy).Contents (Elt F) → (⟨S8192x4x4096, .f32⟩ : BufTy).Contents (Elt F)),
    binary main_v31 main_v31 main_v32 (mulf : (⟨S8192x4x4096, .f32⟩ : BufTy).Contents (Elt F) → (⟨S8192x4x4096, .f32⟩ : BufTy).Contents (Elt F) → (⟨S8192x4x4096, .f32⟩ : BufTy).Contents (Elt F)),
    binary main_v32 main_v31 main_v33 (mulf : (⟨S8192x4x4096, .f32⟩ : BufTy).Contents (Elt F) → (⟨S8192x4x4096, .f32⟩ : BufTy).Contents (Elt F) → (⟨S8192x4x4096, .f32⟩ : BufTy).Contents (Elt F)),
    nullary main_cst_2 (constant S_ .f32 0x3D372713#32),
    unary main_cst_2 main_v34 (broadcastInDim S8192x4x4096 ![] bcast_S_S8192x4x4096 : (⟨S_, .f32⟩ : BufTy).Contents (Elt F) → (⟨S8192x4x4096, .f32⟩ : BufTy).Contents (Elt F)),
    binary main_v34 main_v33 main_v35 (mulf : (⟨S8192x4x4096, .f32⟩ : BufTy).Contents (Elt F) → (⟨S8192x4x4096, .f32⟩ : BufTy).Contents (Elt F) → (⟨S8192x4x4096, .f32⟩ : BufTy).Contents (Elt F)),
    binary main_v31 main_v35 main_v36 (addf : (⟨S8192x4x4096, .f32⟩ : BufTy).Contents (Elt F) → (⟨S8192x4x4096, .f32⟩ : BufTy).Contents (Elt F) → (⟨S8192x4x4096, .f32⟩ : BufTy).Contents (Elt F)),
    nullary main_cst_3 (constant S_ .f32 0x3F4C422A#32),
    unary main_cst_3 main_v37 (broadcastInDim S8192x4x4096 ![] bcast_S_S8192x4x4096 : (⟨S_, .f32⟩ : BufTy).Contents (Elt F) → (⟨S8192x4x4096, .f32⟩ : BufTy).Contents (Elt F)),
    binary main_v37 main_v36 main_v38 (mulf : (⟨S8192x4x4096, .f32⟩ : BufTy).Contents (Elt F) → (⟨S8192x4x4096, .f32⟩ : BufTy).Contents (Elt F) → (⟨S8192x4x4096, .f32⟩ : BufTy).Contents (Elt F)),
    unary main_v38 main_v39 (Host.tanh : (⟨S8192x4x4096, .f32⟩ : BufTy).Contents (Elt F) → (⟨S8192x4x4096, .f32⟩ : BufTy).Contents (Elt F)),
    nullary main_cst_4 (constant S_ .f32 0x3F800000#32),
    unary main_cst_4 main_v40 (broadcastInDim S8192x4x4096 ![] bcast_S_S8192x4x4096 : (⟨S_, .f32⟩ : BufTy).Contents (Elt F) → (⟨S8192x4x4096, .f32⟩ : BufTy).Contents (Elt F)),
    binary main_v40 main_v39 main_v41 (addf : (⟨S8192x4x4096, .f32⟩ : BufTy).Contents (Elt F) → (⟨S8192x4x4096, .f32⟩ : BufTy).Contents (Elt F) → (⟨S8192x4x4096, .f32⟩ : BufTy).Contents (Elt F)),
    nullary main_cst_5 (constant S_ .f32 0x3F000000#32),
    unary main_cst_5 main_v42 (broadcastInDim S8192x4x4096 ![] bcast_S_S8192x4x4096 : (⟨S_, .f32⟩ : BufTy).Contents (Elt F) → (⟨S8192x4x4096, .f32⟩ : BufTy).Contents (Elt F)),
    binary main_v42 main_v41 main_v43 (mulf : (⟨S8192x4x4096, .f32⟩ : BufTy).Contents (Elt F) → (⟨S8192x4x4096, .f32⟩ : BufTy).Contents (Elt F) → (⟨S8192x4x4096, .f32⟩ : BufTy).Contents (Elt F)),
    binary main_v31 main_v43 main_v44 (mulf : (⟨S8192x4x4096, .f32⟩ : BufTy).Contents (Elt F) → (⟨S8192x4x4096, .f32⟩ : BufTy).Contents (Elt F) → (⟨S8192x4x4096, .f32⟩ : BufTy).Contents (Elt F)),
    binary main_v44 main_arg5 main_v45 ((fun l r => Host.dotGeneral dot_S8192x4x4096_S4096x1024_S8192x4x1024_2_0_01_1_n_n none l r) : (⟨S8192x4x4096, .f32⟩ : BufTy).Contents (Elt F) → (⟨S4096x1024, .f32⟩ : BufTy).Contents (Elt F) → (⟨S8192x4x1024, .f32⟩ : BufTy).Contents (Elt F)),
    unary main_arg6 main_v46 (broadcastInDim S1x1x1024 ![2] bcast_S1024_S1x1x1024_2 : (⟨S1024, .f32⟩ : BufTy).Contents (Elt F) → (⟨S1x1x1024, .f32⟩ : BufTy).Contents (Elt F)),
    unary main_v46 main_v47 (broadcastInDim S8192x4x1024 ![0, 1, 2] bcast_S1x1x1024_S8192x4x1024_0_1_2 : (⟨S1x1x1024, .f32⟩ : BufTy).Contents (Elt F) → (⟨S8192x4x1024, .f32⟩ : BufTy).Contents (Elt F)),
    binary main_v45 main_v47 main_v48 (addf : (⟨S8192x4x1024, .f32⟩ : BufTy).Contents (Elt F) → (⟨S8192x4x1024, .f32⟩ : BufTy).Contents (Elt F) → (⟨S8192x4x1024, .f32⟩ : BufTy).Contents (Elt F)),
    binary main_arg0 main_v48 main_v49 (addf : (⟨S8192x4x1024, .f32⟩ : BufTy).Contents (Elt F) → (⟨S8192x4x1024, .f32⟩ : BufTy).Contents (Elt F) → (⟨S8192x4x1024, .f32⟩ : BufTy).Contents (Elt F)) ]

theorem ops_split : (ops : List (HloOp τ sig (Elt F))) = opsA ++ (opsB ++ (opsC ++ opsD)) := rfl

/-! ## What each stretch leaves in the buffers read after it -/

/-- The fold over two stretches is the fold over the second from the fold over the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

theorem opsA_v3 (V : Valuation τ sig (Elt F)) :
    after opsA V (main_v3 : DevRef τ sig) = rowMean (V (main_arg0 : DevRef τ sig)) := by
  after_results_simp
  rfl
theorem opsA_v4 (V : Valuation τ sig (Elt F)) :
    after opsA V (main_v4 : DevRef τ sig) = rowVar (V (main_arg0 : DevRef τ sig)) := by
  after_results_simp
  rfl
theorem opsA_arg0 (V : Valuation τ sig (Elt F)) :
    after opsA V (main_arg0 : DevRef τ sig) = V (main_arg0 : DevRef τ sig) := by
  after_results_simp
theorem opsA_arg1 (V : Valuation τ sig (Elt F)) :
    after opsA V (main_arg1 : DevRef τ sig) = V (main_arg1 : DevRef τ sig) := by
  after_results_simp
theorem opsA_arg2 (V : Valuation τ sig (Elt F)) :
    after opsA V (main_arg2 : DevRef τ sig) = V (main_arg2 : DevRef τ sig) := by
  after_results_simp
theorem opsA_arg3 (V : Valuation τ sig (Elt F)) :
    after opsA V (main_arg3 : DevRef τ sig) = V (main_arg3 : DevRef τ sig) := by
  after_results_simp
theorem opsA_arg4 (V : Valuation τ sig (Elt F)) :
    after opsA V (main_arg4 : DevRef τ sig) = V (main_arg4 : DevRef τ sig) := by
  after_results_simp
theorem opsA_arg5 (V : Valuation τ sig (Elt F)) :
    after opsA V (main_arg5 : DevRef τ sig) = V (main_arg5 : DevRef τ sig) := by
  after_results_simp
theorem opsA_arg6 (V : Valuation τ sig (Elt F)) :
    after opsA V (main_arg6 : DevRef τ sig) = V (main_arg6 : DevRef τ sig) := by
  after_results_simp

theorem opsB_v17 (V : Valuation τ sig (Elt F)) :
    after opsB V (main_v17 : DevRef τ sig)
      = lnOf (V (main_v3 : DevRef τ sig)) (V (main_v4 : DevRef τ sig)) (V (main_arg0 : DevRef τ sig))
          (V (main_arg1 : DevRef τ sig)) (V (main_arg2 : DevRef τ sig)) := by
  after_results_simp
  rfl
theorem opsB_arg0 (V : Valuation τ sig (Elt F)) :
    after opsB V (main_arg0 : DevRef τ sig) = V (main_arg0 : DevRef τ sig) := by
  after_results_simp
theorem opsB_arg1 (V : Valuation τ sig (Elt F)) :
    after opsB V (main_arg1 : DevRef τ sig) = V (main_arg1 : DevRef τ sig) := by
  after_results_simp
theorem opsB_arg2 (V : Valuation τ sig (Elt F)) :
    after opsB V (main_arg2 : DevRef τ sig) = V (main_arg2 : DevRef τ sig) := by
  after_results_simp
theorem opsB_arg3 (V : Valuation τ sig (Elt F)) :
    after opsB V (main_arg3 : DevRef τ sig) = V (main_arg3 : DevRef τ sig) := by
  after_results_simp
theorem opsB_arg4 (V : Valuation τ sig (Elt F)) :
    after opsB V (main_arg4 : DevRef τ sig) = V (main_arg4 : DevRef τ sig) := by
  after_results_simp
theorem opsB_arg5 (V : Valuation τ sig (Elt F)) :
    after opsB V (main_arg5 : DevRef τ sig) = V (main_arg5 : DevRef τ sig) := by
  after_results_simp
theorem opsB_arg6 (V : Valuation τ sig (Elt F)) :
    after opsB V (main_arg6 : DevRef τ sig) = V (main_arg6 : DevRef τ sig) := by
  after_results_simp

theorem opsC_v27 (V : Valuation τ sig (Elt F)) :
    after opsC V (main_v27 : DevRef τ sig) = rollsOf (V (main_v17 : DevRef τ sig)) := by
  after_results
  rfl
theorem opsC_arg0 (V : Valuation τ sig (Elt F)) :
    after opsC V (main_arg0 : DevRef τ sig) = V (main_arg0 : DevRef τ sig) := by
  after_results_simp
theorem opsC_arg1 (V : Valuation τ sig (Elt F)) :
    after opsC V (main_arg1 : DevRef τ sig) = V (main_arg1 : DevRef τ sig) := by
  after_results_simp
theorem opsC_arg2 (V : Valuation τ sig (Elt F)) :
    after opsC V (main_arg2 : DevRef τ sig) = V (main_arg2 : DevRef τ sig) := by
  after_results_simp
theorem opsC_arg3 (V : Valuation τ sig (Elt F)) :
    after opsC V (main_arg3 : DevRef τ sig) = V (main_arg3 : DevRef τ sig) := by
  after_results_simp
theorem opsC_arg4 (V : Valuation τ sig (Elt F)) :
    after opsC V (main_arg4 : DevRef τ sig) = V (main_arg4 : DevRef τ sig) := by
  after_results_simp
theorem opsC_arg5 (V : Valuation τ sig (Elt F)) :
    after opsC V (main_arg5 : DevRef τ sig) = V (main_arg5 : DevRef τ sig) := by
  after_results_simp
theorem opsC_arg6 (V : Valuation τ sig (Elt F)) :
    after opsC V (main_arg6 : DevRef τ sig) = V (main_arg6 : DevRef τ sig) := by
  after_results_simp

theorem opsD_v49 (V : Valuation τ sig (Elt F)) :
    after opsD V (main_v49 : DevRef τ sig)
      = resOf (V (main_v27 : DevRef τ sig)) (V (main_arg0 : DevRef τ sig)) (V (main_arg3 : DevRef τ sig))
          (V (main_arg4 : DevRef τ sig)) (V (main_arg5 : DevRef τ sig)) (V (main_arg6 : DevRef τ sig)) := by
  after_results_simp
  rfl
theorem opsD_arg0 (V : Valuation τ sig (Elt F)) :
    after opsD V (main_arg0 : DevRef τ sig) = V (main_arg0 : DevRef τ sig) := by
  after_results_simp
theorem opsD_arg1 (V : Valuation τ sig (Elt F)) :
    after opsD V (main_arg1 : DevRef τ sig) = V (main_arg1 : DevRef τ sig) := by
  after_results_simp
theorem opsD_arg2 (V : Valuation τ sig (Elt F)) :
    after opsD V (main_arg2 : DevRef τ sig) = V (main_arg2 : DevRef τ sig) := by
  after_results_simp
theorem opsD_arg3 (V : Valuation τ sig (Elt F)) :
    after opsD V (main_arg3 : DevRef τ sig) = V (main_arg3 : DevRef τ sig) := by
  after_results_simp
theorem opsD_arg4 (V : Valuation τ sig (Elt F)) :
    after opsD V (main_arg4 : DevRef τ sig) = V (main_arg4 : DevRef τ sig) := by
  after_results_simp
theorem opsD_arg5 (V : Valuation τ sig (Elt F)) :
    after opsD V (main_arg5 : DevRef τ sig) = V (main_arg5 : DevRef τ sig) := by
  after_results_simp
theorem opsD_arg6 (V : Valuation τ sig (Elt F)) :
    after opsD V (main_arg6 : DevRef τ sig) = V (main_arg6 : DevRef τ sig) := by
  after_results_simp

/-! ## The whole line -/

/-- The result buffer after all 88 operations: the four stretches' values composed. -/
theorem out_eq (V : Valuation τ sig (Elt F)) :
    after ops V (main_v49 : DevRef τ sig)
      = res (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [ops_split, after_append', after_append', after_append', opsD_v49, opsC_v27,
    opsC_arg0, opsC_arg3, opsC_arg4, opsC_arg5, opsC_arg6, opsB_v17,
    opsB_arg0, opsB_arg3, opsB_arg4, opsB_arg5, opsB_arg6, opsA_v3, opsA_v4,
    opsA_arg0, opsA_arg1, opsA_arg2, opsA_arg3, opsA_arg4, opsA_arg5, opsA_arg6]
  rfl

/-- No operation writes argument 0's buffer. -/
theorem arg0_eq (V : Valuation τ sig (Elt F)) :
    after ops V (main_arg0 : DevRef τ sig) = V (main_arg0 : DevRef τ sig) := by
  rw [ops_split, after_append', after_append', after_append', opsD_arg0, opsC_arg0, opsB_arg0, opsA_arg0]
/-- No operation writes argument 1's buffer. -/
theorem arg1_eq (V : Valuation τ sig (Elt F)) :
    after ops V (main_arg1 : DevRef τ sig) = V (main_arg1 : DevRef τ sig) := by
  rw [ops_split, after_append', after_append', after_append', opsD_arg1, opsC_arg1, opsB_arg1, opsA_arg1]
/-- No operation writes argument 2's buffer. -/
theorem arg2_eq (V : Valuation τ sig (Elt F)) :
    after ops V (main_arg2 : DevRef τ sig) = V (main_arg2 : DevRef τ sig) := by
  rw [ops_split, after_append', after_append', after_append', opsD_arg2, opsC_arg2, opsB_arg2, opsA_arg2]
/-- No operation writes argument 3's buffer. -/
theorem arg3_eq (V : Valuation τ sig (Elt F)) :
    after ops V (main_arg3 : DevRef τ sig) = V (main_arg3 : DevRef τ sig) := by
  rw [ops_split, after_append', after_append', after_append', opsD_arg3, opsC_arg3, opsB_arg3, opsA_arg3]
/-- No operation writes argument 4's buffer. -/
theorem arg4_eq (V : Valuation τ sig (Elt F)) :
    after ops V (main_arg4 : DevRef τ sig) = V (main_arg4 : DevRef τ sig) := by
  rw [ops_split, after_append', after_append', after_append', opsD_arg4, opsC_arg4, opsB_arg4, opsA_arg4]
/-- No operation writes argument 5's buffer. -/
theorem arg5_eq (V : Valuation τ sig (Elt F)) :
    after ops V (main_arg5 : DevRef τ sig) = V (main_arg5 : DevRef τ sig) := by
  rw [ops_split, after_append', after_append', after_append', opsD_arg5, opsC_arg5, opsB_arg5, opsA_arg5]
/-- No operation writes argument 6's buffer. -/
theorem arg6_eq (V : Valuation τ sig (Elt F)) :
    after ops V (main_arg6 : DevRef τ sig) = V (main_arg6 : DevRef τ sig) := by
  rw [ops_split, after_append', after_append', after_append', opsD_arg6, opsC_arg6, opsB_arg6, opsA_arg6]

set_option maxRecDepth 8192 in
set_option maxHeartbeats 1600000 in
/-- The program is that straight line: the called functions' definitions unfolded at their calls and the call
    records at their fields, sequencing re-associated. -/
theorem main_eq (c : Dev nD) : main (F := F) c = seq ops := by
  simp only [main, fn_var.body, fn_where.body, fn_roll_static.body, fn_roll_static_0.body, fn_roll_static_1.body,
    fn_roll_static_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., unary_bufs_sub .., nary_bufs_sub .., reshape_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub ..⟩

/-- On every device, for any float values, from any memory with zero counters: every weakly fair execution of the
    program terminates with the result buffer at `res` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v49) = res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v49).trans (out_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_seq scopedRefs_eq scopedSems_eq defs main (fun _ => ops) main_eq (fun _ => ops_sub) m ρ)

end Cert.ReferenceIdeal.Hand

end
-- ==== Proof.KI.HostPre.lean ====
/-
  What the last host lines before the region leave in five of the arrays the region's windows read.

  Each of the five is written by one line whose operand is an argument array: x with its first two axes flattened
  (row 4·b + k is (b, k): the flattening is row-major), the two weight matrices rounded to bf16 (which the ideal
  reading does not see), and the two biases as one-row matrices. No line writes an argument array, so the operand is
  the array as launched; the lines before the last stretch are never looked into.
-/
import proofs.«114533_j75574244540703_1_alg».proof.Proof.KI.Kit
import proofs.«114533_j75574244540703_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen Idealize.ShloMosaic Idealize.ShloMosaic.ValueIdx
open Idealize.ShloMosaic.TcCoe Idealize.ShloMosaic.Tactic Idealize.ShloMosaic.StableHlo

section Generic

variable {F : FTy → Type} [FloatOps F]
variable (m : (ℓ : Loc nD τ sig) → Buf (Elt F) ℓ)

/-- Core c's buffer contents before the last stretch of host lines. -/
def Pre (c : Dev nD) : Valuation τ sig (Elt F) :=
  StableHlo.after (List.flatten [hostOps0, hostOps0_1, hostOps0_2, hostOps0_3, hostOps0_4, hostOps0_5, hostOps0_6]) (fun b => m (c, b))

/-- The eight stretches are the first seven followed by the last. -/
theorem flatten_split :
    (List.flatten [hostOps0, hostOps0_1, hostOps0_2, hostOps0_3, hostOps0_4, hostOps0_5, hostOps0_6, hostOps0_7] : List (HloOp τ sig (Elt F)))
      = List.flatten [hostOps0, hostOps0_1, hostOps0_2, hostOps0_3, hostOps0_4, hostOps0_5, hostOps0_6] ++ hostOps0_7 := by
  simp only [List.flatten_cons, List.flatten_nil, List.append_nil, List.append_assoc]

/-- What the region finds is the last stretch run from what the first seven leave. -/
theorem V0_eq (c : Dev nD) : V0 m c = StableHlo.after hostOps0_7 (Pre m c) := by
  show StableHlo.after (List.flatten [hostOps0, hostOps0_1, hostOps0_2, hostOps0_3, hostOps0_4, hostOps0_5, hostOps0_6, hostOps0_7]) (fun b => m (c, b)) = _
  rw [flatten_split, StableHlo.after_append]
  rfl

/-- A buffer the last stretch does not write holds before it what the region finds in it. -/
theorem Pre_of_keeps (c : Dev nD) (r : Ref sig .tc)
    (h : ∀ op ∈ (hostOps0_7 : List (HloOp τ sig (Elt F))), Proc.devRef .tc r ∉ op.writes) :
    Pre m c (Proc.devRef .tc r) = V m c r := by
  show _ = V0 m c (Proc.devRef .tc r)
  rw [V0_eq, StableHlo.after_of_forall_not_mem _ _ h]

/-- The last stretch writes no part of argument 0. -/
theorem last_keeps_arg0 : ∀ op ∈ (hostOps0_7 : List (HloOp τ sig (Elt F))), Proc.devRef .tc main_arg0 ∉ op.writes :=
  List.forall_iff_forall_mem.mp (by
    simp only [hostOps0_7, List.Forall, StableHlo.unary_writes, StableHlo.reshape_writes, StableHlo.nary_writes, Finset.mem_singleton]
    repeat' apply And.intro
    all_goals exact StableHlo.devRef_ne_of_ne (by decide))

/-- The last stretch writes no part of argument 3. -/
theorem last_keeps_arg3 : ∀ op ∈ (hostOps0_7 : List (HloOp τ sig (Elt F))), Proc.devRef .tc main_arg3 ∉ op.writes :=
  List.forall_iff_forall_mem.mp (by
    simp only [hostOps0_7, List.Forall, StableHlo.unary_writes, StableHlo.reshape_writes, StableHlo.nary_writes, Finset.mem_singleton]
    repeat' apply And.intro
    all_goals exact StableHlo.devRef_ne_of_ne (by decide))

/-- The last stretch writes no part of argument 4. -/
theorem last_keeps_arg4 : ∀ op ∈ (hostOps0_7 : List (HloOp τ sig (Elt F))), Proc.devRef .tc main_arg4 ∉ op.writes :=
  List.forall_iff_forall_mem.mp (by
    simp only [hostOps0_7, List.Forall, StableHlo.unary_writes, StableHlo.reshape_writes, StableHlo.nary_writes, Finset.mem_singleton]
    repeat' apply And.intro
    all_goals exact StableHlo.devRef_ne_of_ne (by decide))

/-- The last stretch writes no part of argument 5. -/
theorem last_keeps_arg5 : ∀ op ∈ (hostOps0_7 : List (HloOp τ sig (Elt F))), Proc.devRef .tc main_arg5 ∉ op.writes :=
  List.forall_iff_forall_mem.mp (by
    simp only [hostOps0_7, List.Forall, StableHlo.unary_writes, StableHlo.reshape_writes, StableHlo.nary_writes, Finset.mem_singleton]
    repeat' apply And.intro
    all_goals exact StableHlo.devRef_ne_of_ne (by decide))

/-- The last stretch writes no part of argument 6. -/
theorem last_keeps_arg6 : ∀ op ∈ (hostOps0_7 : List (HloOp τ sig (Elt F))), Proc.devRef .tc main_arg6 ∉ op.writes :=
  List.forall_iff_forall_mem.mp (by
    simp only [hostOps0_7, List.Forall, StableHlo.unary_writes, StableHlo.reshape_writes, StableHlo.nary_writes, Finset.mem_singleton]
    repeat' apply And.intro
    all_goals exact StableHlo.devRef_ne_of_ne (by decide))

end Generic

section AtIdeal

variable (m : (ℓ : Loc nD τ sig) → Buf (Elt Ideal) ℓ)

/-- The residual's array: x with its first two axes flattened, row 4·b + k being (b, k). -/
theorem V_v30_apply (c : Dev nD) (b : Fin 8192) (k : Fin 4) (w : Fin 1024) :
    (V (F := Ideal) m c main_v30 : S32768x1024.Idx → EReal) (ix2 (Cert.Spec.rowIx b k) w)
      = (m ((c : Thread nD τ).loc main_arg0) : S8192x4x1024.Idx → EReal) (ix3 b k w) := by
  have e : (StableHlo.after hostOps0_7 (Pre m c) (Proc.devRef .tc main_v30) : S32768x1024.Idx → EReal)
      = shapeCast S32768x1024 (Pre m c (Proc.devRef .tc main_arg0) : S8192x4x1024.Idx → EReal) shapeCasts_S8192x4x1024_S32768x1024 := by
    dsimp only [hostOps0_7]; after_results; rfl
  show (V0 m c (Proc.devRef .tc main_v30) : S32768x1024.Idx → EReal) (ix2 (Cert.Spec.rowIx b k) w) = _
  rw [V0_eq, e, Pre_of_keeps m c main_arg0 last_keeps_arg0, V_main_arg0]
  -- both indices sit at position (4·b + k)·1024 + w of the row-major order
  refine shapeCast_apply _ _ (ix2 (Cert.Spec.rowIx b k) w) (ix3 b k w) ?_
  rw [Shape.rowMajor_val_three, Shape.rowMajor_val_two]
  show (b.val * 4 + k.val) * 1024 + w.val = (4 * b.val + k.val) * 1024 + w.val
  omega

/-- The first weight matrix, rounded to bf16: unchanged on the extended reals. -/
theorem V_v31_apply (c : Dev nD) (f n : Fin 4096) :
    (V (F := Ideal) m c main_v31 : S4096x4096.Idx → EReal) (ix2 f n)
      = (m ((c : Thread nD τ).loc main_arg3) : S4096x4096.Idx → EReal) (ix2 f n) := by
  have e : (StableHlo.after hostOps0_7 (Pre m c) (Proc.devRef .tc main_v31) : S4096x4096.Idx → EReal)
      = (truncf .bf16 (Pre m c (Proc.devRef .tc main_arg3) : FVec Ideal S4096x4096 .f32) bitsLt_bf16_f32 : FVec Ideal S4096x4096 .bf16) := by
    dsimp only [hostOps0_7]; after_results
  show (V0 m c (Proc.devRef .tc main_v31) : S4096x4096.Idx → EReal) (ix2 f n) = _
  rw [V0_eq, e, truncf_apply, Pre_of_keeps m c main_arg3 last_keeps_arg3, V_main_arg3]

/-- The second weight matrix, rounded to bf16: unchanged on the extended reals. -/
theorem V_v32_apply (c : Dev nD) (n : Fin 4096) (w : Fin 1024) :
    (V (F := Ideal) m c main_v32 : S4096x1024.Idx → EReal) (ix2 n w)
      = (m ((c : Thread nD τ).loc main_arg5) : S4096x1024.Idx → EReal) (ix2 n w) := by
  have e : (StableHlo.after hostOps0_7 (Pre m c) (Proc.devRef .tc main_v32) : S4096x1024.Idx → EReal)
      = (truncf .bf16 (Pre m c (Proc.devRef .tc main_arg5) : FVec Ideal S4096x1024 .f32) bitsLt_bf16_f32 : FVec Ideal S4096x1024 .bf16) := by
    dsimp only [hostOps0_7]; after_results
  show (V0 m c (Proc.devRef .tc main_v32) : S4096x1024.Idx → EReal) (ix2 n w) = _
  rw [V0_eq, e, truncf_apply, Pre_of_keeps m c main_arg5 last_keeps_arg5, V_main_arg5]

/-- The first bias as a one-row matrix. -/
theorem V_v33_apply (c : Dev nD) (n : Fin 4096) :
    (V (F := Ideal) m c main_v33 : S1x4096.Idx → EReal) (ix2 (0 : Fin 1) n)
      = (m ((c : Thread nD τ).loc main_arg4) : S4096.Idx → EReal) (ix1 n) := by
  have e : (StableHlo.after hostOps0_7 (Pre m c) (Proc.devRef .tc main_v33) : S1x4096.Idx → EReal)
      = shapeCast S1x4096 (Pre m c (Proc.devRef .tc main_arg4) : S4096.Idx → EReal) shapeCasts_S4096_S1x4096 := by
    dsimp only [hostOps0_7]; after_results; rfl
  show (V0 m c (Proc.devRef .tc main_v33) : S1x4096.Idx → EReal) (ix2 (0 : Fin 1) n) = _
  rw [V0_eq, e, Pre_of_keeps m c main_arg4 last_keeps_arg4, V_main_arg4]
  -- both indices sit at position n of the row-major order
  refine shapeCast_apply _ _ (ix2 (0 : Fin 1) n) (ix1 n) ?_
  rw [Shape.rowMajor_val_one, Shape.rowMajor_val_two]
  show n.val = 0 * 4096 + n.val
  omega

/-- The second bias as a one-row matrix. -/
theorem V_v34_apply (c : Dev nD) (w : Fin 1024) :
    (V (F := Ideal) m c main_v34 : S1x1024.Idx → EReal) (ix2 (0 : Fin 1) w)
      = (m ((c : Thread nD τ).loc main_arg6) : S1024.Idx → EReal) (ix1 w) := by
  have e : (StableHlo.after hostOps0_7 (Pre m c) (Proc.devRef .tc main_v34) : S1x1024.Idx → EReal)
      = shapeCast S1x1024 (Pre m c (Proc.devRef .tc main_arg6) : S1024.Idx → EReal) shapeCasts_S1024_S1x1024 := by
    dsimp only [hostOps0_7]; after_results; rfl
  show (V0 m c (Proc.devRef .tc main_v34) : S1x1024.Idx → EReal) (ix2 (0 : Fin 1) w) = _
  rw [V0_eq, e, Pre_of_keeps m c main_arg6 last_keeps_arg6, V_main_arg6]
  -- both indices sit at position w of the row-major order
  refine shapeCast_apply _ _ (ix2 (0 : Fin 1) w) (ix1 w) ?_
  rw [Shape.rowMajor_val_one, Shape.rowMajor_val_two]
  show w.val = 0 * 1024 + w.val
  omega

end AtIdeal

end Cert.KernelIdeal.Hand

end
-- ==== Proof.KI.HostRolls.lean ====
/-
  The host lines before the kernel's one launch, read as terms of the argument arrays.

  They are the reference's own first 62 operations — the mean and the variance of x over its last axis, the
  normalisation y = (x − μ)·rsqrt(v + ε)·s + o, the four cyclic shifts of y along its middle axis stacked and merged
  into R[b, k, 1024·j + w] = y[b, (j + k) mod 4, w] — followed by the row-major flattening of R's two leading axes
  (row 4·b + k) and the narrowing to the kernel's operand format, which is the identity on extended reals.
-/
import proofs.«114533_j75574244540703_1_alg».proof.Proof.KI.Kit
import proofs.«114533_j75574244540703_1_alg».proof.Proof.Spec
import Idealize.ShloMosaic.Lib.StableHlo.Run
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo

variable {F : FTy → Type} [FloatOps F]

/-! ## The values the operations compute, as terms of the argument arrays -/

/-- The mean over the last axis, that axis kept at length one: the sum along it divided by its length 1024. -/
def rowMean (x : FVec F S8192x4x1024 .f32) : FVec F S8192x4x1 .f32 :=
  Host.divf
    (broadcastInDim S8192x4x1 ![0, 1] bcast_S8192x4_S8192x4x1_0_1
      (Host.reduceAdd x (constant S_ .f32 0x00000000#32) reducesTo_S8192x4x1024_S8192x4_d2 h_S_))
    (broadcastInDim S8192x4x1 ![] bcast_S_S8192x4x1 (constant S_ .f32 0x44800000#32))

/-- The variance's divisor as the program forms it: the length 1024 less the correction 0 converted to a float. -/
def varDen : FVec F S_ .f32 :=
  subf (constant S_ .f32 0x44800000#32) (sitofp .f32 (constantI S_ 32 0#32))

/-- The variance over the last axis, that axis kept at length one: the sum of the squared deviations from the
    mean divided by the divisor where the divisor is positive, the NaN word elsewhere. -/
def rowVar (x : FVec F S8192x4x1024 .f32) : FVec F S8192x4x1 .f32 :=
  select (broadcastInDim S8192x4x1 ![] bcast_S_S8192x4x1 (cmpf .ogt (varDen (F := F)) (constant S_ .f32 0x00000000#32)))
    (Host.divf
      (broadcastInDim S8192x4x1 ![0, 1] bcast_S8192x4_S8192x4x1_0_1
        (Host.reduceAdd
          (mulf (subf x (broadcastInDim S8192x4x1024 ![0, 1, 2] bcast_S8192x4x1_S8192x4x1024_0_1_2 (rowMean x)))
            (subf x (broadcastInDim S8192x4x1024 ![0, 1, 2] bcast_S8192x4x1_S8192x4x1024_0_1_2 (rowMean x))))
          (constant S_ .f32 0x00000000#32) reducesTo_S8192x4x1024_S8192x4_d2 h_S_))
      (broadcastInDim S8192x4x1 ![] bcast_S_S8192x4x1 (varDen (F := F))))
    (broadcastInDim S8192x4x1 ![] bcast_S_S8192x4x1 (id (constant S_ .f32 0x7FC00000#32)))

/-- The normalisation from a given mean and variance: (x − μ) · rsqrt(v + ε) · s + o, the per-row and per-column
    factors broadcast to the array's shape. -/
def lnOf (μ v : FVec F S8192x4x1 .f32) (x : FVec F S8192x4x1024 .f32) (s o : FVec F S1024 .f32) : FVec F S8192x4x1024 .f32 :=
  addf
    (mulf
      (mulf (subf x (broadcastInDim S8192x4x1024 ![0, 1, 2] bcast_S8192x4x1_S8192x4x1024_0_1_2 μ))
        (broadcastInDim S8192x4x1024 ![0, 1, 2] bcast_S8192x4x1_S8192x4x1024_0_1_2
          (Host.rsqrt (addf v (broadcastInDim S8192x4x1 ![] bcast_S_S8192x4x1 (constant S_ .f32 0x3727C5AC#32))))))
      (broadcastInDim S8192x4x1024 ![0, 1, 2] bcast_S1x1x1024_S8192x4x1024_0_1_2 (broadcastInDim S1x1x1024 ![2] bcast_S1024_S1x1x1024_2 s)))
    (broadcastInDim S8192x4x1024 ![0, 1, 2] bcast_S1x1x1024_S8192x4x1024_0_1_2 (broadcastInDim S1x1x1024 ![2] bcast_S1024_S1x1x1024_2 o))

/-- LayerNorm of x over its last axis with scale s and offset o. -/
def ln (x : FVec F S8192x4x1024 .f32) (s o : FVec F S1024 .f32) : FVec F S8192x4x1024 .f32 :=
  lnOf (rowMean x) (rowVar x) x s o

/-- The four cyclic shifts of y along its middle axis (by 0, 1, 2, 3: rows k … 3 followed by rows 0 … k−1), each
    given a unit axis, stacked along that axis and the last two axes merged: entry (b, k, 1024·j + w) is
    y (b, (j + k) mod 4, w). -/
def rollsOf (y : FVec F S8192x4x1024 .f32) : FVec F S8192x4x4096 .f32 :=
  shapeCast S8192x4x4096
    (concatenate S8192x4x4x1024 1
      [⟨S8192x1x4x1024, broadcastInDim S8192x1x4x1024 ![0, 2, 3] bcast_S8192x4x1024_S8192x1x4x1024_0_2_3
          (concatenate S8192x4x1024 1
            [⟨S8192x4x1024, extractStridedSlice S8192x4x1024 ![0, 0, 0] y slices_S8192x4x1024_S8192x4x1024_0_0_0⟩,
             ⟨S8192x0x1024, extractStridedSlice S8192x0x1024 ![0, 0, 0] y slices_S8192x4x1024_S8192x0x1024_0_0_0⟩]
            concatenates_S8192x4x1024_S8192x0x1024_S8192x4x1024_d1)⟩,
       ⟨S8192x1x4x1024, broadcastInDim S8192x1x4x1024 ![0, 2, 3] bcast_S8192x4x1024_S8192x1x4x1024_0_2_3
          (concatenate S8192x4x1024 1
            [⟨S8192x3x1024, extractStridedSlice S8192x3x1024 ![0, 1, 0] y slices_S8192x4x1024_S8192x3x1024_0_1_0⟩,
             ⟨S8192x1x1024, extractStridedSlice S8192x1x1024 ![0, 0, 0] y slices_S8192x4x1024_S8192x1x1024_0_0_0⟩]
            concatenates_S8192x3x1024_S8192x1x1024_S8192x4x1024_d1)⟩,
       ⟨S8192x1x4x1024, broadcastInDim S8192x1x4x1024 ![0, 2, 3] bcast_S8192x4x1024_S8192x1x4x1024_0_2_3
          (concatenate S8192x4x1024 1
            [⟨S8192x2x1024, extractStridedSlice S8192x2x1024 ![0, 2, 0] y slices_S8192x4x1024_S8192x2x1024_0_2_0⟩,
             ⟨S8192x2x1024, extractStridedSlice S8192x2x1024 ![0, 0, 0] y slices_S8192x4x1024_S8192x2x1024_0_0_0⟩]
            concatenates_S8192x2x1024_S8192x2x1024_S8192x4x1024_d1)⟩,
       ⟨S8192x1x4x1024, broadcastInDim S8192x1x4x1024 ![0, 2, 3] bcast_S8192x4x1024_S8192x1x4x1024_0_2_3
          (concatenate S8192x4x1024 1
            [⟨S8192x1x1024, extractStridedSlice S8192x1x1024 ![0, 3, 0] y slices_S8192x4x1024_S8192x1x1024_0_3_0⟩,
             ⟨S8192x3x1024, extractStridedSlice S8192x3x1024 ![0, 0, 0] y slices_S8192x4x1024_S8192x3x1024_0_0_0⟩]
            concatenates_S8192x1x1024_S8192x3x1024_S8192x4x1024_d1)⟩]
      concatenates_S8192x1x4x1024_S8192x1x4x1024_S8192x1x4x1024_S8192x1x4x1024_S8192x4x4x1024_d1)
    shapeCasts_S8192x4x4x1024_S8192x4x4096

/-- The first 62 operations' result: the stacked shifts of the normalised input. -/
def rolls (x : FVec F S8192x4x1024 .f32) (s o : FVec F S1024 .f32) : FVec F S8192x4x4096 .f32 :=
  rollsOf (ln x s o)

/-- The stacked array with its two leading axes flattened into rows, in the kernel's operand format. -/
def flatRolls (R : FVec F S8192x4x4096 .f32) : FVec F S32768x4096 .bf16 :=
  truncf .bf16 (shapeCast S32768x4096 R shapeCasts_S8192x4x4096_S32768x4096) bitsLt_bf16_f32

/-! ## What each stretch of host lines leaves in the buffers read after it -/

/-- The fold over two stretches is the fold over the second from the fold over the first. -/
theorem after_app : ∀ (l₁ l₂ : List (HloOp τ sig (Elt F))) (W : Valuation τ sig (Elt F)),
    after (l₁ ++ l₂) W = after l₂ (after l₁ W)
  | [], _, _ => rfl
  | op :: l₁, l₂, W => by rw [List.cons_append, after_cons, after_cons, after_app l₁ l₂]

theorem hostA_v3 (W : Valuation τ sig (Elt F)) :
    after hostOps0_1 (after hostOps0 W) (main_v3 : DevRef τ sig) = rowMean (W (main_arg0 : DevRef τ sig)) := by
  after_results_simp
  rfl
theorem hostA_v4 (W : Valuation τ sig (Elt F)) :
    after hostOps0_1 (after hostOps0 W) (main_v4 : DevRef τ sig) = rowVar (W (main_arg0 : DevRef τ sig)) := by
  after_results_simp
  rfl
theorem hostA_arg0 (W : Valuation τ sig (Elt F)) :
    after hostOps0_1 (after hostOps0 W) (main_arg0 : DevRef τ sig) = W (main_arg0 : DevRef τ sig) := by
  after_results_simp
theorem hostA_arg1 (W : Valuation τ sig (Elt F)) :
    after hostOps0_1 (after hostOps0 W) (main_arg1 : DevRef τ sig) = W (main_arg1 : DevRef τ sig) := by
  after_results_simp
theorem hostA_arg2 (W : Valuation τ sig (Elt F)) :
    after hostOps0_1 (after hostOps0 W) (main_arg2 : DevRef τ sig) = W (main_arg2 : DevRef τ sig) := by
  after_results_simp

theorem hostB_v17 (W : Valuation τ sig (Elt F)) :
    after hostOps0_2 W (main_v17 : DevRef τ sig)
      = lnOf (W (main_v3 : DevRef τ sig)) (W (main_v4 : DevRef τ sig)) (W (main_arg0 : DevRef τ sig)) (W (main_arg1 : DevRef τ sig)) (W (main_arg2 : DevRef τ sig)) := by
  after_results_simp
  rfl

theorem hostC_v27 (W : Valuation τ sig (Elt F)) :
    after hostOps0_7 (after hostOps0_6 (after hostOps0_5 (after hostOps0_4 (after hostOps0_3 W)))) (main_v27 : DevRef τ sig) = rollsOf (W (main_v17 : DevRef τ sig)) := by
  after_results
  rfl

theorem hostC_v29 (W : Valuation τ sig (Elt F)) :
    after hostOps0_7 (after hostOps0_6 (after hostOps0_5 (after hostOps0_4 (after hostOps0_3 W)))) (main_v29 : DevRef τ sig) = flatRolls (rollsOf (W (main_v17 : DevRef τ sig))) := by
  after_results
  rfl

/-! ## The region's first operand -/

theorem V0_split (m : (ℓ : Loc nD τ sig) → Buf (Elt F) ℓ) (c : Dev nD) :
    V0 m c = after hostOps0_7 (after hostOps0_6 (after hostOps0_5 (after hostOps0_4 (after hostOps0_3 (after hostOps0_2 (after hostOps0_1 (after hostOps0 (fun b => m (c, b))))))))) := by
  unfold V0
  rw [List.flatten_cons, List.flatten_cons, List.flatten_cons, List.flatten_cons, List.flatten_cons, List.flatten_cons,
    List.flatten_cons, List.flatten_cons, List.flatten_nil, List.append_nil, after_app, after_app, after_app, after_app,
    after_app, after_app, after_app]

/-- When the region is entered, the buffer of the stacked shifts holds `rolls` of the arguments as launched. -/
theorem V_v27 (m : (ℓ : Loc nD τ sig) → Buf (Elt F) ℓ) (c : Dev nD) :
    (V (F := F) m c main_v27 : FVec F S8192x4x4096 .f32)
      = rolls (m ((c : Thread nD τ).loc main_arg0)) (m ((c : Thread nD τ).loc main_arg1)) (m ((c : Thread nD τ).loc main_arg2)) := by
  show V0 m c (main_v27 : DevRef τ sig) = _
  rw [V0_split, hostC_v27, hostB_v17, hostA_v3, hostA_v4, hostA_arg0, hostA_arg1, hostA_arg2]
  rfl

/-- And the region's first operand holds it flattened to rows and narrowed. -/
theorem V_v29 (m : (ℓ : Loc nD τ sig) → Buf (Elt F) ℓ) (c : Dev nD) :
    (V (F := F) m c main_v29 : FVec F S32768x4096 .bf16)
      = flatRolls (rolls (m ((c : Thread nD τ).loc main_arg0)) (m ((c : Thread nD τ).loc main_arg1)) (m ((c : Thread nD τ).loc main_arg2))) := by
  show V0 m c (main_v29 : DevRef τ sig) = _
  rw [V0_split, hostC_v29, hostB_v17, hostA_v3, hostA_v4, hostA_arg0, hostA_arg1, hostA_arg2]
  rfl

/-- On extended reals the narrowing is the identity and the flattening is row-major: row 4·b + k, column f of the
    region's first operand is entry (b, k, f) of the stacked shifts. -/
theorem V_v29_apply (m : (ℓ : Loc nD τ sig) → Buf (Elt Ideal) ℓ) (c : Dev nD) (b : Fin 8192) (k : Fin 4) (f : Fin 4096) :
    (V (F := Ideal) m c main_v29 : S32768x4096.Idx → EReal) (ix2 (Cert.Spec.rowIx b k) f)
      = rolls (F := Ideal) (m ((c : Thread nD τ).loc main_arg0)) (m ((c : Thread nD τ).loc main_arg1))
          (m ((c : Thread nD τ).loc main_arg2)) (ix3 b k f) := by
  rw [V_v29]
  unfold flatRolls
  rw [truncf_apply]
  exact shapeCast_apply _ _ _ _ (by
    rw [Shape.rowMajor_val_three, Shape.rowMajor_val_two]
    show (b.val * 4 + k.val) * 4096 + f.val = (4 * b.val + k.val) * 4096 + f.val
    omega)

end Cert.KernelIdeal.Hand

end
-- ==== Proof.RI.Value.lean ====
/-
  The reference program's result, read index by index, is the specification's 3-D form.

  Past the stacked array R the program is two contractions over a 4096-long axis with GELU between them:
      hid[b,k,n] = Σ_f R[b,k,f]·W1[f,n] + b1[n],      res[b,k,w] = x[b,k,w] + (Σ_n gelu(hid[b,k,n])·W2[n,w] + b2[w]).
  A contraction read at an output index is the sum over its one contracted axis of the operands' products, the
  operands read at the output's free coordinates and the summation index; a bias broadcast along the leading axes
  reads its last coordinate; the pointwise operations and the literals read through. R itself is left as it is.
-/
import proofs.«114533_j75574244540703_1_alg».proof.Proof.RI.Run
import proofs.«114533_j75574244540703_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-! ## The contractions' operand indices, axis by axis -/

/-- First contraction, left operand R[b,k,·]: the two free axes read the output's first two coordinates … -/
theorem lhs1_0 (j : S8192x4x4096.Idx) (q : dot_S8192x4x4096_S4096x4096_S8192x4x4096_2_0_01_1_n_n.contr.Idx) :
    (dot_S8192x4x4096_S4096x4096_S8192x4x4096_2_0_01_1_n_n.lhsIdx j q 0).val = (j 0).val := rfl
theorem lhs1_1 (j : S8192x4x4096.Idx) (q : dot_S8192x4x4096_S4096x4096_S8192x4x4096_2_0_01_1_n_n.contr.Idx) :
    (dot_S8192x4x4096_S4096x4096_S8192x4x4096_2_0_01_1_n_n.lhsIdx j q 1).val = (j 1).val := rfl
/-- … and the contracted axis reads the summation index. -/
theorem lhs1_2 (j : S8192x4x4096.Idx) (q : dot_S8192x4x4096_S4096x4096_S8192x4x4096_2_0_01_1_n_n.contr.Idx) :
    (dot_S8192x4x4096_S4096x4096_S8192x4x4096_2_0_01_1_n_n.lhsIdx j q 2).val = (q ⟨0, by decide⟩).val :=
  dot_S8192x4x4096_S4096x4096_S8192x4x4096_2_0_01_1_n_n.lhsIdx_val_of_single rfl j q
/-- First contraction, right operand W1[·,n]: the contracted axis reads the summation index, the free axis the
    output's last coordinate. -/
theorem rhs1_0 (j : S8192x4x4096.Idx) (q : dot_S8192x4x4096_S4096x4096_S8192x4x4096_2_0_01_1_n_n.contr.Idx) :
    (dot_S8192x4x4096_S4096x4096_S8192x4x4096_2_0_01_1_n_n.rhsIdx j q 0).val = (q ⟨0, by decide⟩).val :=
  dot_S8192x4x4096_S4096x4096_S8192x4x4096_2_0_01_1_n_n.rhsIdx_val_of_single rfl j q
theorem rhs1_1 (j : S8192x4x4096.Idx) (q : dot_S8192x4x4096_S4096x4096_S8192x4x4096_2_0_01_1_n_n.contr.Idx) :
    (dot_S8192x4x4096_S4096x4096_S8192x4x4096_2_0_01_1_n_n.rhsIdx j q 1).val = (j 2).val := rfl

/-- The contraction's one summation axis, as a number below 4096. -/
abbrev e1 := contrEquiv1 dot_S8192x4x4096_S4096x4096_S8192x4x4096_2_0_01_1_n_n 4096 rfl rfl

/-- The hidden pre-activation at (b, k, n): Σ_f R[b,k,f]·W1[f,n] + b1[n]. -/
theorem hidden_apply (R : FVec Ideal S8192x4x4096 .f32) (W1 : FVec Ideal S4096x4096 .f32) (b1 : FVec Ideal S4096 .f32)
    (b : Fin 8192) (k : Fin 4) (n : Fin 4096) :
    hidden (F := Ideal) R W1 b1 (ix3 b k n) = Cert.Spec.hid3 R W1 b1 b k n := by
  unfold hidden Cert.Spec.hid3
  rw [addf_apply]
  congr 1
  · simp only [Host.dotGeneral]
    rw [Ideal.dotGeneral_apply, ← Equiv.sum_comp e1.symm]
    refine Finset.sum_congr rfl fun f _ => ?_
    congr 1
    · refine congrArg R (funext fun a => Fin.ext ?_)
      match a with
      | ⟨0, _⟩ => exact lhs1_0 _ _
      | ⟨1, _⟩ => exact lhs1_1 _ _
      | ⟨2, _⟩ => exact (lhs1_2 _ _).trans (contrEquiv1_symm_val _ 4096 rfl rfl f)
    · refine congrArg W1 (funext fun a => Fin.ext ?_)
      match a with
      | ⟨0, _⟩ => exact (rhs1_0 _ _).trans (contrEquiv1_symm_val _ 4096 rfl rfl f)
      | ⟨1, _⟩ => exact rhs1_1 _ _
  · rw [broadcastInDim_apply _ _ _ _ (ix3 (0 : Fin 1) (0 : Fin 1) n) (fun a => by match a with | ⟨0, _⟩ => rfl | ⟨1, _⟩ => rfl | ⟨2, _⟩ => rfl),
      broadcastInDim_apply _ _ _ _ (ix1 n) (fun a => by match a with | ⟨0, _⟩ => rfl)]

/-- The activation at an index is GELU of the element there (the cube as (h·h)·h). -/
theorem act_apply (h : FVec Ideal S8192x4x4096 .f32) (i : S8192x4x4096.Idx) :
    act (F := Ideal) h i = Cert.Spec.geluR (h i) := rfl

/-- Second contraction, left operand act[b,k,·] … -/
theorem lhs2_0 (j : S8192x4x1024.Idx) (q : dot_S8192x4x4096_S4096x1024_S8192x4x1024_2_0_01_1_n_n.contr.Idx) :
    (dot_S8192x4x4096_S4096x1024_S8192x4x1024_2_0_01_1_n_n.lhsIdx j q 0).val = (j 0).val := rfl
theorem lhs2_1 (j : S8192x4x1024.Idx) (q : dot_S8192x4x4096_S4096x1024_S8192x4x1024_2_0_01_1_n_n.contr.Idx) :
    (dot_S8192x4x4096_S4096x1024_S8192x4x1024_2_0_01_1_n_n.lhsIdx j q 1).val = (j 1).val := rfl
theorem lhs2_2 (j : S8192x4x1024.Idx) (q : dot_S8192x4x4096_S4096x1024_S8192x4x1024_2_0_01_1_n_n.contr.Idx) :
    (dot_S8192x4x4096_S4096x1024_S8192x4x1024_2_0_01_1_n_n.lhsIdx j q 2).val = (q ⟨0, by decide⟩).val :=
  dot_S8192x4x4096_S4096x1024_S8192x4x1024_2_0_01_1_n_n.lhsIdx_val_of_single rfl j q
/-- … and right operand W2[·,w]. -/
theorem rhs2_0 (j : S8192x4x1024.Idx) (q : dot_S8192x4x4096_S4096x1024_S8192x4x1024_2_0_01_1_n_n.contr.Idx) :
    (dot_S8192x4x4096_S4096x1024_S8192x4x1024_2_0_01_1_n_n.rhsIdx j q 0).val = (q ⟨0, by decide⟩).val :=
  dot_S8192x4x4096_S4096x1024_S8192x4x1024_2_0_01_1_n_n.rhsIdx_val_of_single rfl j q
theorem rhs2_1 (j : S8192x4x1024.Idx) (q : dot_S8192x4x4096_S4096x1024_S8192x4x1024_2_0_01_1_n_n.contr.Idx) :
    (dot_S8192x4x4096_S4096x1024_S8192x4x1024_2_0_01_1_n_n.rhsIdx j q 1).val = (j 2).val := rfl

/-- The second contraction's one summation axis, as a number below 4096. -/
abbrev e2 := contrEquiv1 dot_S8192x4x4096_S4096x1024_S8192x4x1024_2_0_01_1_n_n 4096 rfl rfl

/-- From any stacked array R the last stretch computes, index by index,
    x[b,k,w] + (Σ_n gelu(hid[b,k,n])·W2[n,w] + b2[w]). -/
theorem resOf_eq (R : FVec Ideal S8192x4x4096 .f32) (x : FVec Ideal S8192x4x1024 .f32) (W1 : FVec Ideal S4096x4096 .f32)
    (b1 : FVec Ideal S4096 .f32) (W2 : FVec Ideal S4096x1024 .f32) (b2 : FVec Ideal S1024 .f32) :
    resOf (F := Ideal) R x W1 b1 W2 b2 = Cert.Spec.G3 R x W1 b1 W2 b2 := by
  funext i
  obtain ⟨b, k, w, rfl⟩ : ∃ (b : Fin 8192) (k : Fin 4) (w : Fin 1024), i = ix3 b k w := ⟨i 0, i 1, i 2, eq_ix3 i⟩
  unfold resOf Cert.Spec.G3
  show _ = x (ix3 b k w) + ((∑ n : Fin 4096, Cert.Spec.geluR (Cert.Spec.hid3 R W1 b1 b k n) * W2 (ix2 n w)) + b2 (ix1 w))
  rw [addf_apply, addf_apply]
  congr 2
  · simp only [Host.dotGeneral]
    rw [Ideal.dotGeneral_apply, ← Equiv.sum_comp e2.symm]
    refine Finset.sum_congr rfl fun n _ => ?_
    have hl : dot_S8192x4x4096_S4096x1024_S8192x4x1024_2_0_01_1_n_n.lhsIdx (ix3 b k w) (e2.symm n) = ix3 b k n :=
      funext fun a => Fin.ext (by
        match a with
        | ⟨0, _⟩ => exact lhs2_0 _ _
        | ⟨1, _⟩ => exact lhs2_1 _ _
        | ⟨2, _⟩ => exact (lhs2_2 _ _).trans (contrEquiv1_symm_val _ 4096 rfl rfl n))
    have hr : dot_S8192x4x4096_S4096x1024_S8192x4x1024_2_0_01_1_n_n.rhsIdx (ix3 b k w) (e2.symm n) = ix2 n w :=
      funext fun a => Fin.ext (by
        match a with
        | ⟨0, _⟩ => exact (rhs2_0 _ _).trans (contrEquiv1_symm_val _ 4096 rfl rfl n)
        | ⟨1, _⟩ => exact rhs2_1 _ _)
    rw [hl, hr, act_apply, hidden_apply]
  · rw [broadcastInDim_apply _ _ _ _ (ix3 (0 : Fin 1) (0 : Fin 1) w) (fun a => by match a with | ⟨0, _⟩ => rfl | ⟨1, _⟩ => rfl | ⟨2, _⟩ => rfl),
      broadcastInDim_apply _ _ _ _ (ix1 w) (fun a => by match a with | ⟨0, _⟩ => rfl)]

/-- The program's result is the specification's 3-D form over the stacked shifts of the normalised input. -/
theorem res_eq (x : FVec Ideal S8192x4x1024 .f32) (s o : FVec Ideal S1024 .f32) (W1 : FVec Ideal S4096x4096 .f32)
    (b1 : FVec Ideal S4096 .f32) (W2 : FVec Ideal S4096x1024 .f32) (b2 : FVec Ideal S1024 .f32) :
    res (F := Ideal) x s o W1 b1 W2 b2 = Cert.Spec.G3 (rolls (F := Ideal) x s o) x W1 b1 W2 b2 :=
  resOf_eq _ _ _ _ _ _

end Cert.ReferenceIdeal.Hand

end
-- ==== Proof.Bridge.lean ====
/-
  The two idealized programs compute one function. Both apply the same host lines (LayerNorm, the four rolls, their
  concatenation) to the same arguments, so their rolled arrays are one term R. The reference's result at (b, k, w) is the
  3-D form over R; the kernel's is the flat form at row 4·b + k over the staged arrays, which are R, x, b1, b2 re-indexed
  by the reshapes and W1, W2 unchanged (a change of float format is the identity on extended reals); the two forms agree
  by commutativity and associativity of + and · alone.
-/
import proofs.«114533_j75574244540703_1_alg».proof.Proof.KI.Final
import proofs.«114533_j75574244540703_1_alg».proof.Proof.KI.HostPre
import proofs.«114533_j75574244540703_1_alg».proof.Proof.KI.HostRolls
import proofs.«114533_j75574244540703_1_alg».proof.Proof.RI.Value
import proofs.«114533_j75574244540703_1_alg».proof.Proof.Spec

set_option maxRecDepth 16384

noncomputable section

namespace Cert.Bridge

open Idealize.ShloMosaic Idealize.ShloMosaic.TcCoe Idealize.ShloMosaic.ValueIdx Idealize.SL.Sem

/-! ## The host lines, level by level, for any float family

Each level of the two programs' host prefix is the same operation applied to the same operands; the levels below it
are joined first, so that each step compares one operation only. -/

section Levels

variable {F : FTy → Type} [FloatOps F]

/-- The mean over the last axis. -/
theorem rowMean_eq (x : FVec F Cert.KernelIdeal.S8192x4x1024 .f32) :
    Cert.KernelIdeal.Hand.rowMean x = Cert.ReferenceIdeal.Hand.rowMean x := rfl

/-- The variance's divisor. -/
theorem varDen_eq : (Cert.KernelIdeal.Hand.varDen : FVec F Cert.KernelIdeal.S_ .f32) = Cert.ReferenceIdeal.Hand.varDen := rfl

/-- The variance over the last axis: the same select over the same mean and divisor. -/
theorem rowVar_eq (x : FVec F Cert.KernelIdeal.S8192x4x1024 .f32) :
    Cert.KernelIdeal.Hand.rowVar x = Cert.ReferenceIdeal.Hand.rowVar x := by
  unfold Cert.KernelIdeal.Hand.rowVar Cert.ReferenceIdeal.Hand.rowVar
  rw [rowMean_eq, varDen_eq]

/-- The normalisation from a given mean and variance. -/
theorem lnOf_eq (μ v : FVec F Cert.KernelIdeal.S8192x4x1 .f32) (x : FVec F Cert.KernelIdeal.S8192x4x1024 .f32)
    (s o : FVec F Cert.KernelIdeal.S1024 .f32) :
    Cert.KernelIdeal.Hand.lnOf μ v x s o = Cert.ReferenceIdeal.Hand.lnOf μ v x s o := rfl

/-- LayerNorm. -/
theorem ln_eq (x : FVec F Cert.KernelIdeal.S8192x4x1024 .f32) (s o : FVec F Cert.KernelIdeal.S1024 .f32) :
    Cert.KernelIdeal.Hand.ln x s o = Cert.ReferenceIdeal.Hand.ln x s o := by
  unfold Cert.KernelIdeal.Hand.ln Cert.ReferenceIdeal.Hand.ln
  rw [rowMean_eq, rowVar_eq, lnOf_eq]

/-- The four cyclic shifts stacked and merged. -/
theorem rollsOf_eq (y : FVec F Cert.KernelIdeal.S8192x4x1024 .f32) :
    Cert.KernelIdeal.Hand.rollsOf y = Cert.ReferenceIdeal.Hand.rollsOf y := rfl

/-- The rolled array, for any float family. -/
theorem rolls_eqF (x : FVec F Cert.KernelIdeal.S8192x4x1024 .f32) (s o : FVec F Cert.KernelIdeal.S1024 .f32) :
    Cert.KernelIdeal.Hand.rolls x s o = Cert.ReferenceIdeal.Hand.rolls x s o := by
  unfold Cert.KernelIdeal.Hand.rolls Cert.ReferenceIdeal.Hand.rolls
  rw [ln_eq, rollsOf_eq]

end Levels

/-- The rolled array is one term in both programs: the same operations in the same order on the same arrays. -/
theorem rolls_eq (x : FVec Ideal Cert.KernelIdeal.S8192x4x1024 .f32) (s o : FVec Ideal Cert.KernelIdeal.S1024 .f32) :
    Cert.KernelIdeal.Hand.rolls (F := Ideal) x s o = Cert.ReferenceIdeal.Hand.rolls (F := Ideal) x s o := by
  exact rolls_eqF x s o

variable (m : (ℓ : Loc Cert.KernelIdeal.nD Cert.KernelIdeal.τ Cert.KernelIdeal.sig) → Buf (Elt Ideal) ℓ)

/-- The reference's result on the kernel's arguments is the kernel's result. -/
theorem result_eq (c : Dev Cert.KernelIdeal.nD) :
    Cert.ReferenceIdeal.Hand.res (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = Cert.KernelIdeal.Hand.Kout m c := by
  -- the staged weight matrices are the argument matrices: narrowing the float format is the identity on extended reals
  have hW1 : (Cert.KernelIdeal.Hand.arrW1 m c : Cert.KernelIdeal.S4096x4096.Idx → EReal)
      = m ((c.tc : Thread Cert.KernelIdeal.nD Cert.KernelIdeal.τ).loc Cert.KernelIdeal.main_arg3) :=
    funext fun j => by rw [eq_ix2 j]; exact Cert.KernelIdeal.Hand.V_v31_apply m c _ _
  have hW2 : (Cert.KernelIdeal.Hand.arrW2 m c : Cert.KernelIdeal.S4096x1024.Idx → EReal)
      = m ((c.tc : Thread Cert.KernelIdeal.nD Cert.KernelIdeal.τ).loc Cert.KernelIdeal.main_arg5) :=
    funext fun j => by rw [eq_ix2 j]; exact Cert.KernelIdeal.Hand.V_v32_apply m c _ _
  -- entry by entry: the reference's entry (b, k, w) is the 3-D form, the kernel's is the flat form at row 4·b + k
  funext i
  obtain ⟨b, k, w, rfl⟩ : ∃ b k w, i = ix3 b k w := ⟨i 0, i 1, i 2, eq_ix3 i⟩
  rw [Cert.ReferenceIdeal.Hand.res_eq, Cert.KernelIdeal.Hand.Kout_apply]
  show _ = Cert.Spec.GflatAcc (Cert.KernelIdeal.Hand.arrR m c) (Cert.KernelIdeal.Hand.arrW1 m c) (Cert.KernelIdeal.Hand.arrB1 m c) (Cert.KernelIdeal.Hand.arrW2 m c)
      (Cert.KernelIdeal.Hand.arrB2 m c) (Cert.KernelIdeal.Hand.arrX m c) _
  -- the running sum over the eight blocks is the sum over all mid columns
  rw [Cert.Spec.GflatAcc_eq, hW1, hW2]
  -- the flat arrays are the 3-D ones re-indexed: R by the common host prefix, x, b1, b2 by the reshapes
  exact Cert.Spec.G3_eq_Gflat _ _ _ _ _ _ _ _ _ _
    (fun b k f => (Cert.KernelIdeal.Hand.V_v29_apply m c b k f).trans (congrFun (rolls_eq _ _ _) _))
    (Cert.KernelIdeal.Hand.V_v30_apply m c) (Cert.KernelIdeal.Hand.V_v33_apply m c) (Cert.KernelIdeal.Hand.V_v34_apply m c) b k w

end Cert.Bridge

end
-- ==== Proof.lean ====
/-
  The certificate of the fused MLP block (LayerNorm and four rolls on the host; matmul, tanh-GELU, matmul, bias and
  residual in one pallas_call over a 64 × 8 grid with an accumulator carried along the second axis) against its jnp
  reference. The three frames: each kernel program by its launch with the accumulator carried between grid points, the
  reference by its straight-line run. The ideal pass rewrote nothing. The two idealized programs end with equal results:
  the kernel's result is the flat form of the specification over the staged arrays, the reference's the 3-D form over the
  same rolled array, and the two forms agree on the extended reals by commutativity and associativity of + and ·.
-/
import proofs.«114533_j75574244540703_1_alg».proof.Defs
import proofs.«114533_j75574244540703_1_alg».proof.Proof.Gen.Kernel
import proofs.«114533_j75574244540703_1_alg».proof.Proof.Gen.KernelIdeal
import proofs.«114533_j75574244540703_1_alg».proof.Proof.Gen.ReferenceIdeal
import proofs.«114533_j75574244540703_1_alg».proof.Proof.Gen.Pre_finite_inputs
import proofs.«114533_j75574244540703_1_alg».proof.Proof.K.Frame
import proofs.«114533_j75574244540703_1_alg».proof.Proof.KI.Frame
import proofs.«114533_j75574244540703_1_alg».proof.Proof.KI.Final
import proofs.«114533_j75574244540703_1_alg».proof.Proof.RI.Run
import proofs.«114533_j75574244540703_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- Both idealized programs run, the kernel's result buffer ends at the flat form re-indexed and the reference's at the
    3-D form of the same function of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.Kout m c, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2.1, (hagree c).2.2.2.2.2.2]
  exact Cert.Bridge.result_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
